-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)
  ∧ IdealRules.named_const.Statement Cert.KernelIdeal.κ "inv_30" .f32 0x3D088889#32 ((1 / 30 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x30x64 : Shape := ⟨4, ![8, 2048, 30, 64]⟩
abbrev S8x2048x30 : Shape := ⟨3, ![8, 2048, 30]⟩
abbrev S8x2048 : Shape := ⟨2, ![8, 2048]⟩
abbrev S3x128x128 : Shape := ⟨3, ![3, 128, 128]⟩
abbrev S3x128 : Shape := ⟨2, ![3, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x30x64 : S_.BroadcastsInDim S8x2048x30x64 (![] : Fin 0 → Fin S8x2048x30x64.rank)
  reducesTo_S8x2048x30x64_S_d0_1_2_3 : S8x2048x30x64.ReducesTo [0, 1, 2, 3] S_
  bcast_S_S8x2048 : S_.BroadcastsInDim S8x2048 (![] : Fin 0 → Fin S8x2048.rank)
  reducesTo_S8x2048_S_d0_1 : S8x2048.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S8x2048x30 : S_.BroadcastsInDim S8x2048x30 (![] : Fin 0 → Fin S8x2048x30.rank)
  reducesTo_S8x2048x30_S_d0_1_2 : S8x2048x30.ReducesTo [0, 1, 2] S_

variable [Facts]

def fn_part2 {F : FTy → Type} [FloatOps F] (main_arg2 : IVec S8x2048x30 32) (main_v33 : IVec S_ 1) : IVec S_ 1 :=
  let main_c_12 : IVec S_ 32 := constantI S_ 32 0#32
  let main_v34 : IVec S8x2048x30 32 := broadcastInDim S8x2048x30 ![] bcast_S_S8x2048x30 main_c_12
  let main_v35 : IVec S8x2048x30 1 := cmpi .sge main_arg2 main_v34
  let main_c_13 : IVec S_ 1 := constantI S_ 1 1#1
  let main_v36 : IVec S_ 1 := (fun x v => Host.reduce IntOp.andi x v reducesTo_S8x2048x30_S_d0_1_2 h_S_) main_v35 main_c_13
  let main_v37 : IVec S_ 1 := andi main_v33 main_v36
  let main_c_14 : IVec S_ 32 := constantI S_ 32 2048#32
  let main_v38 : IVec S8x2048x30 32 := broadcastInDim S8x2048x30 ![] bcast_S_S8x2048x30 main_c_14
  let main_v39 : IVec S8x2048x30 1 := cmpi .slt main_arg2 main_v38
  let main_c_15 : IVec S_ 1 := constantI S_ 1 1#1
  let main_v40 : IVec S_ 1 := (fun x v => Host.reduce IntOp.andi x v reducesTo_S8x2048x30_S_d0_1_2 h_S_) main_v39 main_c_15
  let main_v41 : IVec S_ 1 := andi main_v37 main_v40
  main_v41

def fn_part1 {F : FTy → Type} [FloatOps F] (main_arg2 : IVec S8x2048x30 32) (main_arg5 : FVec F S3x128 .f32) (main_arg6 : FVec F S3x128 .f32) (main_arg7 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg2 main_v33

def fn {F : FTy → Type} [FloatOps F] (main_arg0 : FVec F S8x2048x128 .f32) (main_arg1 : FVec F S8x2048x30x64 .f32) (main_arg2 : IVec S8x2048x30 32) (main_arg3 : FVec F S8x2048 .f32) (main_arg4 : FVec F S3x128x128 .f32) (main_arg5 : FVec F S3x128 .f32) (main_arg6 : FVec F S3x128 .f32) (main_arg7 : FVec F S3x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x30x64 .f32 := Host.absf main_arg1
  let main_cst_0 : FVec F S_ .f32 := constant S_ .f32 0x7F800000#32
  let main_v5 : FVec F S8x2048x30x64 .f32 := broadcastInDim S8x2048x30x64 ![] bcast_S_S8x2048x30x64 main_cst_0
  let main_v6 : IVec S8x2048x30x64 1 := cmpf .olt main_v4 main_v5
  let main_c_1 : IVec S_ 1 := constantI S_ 1 1#1
  let main_v7 : IVec S_ 1 := (fun x v => Host.reduce IntOp.andi x v reducesTo_S8x2048x30x64_S_d0_1_2_3 h_S_) main_v6 main_c_1
  let main_v8 : IVec S_ 1 := andi main_v3 main_v7
  let main_v9 : FVec F S8x2048 .f32 := Host.absf main_arg3
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg2 main_arg5 main_arg6 main_arg7 main_v13 main_v16
-- ==== Kernel.lean ====
abbrev S8x2048x128 : Shape := ⟨3, ![8, 2048, 128]⟩
abbrev S8x2048x30x64 : Shape := ⟨4, ![8, 2048, 30, 64]⟩
abbrev S8x2048x30 : Shape := ⟨3, ![8, 2048, 30]⟩
abbrev S8x2048 : Shape := ⟨2, ![8, 2048]⟩
abbrev S3x128x128 : Shape := ⟨3, ![3, 128, 128]⟩
abbrev S3x128 : Shape := ⟨2, ![3, 128]⟩
abbrev S_ : Shape := ⟨0, ![]⟩
abbrev S8x2048x1 : Shape := ⟨3, ![8, 2048, 1]⟩
abbrev S1x2048x128 : Shape := ⟨3, ![1, 2048, 128]⟩
abbrev S1x2048x30 : Shape := ⟨3, ![1, 2048, 30]⟩
abbrev S1x2048x1 : Shape := ⟨3, ![1, 2048, 1]⟩
abbrev S2048x2048 : Shape := ⟨2, ![2048, 2048]⟩
abbrev S2048x128 : Shape := ⟨2, ![2048, 128]⟩
abbrev S2048x1 : Shape := ⟨2, ![2048, 1]⟩
abbrev S2048x256 : Shape := ⟨2, ![2048, 256]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2048 : Shape := ⟨1, ![2048]⟩

abbrev nBuf : Space → Nat
  | .hbm => 18
  | .vmem => 15
  | .smem => 0
  | _ => 0

abbrev bufTy : (tb : Table) → Fin (tcTables nBuf tb) → BufTy
  | .hbm, ⟨0, _⟩ => ⟨S8x2048x128, .f32⟩
  | .hbm, ⟨1, _⟩ => ⟨S8x2048x30x64, .f32⟩
  | .hbm, ⟨2, _⟩ => ⟨S8x2048x30, .i32⟩
  | .hbm, ⟨3, _⟩ => ⟨S8x2048, .f32⟩
  | .hbm, ⟨4, _⟩ => ⟨S3x128x128, .f32⟩
  | .hbm, ⟨5, _⟩ => ⟨S3x128, .f32⟩
  | .hbm, ⟨6, _⟩ => ⟨S3x128, .f32⟩
  | .hbm, ⟨7, _⟩ => ⟨S3x128, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S8x2048x30, .i32⟩
  | .hbm, ⟨12, _⟩ => ⟨S8x2048x30, .i32⟩
  | .hbm, ⟨13, _⟩ => ⟨S_, .i32⟩
  | .hbm, ⟨14, _⟩ => ⟨S8x2048x30, .i32⟩
  | .hbm, ⟨15, _⟩ => ⟨S8x2048x30, .i32⟩
  | .hbm, ⟨16, _⟩ => ⟨S8x2048x1, .f32⟩
  | .hbm, ⟨17, _⟩ => ⟨S8x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x30, .i32⟩
  | .local _ .vmem, ⟨3, _⟩ => ⟨S1x2048x30, .i32⟩
  | .local _ .vmem, ⟨4, _⟩ => ⟨S1x2048x1, .f32⟩
  | .local _ .vmem, ⟨5, _⟩ => ⟨S1x2048x1, .f32⟩
  | .local _ .vmem, ⟨6, _⟩ => ⟨S3x128x128, .f32⟩
  | .local _ .vmem, ⟨7, _⟩ => ⟨S3x128, .f32⟩
  | .local _ .vmem, ⟨8, _⟩ => ⟨S3x128, .f32⟩
  | .local _ .vmem, ⟨9, _⟩ => ⟨S3x128, .f32⟩
  | .local _ .vmem, ⟨10, _⟩ => ⟨S1x2048x128, .f32⟩
  | .local _ .vmem, ⟨11, _⟩ => ⟨S1x2048x128, .f32⟩
  | .local _ .vmem, ⟨12, _⟩ => ⟨S2048x2048, .bf16⟩
  | .local _ .vmem, ⟨13, _⟩ => ⟨S2048x128, .f32⟩
  | .local _ .vmem, ⟨14, _⟩ => ⟨S2048x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v62 : BitVec 32 := Scalar.addi c0_i32 c8_i32
  let c1_i32 : BitVec 32 := 1#32
  ⟨c0_i32, v62, c1_i32⟩
def k0_mult1 (k0_t1 : Fin k0_t1_loop.trips) : BitVec 32 :=
  let c0_i32_138 : BitVec 32 := 0#32
  let c0_i32 : BitVec 32 := 0#32
  let c1_i32 : BitVec 32 := 1#32
  let arg12 : BitVec 32 := Scf.iv c0_i32 c1_i32 k0_t1
  let c1_i32_137 : BitVec 32 := 1#32
  let v220 : BitVec 32 := Scalar.muli arg12 c1_i32_137
  let v221 : BitVec 32 := Scalar.addi c0_i32_138 v220
  let c256_i32 : BitVec 32 := 256#32
  let v222 : BitVec 32 := Scalar.muli v221 c256_i32
  v222
def k0_off1 (k0_t1 : Fin k0_t1_loop.trips) : Fin 2 → Nat :=
  let c0_140 : Index := 0#32
  let c0_i32_138 : BitVec 32 := 0#32
  let c0_i32 : BitVec 32 := 0#32
  let c1_i32 : BitVec 32 := 1#32
  let arg12 : BitVec 32 := Scf.iv c0_i32 c1_i32 k0_t1
  let c1_i32_137 : BitVec 32 := 1#32
  let v220 : BitVec 32 := Scalar.muli arg12 c1_i32_137
  let v221 : BitVec 32 := Scalar.addi c0_i32_138 v220
  let c256_i32 : BitVec 32 := 256#32
  let v222 : BitVec 32 := Scalar.muli v221 c256_i32
  let v223 : BitVec 32 := v222
  let v408 : Index := Scalar.indexCast v223
  ![0, v408.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x30 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S8x2048x30 : S_.BroadcastsInDim S8x2048x30 (![] : Fin 0 → Fin S8x2048x30.rank)
  bcast_S8x2048_S8x2048x1_0_1 : S8x2048.BroadcastsInDim S8x2048x1 (![0, 1] : Fin 2 → Fin S8x2048x1.rank)
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x2048x30_S1x2048x1_0_0_0 : ∀ a, (![0, 0, 0] : Fin 3 → Nat) a + S1x2048x1.size a ≤ S1x2048x30.size a
  inb_S1x2048x30_S1x2048x1_0_0_1 : ∀ a, (![0, 0, 1] : Fin 3 → Nat) a + S1x2048x1.size a ≤ S1x2048x30.size a
  inb_S1x2048x30_S1x2048x1_0_0_2 : ∀ a, (![0, 0, 2] : Fin 3 → Nat) a + S1x2048x1.size a ≤ S1x2048x30.size a
  inb_S1x2048x30_S1x2048x1_0_0_3 : ∀ a, (![0, 0, 3] : Fin 3 → Nat) a + S1x2048x1.size a ≤ S1x2048x30.size a
  inb_S1x2048x30_S1x2048x1_0_0_4 : ∀ a, (![0, 0, 4] : Fin 3 → Nat) a + S1x2048x1.size a ≤ S1x2048x30.size a
  inb_S1x2048x30_S1x2048x1_0_0_5 : ∀ a, (![0, 0, 5] : Fin 3 → Nat) a + S1x2048x1.size a ≤ S1x2048x30.size a
  inb_S1x2048x30_S1x2048x1_0_0_6 : ∀ a, (![0, 0, 6] : Fin 3 → Nat) a + S1x2048x1.size a ≤ S1x2048x30.size a
  inb_S1x2048x30_S1x2048x1_0_0_7 : ∀ a, (![0, 0, 7] : Fin 3 → Nat) a + S1x2048x1.size a ≤ S1x2048x30.size a
  inb_S1x2048x30_S1x2048x1_0_0_8 : ∀ a, (![0, 0, 8] : Fin 3 → Nat) a + S1x2048x1.size a ≤ S1x2048x30.size a
  inb_S1x2048x30_S1x2048x1_0_0_9 : ∀ a, (![0, 0, 9] : Fin 3 → Nat) a + S1x2048x1.size a ≤ S1x2048x30.size a
  inb_S1x2048x30_S1x2048x1_0_0_10 : ∀ a, (![0, 0, 10] : Fin 3 → Nat) a + S1x2048x1.size a ≤ S1x2048x30.size a
  inb_S1x2048x30_S1x2048x1_0_0_11 : ∀ a, (![0, 0, 11] : Fin 3 → Nat) a + S1x2048x1.size a ≤ S1x2048x30.size a
  inb_S1x2048x30_S1x2048x1_0_0_12 : ∀ a, (![0, 0, 12] : Fin 3 → Nat) a + S1x2048x1.size a ≤ S1x2048x30.size a
  inb_S1x2048x30_S1x2048x1_0_0_13 : ∀ a, (![0, 0, 13] : Fin 3 → Nat) a + S1x2048x1.size a ≤ S1x2048x30.size a
  inb_S1x2048x30_S1x2048x1_0_0_14 : ∀ a, (![0, 0, 14] : Fin 3 → Nat) a + S1x2048x1.size a ≤ S1x2048x30.size a
  inb_S1x2048x30_S1x2048x1_0_0_15 : ∀ a, (![0, 0, 15] : Fin 3 → Nat) a + S1x2048x1.size a ≤ S1x2048x30.size a
  inb_S1x2048x30_S1x2048x1_0_0_16 : ∀ a, (![0, 0, 16] : Fin 3 → Nat) a + S1x2048x1.size a ≤ S1x2048x30.size a
  inb_S1x2048x30_S1x2048x1_0_0_17 : ∀ a, (![0, 0, 17] : Fin 3 → Nat) a + S1x2048x1.size a ≤ S1x2048x30.size a
  inb_S1x2048x30_S1x2048x1_0_0_18 : ∀ a, (![0, 0, 18] : Fin 3 → Nat) a + S1x2048x1.size a ≤ S1x2048x30.size a
  inb_S1x2048x30_S1x2048x1_0_0_19 : ∀ a, (![0, 0, 19] : Fin 3 → Nat) a + S1x2048x1.size a ≤ S1x2048x30.size a
  inb_S1x2048x30_S1x2048x1_0_0_20 : ∀ a, (![0, 0, 20] : Fin 3 → Nat) a + S1x2048x1.size a ≤ S1x2048x30.size a
  inb_S1x2048x30_S1x2048x1_0_0_21 : ∀ a, (![0, 0, 21] : Fin 3 → Nat) a + S1x2048x1.size a ≤ S1x2048x30.size a
  inb_S1x2048x30_S1x2048x1_0_0_22 : ∀ a, (![0, 0, 22] : Fin 3 → Nat) a + S1x2048x1.size a ≤ S1x2048x30.size a
  inb_S1x2048x30_S1x2048x1_0_0_23 : ∀ a, (![0, 0, 23] : Fin 3 → Nat) a + S1x2048x1.size a ≤ S1x2048x30.size a
  inb_S1x2048x30_S1x2048x1_0_0_24 : ∀ a, (![0, 0, 24] : Fin 3 → Nat) a + S1x2048x1.size a ≤ S1x2048x30.size a
  inb_S1x2048x30_S1x2048x1_0_0_25 : ∀ a, (![0, 0, 25] : Fin 3 → Nat) a + S1x2048x1.size a ≤ S1x2048x30.size a
  inb_S1x2048x30_S1x2048x1_0_0_26 : ∀ a, (![0, 0, 26] : Fin 3 → Nat) a + S1x2048x1.size a ≤ S1x2048x30.size a
  inb_S1x2048x30_S1x2048x1_0_0_27 : ∀ a, (![0, 0, 27] : Fin 3 → Nat) a + S1x2048x1.size a ≤ S1x2048x30.size a
  inb_S1x2048x30_S1x2048x1_0_0_28 : ∀ a, (![0, 0, 28] : Fin 3 → Nat) a + S1x2048x1.size a ≤ S1x2048x30.size a
  inb_S1x2048x30_S1x2048x1_0_0_29 : ∀ a, (![0, 0, 29] : Fin 3 → Nat) a + S1x2048x1.size a ≤ S1x2048x30.size a
  iota_S2048x256_d1_w32 : S2048x256.Iotas .tc 32 [1]
  broadcasts_S2048x1_S2048x256 : S2048x1.Broadcasts S2048x256
  natLt_1_32 : 1 < 32
  bitsLt_bf16_f32 : FTy.bits .bf16 < FTy.bits .f32
  h_S2048x256 : 0 < S2048x256.numel
  shapeCasts_S2048x256_S2048x256 : S2048x256.ShapeCasts S2048x256
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S2048x2048_S2048x2048_0_0 : ∀ a, (![0, 0] : Fin 2 → Nat) a + S2048x2048.size a ≤ S2048x2048.size a
  h_S2048x2048 : 0 < S2048x2048.numel
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  shapeCasts_S2048x128_S1x2048x128 : S2048x128.ShapeCasts S1x2048x128
  dot_S2048x2048_S2048x128_S2048x128_1_0_0_1_n_n_wf : DotDims.WF S2048x2048 S2048x128 S2048x128 [1] [0] [0] [1] [] []
  dot_S2048x128_S128x128_S2048x128_1_0_0_1_n_n_wf : DotDims.WF S2048x128 S128x128 S2048x128 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S2048x256.size a ≤ S2048x2048.size a
  k0_off1_packedbf16 : ∀ k0_t1 : Fin k0_t1_loop.trips, (Rect.unit (s := S2048x2048) (k0_off1 k0_t1) S2048x256.size (k0_off1_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x30.size a ≤ S8x2048x30.size a
  hwx0_1 : ∀ i : grid0.Coords, EltTy.bits .i32 = 32 ∨ (Rect.block (s := S8x2048x30) S1x2048x30.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S8x2048x1.size a
  hwx0_2 : ∀ i : grid0.Coords, EltTy.bits .f32 = 32 ∨ (Rect.block (s := S8x2048x1) S1x2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .f32 = 32 ∨ (Rect.block (s := S3x128x128) S3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128.size a ≤ S3x128.size a
  hwx0_4 : ∀ i : grid0.Coords, EltTy.bits .f32 = 32 ∨ (Rect.block (s := S3x128) S3x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .f32 = 32 ∨ (Rect.block (s := S3x128) S3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x128.size a ≤ S3x128.size a
  hwx0_6 : ∀ i : grid0.Coords, EltTy.bits .f32 = 32 ∨ (Rect.block (s := S3x128) S3x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x128.size a ≤ S8x2048x128.size a
  hwx0_7 : ∀ i : grid0.Coords, EltTy.bits .f32 = 32 ∨ (Rect.block (s := S8x2048x128) S1x2048x128.size (cc0_transform_7 i) (hinb0_7 i)).WholeWords (EltTy.packing .f32)

variable [Facts₀]

def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S3x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x30x64 : Shape := ⟨4, ![8, 2048, 30, 64]⟩
abbrev S8x2048x30 : Shape := ⟨3, ![8, 2048, 30]⟩
abbrev S8x2048 : Shape := ⟨2, ![8, 2048]⟩
abbrev S3x128x128 : Shape := ⟨3, ![3, 128, 128]⟩
abbrev S3x128 : Shape := ⟨2, ![3, 128]⟩
abbrev S8x2048x1 : Shape := ⟨3, ![8, 2048, 1]⟩
abbrev S_ : Shape := ⟨0, ![]⟩
abbrev S8x2048x30x1 : Shape := ⟨4, ![8, 2048, 30, 1]⟩
abbrev S8x2048x30x128 : Shape := ⟨4, ![8, 2048, 30, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1x128 : Shape := ⟨3, ![1, 1, 128]⟩

abbrev nBuf : Space → Nat
  | .hbm => 192
  | .vmem => 0
  | .smem => 0
  | _ => 0

abbrev hbmTy0_0 (i : Nat) : BufTy := match i % 128 with
  | 0 => ⟨S8x2048x128, .f32⟩
  | 1 => ⟨S8x2048x30x64, .f32⟩
  | 2 => ⟨S8x2048x30, .i32⟩
  | 3 => ⟨S8x2048, .f32⟩
  | 4 => ⟨S3x128x128, .f32⟩
  | 5 => ⟨S3x128, .f32⟩
  | 6 => ⟨S3x128, .f32⟩
  | 7 => ⟨S3x128, .f32⟩
  | 8 => ⟨S8x2048x1, .f32⟩
  | 9 => ⟨S_, .i32⟩
  | 10 => ⟨S8x2048x30, .i32⟩
  | 11 => ⟨S8x2048x30, .i1⟩
  | 12 => ⟨S_, .i32⟩
  | 13 => ⟨S8x2048x30, .i32⟩
  | 14 => ⟨S8x2048x30, .i32⟩
  | 15 => ⟨S8x2048x30, .i32⟩
  | 16 => ⟨S8x2048x30x1, .i32⟩
  | 17 => ⟨S8x2048x30x128, .f32⟩
  | 18 => ⟨S_, .f32⟩
  | 19 => ⟨S8x2048x128, .f32⟩
  | 20 => ⟨S_, .f32⟩
  | 21 => ⟨S8x2048x128, .f32⟩
  | 22 => ⟨S8x2048x128, .f32⟩
  | 23 => ⟨S8x2048x128, .f32⟩
  | 24 => ⟨S1x128x128, .f32⟩
  | 25 => ⟨S128x128, .f32⟩
  | 26 => ⟨S8x2048x128, .f32⟩
  | 27 => ⟨S1x128, .f32⟩
  | 28 => ⟨S128, .f32⟩
  | 29 => ⟨S1x1x128, .f32⟩
  | 30 => ⟨S8x2048x128, .f32⟩
  | 31 => ⟨S8x2048x128, .f32⟩
  | 32 => ⟨S_, .f32⟩
  | 33 => ⟨S8x2048x128, .f32⟩
  | 34 => ⟨S8x2048x128, .f32⟩
  | 35 => ⟨S1x128, .f32⟩
  | 36 => ⟨S128, .f32⟩
  | 37 => ⟨S1x128, .f32⟩
  | 38 => ⟨S128, .f32⟩
  | 39 => ⟨S_, .f32⟩
  | 40 => ⟨S8x2048, .f32⟩
  | 41 => ⟨S8x2048x1, .f32⟩
  | 42 => ⟨S_, .f32⟩
  | 43 => ⟨S8x2048x1, .f32⟩
  | 44 => ⟨S8x2048x1, .f32⟩
  | 45 => ⟨S8x2048x128, .f32⟩
  | 46 => ⟨S8x2048x128, .f32⟩
  | 47 => ⟨S8x2048x128, .f32⟩
  | 48 => ⟨S_, .f32⟩
  | 49 => ⟨S8x2048, .f32⟩
  | 50 => ⟨S8x2048x1, .f32⟩
  | 51 => ⟨S_, .f32⟩
  | 52 => ⟨S8x2048x1, .f32⟩
  | 53 => ⟨S8x2048x1, .f32⟩
  | 54 => ⟨S8x2048x128, .f32⟩
  | 55 => ⟨S8x2048x128, .f32⟩
  | 56 => ⟨S_, .f32⟩
  | 57 => ⟨S8x2048x1, .f32⟩
  | 58 => ⟨S8x2048x1, .f32⟩
  | 59 => ⟨S8x2048x1, .f32⟩
  | 60 => ⟨S8x2048x128, .f32⟩
  | 61 => ⟨S8x2048x128, .f32⟩
  | 62 => ⟨S1x1x128, .f32⟩
  | 63 => ⟨S8x2048x128, .f32⟩
  | 64 => ⟨S8x2048x128, .f32⟩
  | 65 => ⟨S1x1x128, .f32⟩
  | 66 => ⟨S8x2048x128, .f32⟩
  | 67 => ⟨S8x2048x128, .f32⟩
  | 68 => ⟨S8x2048x128, .f32⟩
  | 69 => ⟨S8x2048x128, .f32⟩
  | 70 => ⟨S_, .i32⟩
  | 71 => ⟨S8x2048x30, .i32⟩
  | 72 => ⟨S8x2048x30, .i1⟩
  | 73 => ⟨S_, .i32⟩
  | 74 => ⟨S8x2048x30, .i32⟩
  | 75 => ⟨S8x2048x30, .i32⟩
  | 76 => ⟨S8x2048x30, .i32⟩
  | 77 => ⟨S8x2048x30x1, .i32⟩
  | 78 => ⟨S8x2048x30x128, .f32⟩
  | 79 => ⟨S_, .f32⟩
  | 80 => ⟨S8x2048x128, .f32⟩
  | 81 => ⟨S_, .f32⟩
  | 82 => ⟨S8x2048x128, .f32⟩
  | 83 => ⟨S8x2048x128, .f32⟩
  | 84 => ⟨S8x2048x128, .f32⟩
  | 85 => ⟨S1x128x128, .f32⟩
  | 86 => ⟨S128x128, .f32⟩
  | 87 => ⟨S8x2048x128, .f32⟩
  | 88 => ⟨S1x128, .f32⟩
  | 89 => ⟨S128, .f32⟩
  | 90 => ⟨S1x1x128, .f32⟩
  | 91 => ⟨S8x2048x128, .f32⟩
  | 92 => ⟨S8x2048x128, .f32⟩
  | 93 => ⟨S_, .f32⟩
  | 94 => ⟨S8x2048x128, .f32⟩
  | 95 => ⟨S8x2048x128, .f32⟩
  | 96 => ⟨S1x128, .f32⟩
  | 97 => ⟨S128, .f32⟩
  | 98 => ⟨S1x128, .f32⟩
  | 99 => ⟨S128, .f32⟩
  | 100 => ⟨S_, .f32⟩
  | 101 => ⟨S8x2048, .f32⟩
  | 102 => ⟨S8x2048x1, .f32⟩
  | 103 => ⟨S_, .f32⟩
  | 104 => ⟨S8x2048x1, .f32⟩
  | 105 => ⟨S8x2048x1, .f32⟩
  | 106 => ⟨S8x2048x128, .f32⟩
  | 107 => ⟨S8x2048x128, .f32⟩
  | 108 => ⟨S8x2048x128, .f32⟩
  | 109 => ⟨S_, .f32⟩
  | 110 => ⟨S8x2048, .f32⟩
  | 111 => ⟨S8x2048x1, .f32⟩
  | 112 => ⟨S_, .f32⟩
  | 113 => ⟨S8x2048x1, .f32⟩
  | 114 => ⟨S8x2048x1, .f32⟩
  | 115 => ⟨S8x2048x128, .f32⟩
  | 116 => ⟨S8x2048x128, .f32⟩
  | 117 => ⟨S_, .f32⟩
  | 118 => ⟨S8x2048x1, .f32⟩
  | 119 => ⟨S8x2048x1, .f32⟩
  | 120 => ⟨S8x2048x1, .f32⟩
  | 121 => ⟨S8x2048x128, .f32⟩
  | 122 => ⟨S8x2048x128, .f32⟩
  | 123 => ⟨S1x1x128, .f32⟩
  | 124 => ⟨S8x2048x128, .f32⟩
  | 125 => ⟨S8x2048x128, .f32⟩
  | 126 => ⟨S1x1x128, .f32⟩
  | 127 => ⟨S8x2048x128, .f32⟩
  | _ => ⟨S8x2048x128, .f32⟩

abbrev hbmTy0_1 (i : Nat) : BufTy := match i % 128 with
  | 0 => ⟨S8x2048x128, .f32⟩
  | 1 => ⟨S8x2048x128, .f32⟩
  | 2 => ⟨S8x2048x128, .f32⟩
  | 3 => ⟨S_, .i32⟩
  | 4 => ⟨S8x2048x30, .i32⟩
  | 5 => ⟨S8x2048x30, .i1⟩
  | 6 => ⟨S_, .i32⟩
  | 7 => ⟨S8x2048x30, .i32⟩
  | 8 => ⟨S8x2048x30, .i32⟩
  | 9 => ⟨S8x2048x30, .i32⟩
  | 10 => ⟨S8x2048x30x1, .i32⟩
  | 11 => ⟨S8x2048x30x128, .f32⟩
  | 12 => ⟨S_, .f32⟩
  | 13 => ⟨S8x2048x128, .f32⟩
  | 14 => ⟨S_, .f32⟩
  | 15 => ⟨S8x2048x128, .f32⟩
  | 16 => ⟨S8x2048x128, .f32⟩
  | 17 => ⟨S8x2048x128, .f32⟩
  | 18 => ⟨S1x128x128, .f32⟩
  | 19 => ⟨S128x128, .f32⟩
  | 20 => ⟨S8x2048x128, .f32⟩
  | 21 => ⟨S1x128, .f32⟩
  | 22 => ⟨S128, .f32⟩
  | 23 => ⟨S1x1x128, .f32⟩
  | 24 => ⟨S8x2048x128, .f32⟩
  | 25 => ⟨S8x2048x128, .f32⟩
  | 26 => ⟨S_, .f32⟩
  | 27 => ⟨S8x2048x128, .f32⟩
  | 28 => ⟨S8x2048x128, .f32⟩
  | 29 => ⟨S1x128, .f32⟩
  | 30 => ⟨S128, .f32⟩
  | 31 => ⟨S1x128, .f32⟩
  | 32 => ⟨S128, .f32⟩
  | 33 => ⟨S_, .f32⟩
  | 34 => ⟨S8x2048, .f32⟩
  | 35 => ⟨S8x2048x1, .f32⟩
  | 36 => ⟨S_, .f32⟩
  | 37 => ⟨S8x2048x1, .f32⟩
  | 38 => ⟨S8x2048x1, .f32⟩
  | 39 => ⟨S8x2048x128, .f32⟩
  | 40 => ⟨S8x2048x128, .f32⟩
  | 41 => ⟨S8x2048x128, .f32⟩
  | 42 => ⟨S_, .f32⟩
  | 43 => ⟨S8x2048, .f32⟩
  | 44 => ⟨S8x2048x1, .f32⟩
  | 45 => ⟨S_, .f32⟩
  | 46 => ⟨S8x2048x1, .f32⟩
  | 47 => ⟨S8x2048x1, .f32⟩
  | 48 => ⟨S8x2048x128, .f32⟩
  | 49 => ⟨S8x2048x128, .f32⟩
  | 50 => ⟨S_, .f32⟩
  | 51 => ⟨S8x2048x1, .f32⟩
  | 52 => ⟨S8x2048x1, .f32⟩
  | 53 => ⟨S8x2048x1, .f32⟩
  | 54 => ⟨S8x2048x128, .f32⟩
  | 55 => ⟨S8x2048x128, .f32⟩
  | 56 => ⟨S1x1x128, .f32⟩
  | 57 => ⟨S8x2048x128, .f32⟩
  | 58 => ⟨S8x2048x128, .f32⟩
  | 59 => ⟨S1x1x128, .f32⟩
  | 60 => ⟨S8x2048x128, .f32⟩
  | 61 => ⟨S8x2048x128, .f32⟩
  | 62 => ⟨S8x2048x128, .f32⟩
  | 63 => ⟨S8x2048x128, .f32⟩
  | _ => ⟨S8x2048x128, .f32⟩

abbrev hbmTy (i : Nat) : BufTy := match i / 128 with
  | 0 => hbmTy0_0 i
  | 1 => hbmTy0_1 i
  | _ => ⟨S8x2048x128, .f32⟩

abbrev bufTy : (tb : Table) → Fin (tcTables nBuf tb) → BufTy
  | .hbm, ⟨i, _⟩ => hbmTy i
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_v52 : Ref sig .tc := ⟨.hbm, 72, rfl⟩
abbrev main_c_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call1_cst : Ref sig .tc := ⟨.hbm, 93, rfl⟩
abbrev main_call1_v0 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_cst_12 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_13 : Ref sig .tc := ⟨.hbm, 109, rfl⟩
abbrev main_v82 : Ref sig .tc := ⟨.hbm, 110, rfl⟩
abbrev main_v83 : Ref sig .tc := ⟨.hbm, 111, rfl⟩
abbrev main_cst_14 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_15 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c_16 : Ref sig .tc := ⟨.hbm, 131, rfl⟩
abbrev main_v101 : Ref sig .tc := ⟨.hbm, 132, rfl⟩
abbrev main_v102 : Ref sig .tc := ⟨.hbm, 133, rfl⟩
abbrev main_c_17 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_18 : Ref sig .tc := ⟨.hbm, 140, rfl⟩
abbrev main_v108 : Ref sig .tc := ⟨.hbm, 141, rfl⟩
abbrev main_cst_19 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_call2_cst : Ref sig .tc := ⟨.hbm, 154, rfl⟩
abbrev main_call2_v0 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_20 : Ref sig .tc := ⟨.hbm, 161, rfl⟩
abbrev main_v125 : Ref sig .tc := ⟨.hbm, 162, rfl⟩
abbrev main_v126 : Ref sig .tc := ⟨.hbm, 163, rfl⟩
abbrev main_cst_21 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_22 : Ref sig .tc := ⟨.hbm, 170, rfl⟩
abbrev main_v132 : Ref sig .tc := ⟨.hbm, 171, rfl⟩
abbrev main_v133 : Ref sig .tc := ⟨.hbm, 172, rfl⟩
abbrev main_cst_23 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_24 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩

abbrev nD : Nat := 1
abbrev τ : Topo := Topo.v7x

variable {F : FTy → Type} [FloatOps F]

class Facts₀ : Prop where
  bcast_S8x2048_S8x2048x1_0_1 : S8x2048.BroadcastsInDim S8x2048x1 (![0, 1] : Fin 2 → Fin S8x2048x1.rank)
  bcast_S_S8x2048x30 : S_.BroadcastsInDim S8x2048x30 (![] : Fin 0 → Fin S8x2048x30.rank)
  bcast_S8x2048x30_S8x2048x30x1_0_1_2 : S8x2048x30.BroadcastsInDim S8x2048x30x1 (![0, 1, 2] : Fin 3 → Fin S8x2048x30x1.rank)
  reducesTo_S8x2048x30x128_S8x2048x128_d2 : S8x2048x30x128.ReducesTo [2] S8x2048x128
  h_S_ : 0 < S_.numel
  bcast_S_S8x2048x128 : S_.BroadcastsInDim S8x2048x128 (![] : Fin 0 → Fin S8x2048x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x1x128_2 : S128.BroadcastsInDim S1x1x128 (![2] : Fin 1 → Fin S1x1x128.rank)
  bcast_S1x1x128_S8x2048x128_0_1_2 : S1x1x128.BroadcastsInDim S8x2048x128 (![0, 1, 2] : Fin 3 → Fin S8x2048x128.rank)
  reducesTo_S8x2048x128_S8x2048_d2 : S8x2048x128.ReducesTo [2] S8x2048
  bcast_S_S8x2048x1 : S_.BroadcastsInDim S8x2048x1 (![] : Fin 0 → Fin S8x2048x1.rank)
  bcast_S8x2048x1_S8x2048x128_0_1_2 : S8x2048x1.BroadcastsInDim S8x2048x128 (![0, 1, 2] : Fin 3 → Fin S8x2048x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S8x2048x128_S8x2048x30x1_S8x2048x30x128_3_1_0_0_1_3_11128_wf : GatherDims.WF S8x2048x128 S8x2048x30x1 S8x2048x30x128 [3] [1] [0] [1] [0] 3 ![1, 1, 128]
  dot_S8x2048x128_S128x128_S8x2048x128_2_0_01_1_n_n_wf : DotDims.WF S8x2048x128 S128x128 S8x2048x128 [2] [0] [0, 1] [1] [] []

variable [Facts₀]

def gather_S8x2048x128_S8x2048x30x1_S8x2048x30x128_3_1_0_0_1_3_11128 : GatherDims S8x2048x128 S8x2048x30x1 S8x2048x30x128 where
  offsetDims := [3]
  collapsedSliceDims := [1]
  operandBatchingDims := [0]
  startIndicesBatchingDims := [0]
  startIndexMap := [1]
  indexVectorDim := 3
  sliceSizes := ![1, 1, 128]
  wf := gather_S8x2048x128_S8x2048x30x1_S8x2048x30x128_3_1_0_0_1_3_11128_wf
def dot_S8x2048x128_S128x128_S8x2048x128_2_0_01_1_n_n : DotDims S8x2048x128 S128x128 S8x2048x128 where
  lhsContracting := [2]
  rhsContracting := [0]
  lhsNonContracting := [0, 1]
  rhsNonContracting := [1]
  lhsBatch := []
  rhsBatch := []
  wf := dot_S8x2048x128_S128x128_S8x2048x128_2_0_01_1_n_n_wf

class Facts : Prop extends Facts₀ where

variable [Facts]
-- ==== Proof.KBTrip.lean ====
/-
  One trip of the kernel's column-tile loop, read as a value.  Trip k stores ONE piece into the 2048 × 2048 matrix: the
  2048 × 256 tile of columns 256·k … 256·k + 255, whose entry (l, q) adds up, over the 30 neighbour columns, the indicator
  "row l's neighbour equals column 256·k + q".  The pieces of the trips before k are therefore the first k tiles.
-/
import proofs.«400262_j80745385165161_3_alg».proof.Proof.Gen.Kernel.Loops
import Idealize.ShloMosaic.Lib.Pipeline.Value
import Idealize.ShloMosaic.Lib.WritesUnit
import Idealize.ShloMosaic.Lib.ValueIdx
import Idealize.ShloMosaic.Lib.ValueLayout

set_option maxRecDepth 65536

noncomputable section

namespace Cert.Kernel.KTrip

open Cert.Kernel Cert.Kernel.Gen
open Idealize.ShloMosaic Idealize.ShloMosaic.TcCoe Idealize.ShloMosaic.Tactic
open Idealize.SL Idealize.SL.Sem

variable {F : FTy → Type} [FloatOps F]

/-- The tile trip k stores: the body's arithmetic from the 30 neighbour columns (22 already [2048, 1] columns, 8 still
    [1, 2048, 1] slices) and the trip's column numbers. -/
def tile (v3 v5 v7 v9 v11 v13 v15 v17 v19 v21 v23 v25 v27 v29 v31 v33 v35 v37 v39 v41 v43 v45 : IVec S2048x1 32) (v46 v48 v50 v52 v54 v56 v58 v60 : Vec F S1x2048x1 .i32) (k : Fin k0_t1_loop.trips) : FVec F S2048x256 .bf16 :=
  k0_pay38 v58 v60 (k0_pay2 0#32 1#32 k)
    (k0_pay7 v39 v41 v43 v45 (k0_pay32 v46) (k0_pay33 v48) (k0_pay34 v50) (k0_pay35 v52) (k0_pay36 v54) (k0_pay2 0#32 1#32 k)
      (k0_pay5 v19 v21 v23 v25 v27 v29 v31 v33 v35 (k0_pay2 0#32 1#32 k)
        (k0_pay3 v3 v5 v7 v9 v11 v13 v15 0#32 1#32 k) (k0_pay4 v17 0#32 1#32 k))
      (k0_pay6 v37 (k0_pay2 0#32 1#32 k)))
    (k0_pay8 (k0_pay37 v56) (k0_pay2 0#32 1#32 k))

/-- Trip k's pieces: the one tile, at columns 256·k. -/
theorem tripL_eq (𝒱 : Variants) (c : Dev nD) (bd : Option 𝒱.V) (i : grid0.Coords) (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S1x2048x128 .f32) (harg8 : arg8.IsWhole) (arg9 : Memref sig .tc .vmem S2048x2048 .bf16) (harg9 : arg9.IsWhole) (arg10 : Memref sig .tc .vmem S2048x128 .f32) (harg10 : arg10.IsWhole) (arg11 : Memref sig .tc .vmem S2048x128 .f32) (harg11 : arg11.IsWhole) (v3 v5 v7 v9 v11 v13 v15 v17 v19 v21 v23 v25 v27 v29 v31 v33 v35 v37 v39 v41 v43 v45 : IVec S2048x1 32) (v46 v48 v50 v52 v54 v56 v58 v60 : Vec F S1x2048x1 .i32) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 v3 v5 v7 v9 v11 v13 v15 v17 v19 v21 v23 v25 v27 v29 v31 v33 v35 v37 v39 v41 v43 v45 v46 v48 v50 v52 v54 v56 v58 v60 k
      = [⟨Rect.unit (s := S2048x2048) (k0_off1 k) S2048x256.size (k0_off1_inb k), tile v3 v5 v7 v9 v11 v13 v15 v17 v19 v21 v23 v25 v27 v29 v31 v33 v35 v37 v39 v41 v43 v45 v46 v48 v50 v52 v54 v56 v58 v60 k⟩] := by
  unfold tripL_k0_t1
  unfold trip_k0_t1
  dsimp only
  sl_unfold_run_names
  rfl

/-- The pieces of the trips before j are the first j tiles, newest first. -/
theorem pb_eq (𝒱 : Variants) (c : Dev nD) (bd : Option 𝒱.V) (i : grid0.Coords) (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S1x2048x128 .f32) (harg8 : arg8.IsWhole) (arg9 : Memref sig .tc .vmem S2048x2048 .bf16) (harg9 : arg9.IsWhole) (arg10 : Memref sig .tc .vmem S2048x128 .f32) (harg10 : arg10.IsWhole) (arg11 : Memref sig .tc .vmem S2048x128 .f32) (harg11 : arg11.IsWhole) (v3 v5 v7 v9 v11 v13 v15 v17 v19 v21 v23 v25 v27 v29 v31 v33 v35 v37 v39 v41 v43 v45 : IVec S2048x1 32) (v46 v48 v50 v52 v54 v56 v58 v60 : Vec F S1x2048x1 .i32) :
    ∀ (j : ℕ) (hj : j ≤ k0_t1_loop.trips),
      pb_k0_t1 (F := F) 𝒱 c bd i arg1 harg1 arg2 harg2 arg3 harg3 arg4 harg4 arg5 harg5 arg6 harg6 arg7 harg7 arg8 harg8 arg9 harg9 arg10 harg10 arg11 harg11 v3 v5 v7 v9 v11 v13 v15 v17 v19 v21 v23 v25 v27 v29 v31 v33 v35 v37 v39 v41 v43 v45 v46 v48 v50 v52 v54 v56 v58 v60 j
        = View.tilePieces (s := S2048x2048) (e := .bf16) (Val := Elt F) S2048x256.size (fun k => k0_off1 k)
            (fun k a => k0_off1_inb k a) (fun k => tile v3 v5 v7 v9 v11 v13 v15 v17 v19 v21 v23 v25 v27 v29 v31 v33 v35 v37 v39 v41 v43 v45 v46 v48 v50 v52 v54 v56 v58 v60 k) j hj
  | 0, _ => rfl
  | j + 1, hj => by
    have hs := pb_k0_t1_succ (F := F) 𝒱 c bd i arg1 harg1 arg2 harg2 arg3 harg3 arg4 harg4 arg5 harg5 arg6 harg6 arg7 harg7 arg8 harg8 arg9 harg9 arg10 harg10 arg11 harg11 v3 v5 v7 v9 v11 v13 v15 v17 v19 v21 v23 v25 v27 v29 v31 v33 v35 v37 v39 v41 v43 v45 v46 v48 v50 v52 v54 v56 v58 v60 ⟨j, hj⟩
    rw [show ((⟨j, hj⟩ : Fin k0_t1_loop.trips).val + 1) = j + 1 from rfl] at hs
    rw [hs, tripL_eq, pb_eq 𝒱 c bd i arg1 harg1 arg2 harg2 arg3 harg3 arg4 harg4 arg5 harg5 arg6 harg6 arg7 harg7 arg8 harg8 arg9 harg9 arg10 harg10 arg11 harg11 v3 v5 v7 v9 v11 v13 v15 v17 v19 v21 v23 v25 v27 v29 v31 v33 v35 v37 v39 v41 v43 v45 v46 v48 v50 v52 v54 v56 v58 v60 j (Nat.le_of_succ_le hj), View.tilePieces_succ]
    rfl

/-! ## The matrix the loop leaves, as one function -/

open Idealize.ShloMosaic.ValueIdx in
/-- Entry (l, j) of the matrix after the eight trips: entry (l, j % 256) of the tile of trip j / 256. -/
def matrix (v3 v5 v7 v9 v11 v13 v15 v17 v19 v21 v23 v25 v27 v29 v31 v33 v35 v37 v39 v41 v43 v45 : IVec S2048x1 32) (v46 v48 v50 v52 v54 v56 v58 v60 : Vec F S1x2048x1 .i32) : Vec F S2048x2048 .bf16 := fun y =>
  tile v3 v5 v7 v9 v11 v13 v15 v17 v19 v21 v23 v25 v27 v29 v31 v33 v35 v37 v39 v41 v43 v45 v46 v48 v50 v52 v54 v56 v58 v60
    ⟨(y 1).val / 256, by have h := idx2_lt1 y; have h8 : k0_t1_loop.trips = 8 := by decide
                         rw [h8]; omega⟩
    (ix2 ⟨(y 0).val, idx2_lt0 y⟩ ⟨(y 1).val % 256, Nat.mod_lt _ (by decide)⟩)

open Idealize.ShloMosaic.ValueIdx in
/-- Whatever the buffer held before the loop, after the loop's pieces it reads, whole, as that matrix: the tiles cover it
    and no two overlap. -/
theorem read_matrix (𝒱 : Variants) (c : Dev nD) (bd : Option 𝒱.V) (i : grid0.Coords) (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S1x2048x128 .f32) (harg8 : arg8.IsWhole) (arg9 : Memref sig .tc .vmem S2048x2048 .bf16) (harg9 : arg9.IsWhole) (arg10 : Memref sig .tc .vmem S2048x128 .f32) (harg10 : arg10.IsWhole) (arg11 : Memref sig .tc .vmem S2048x128 .f32) (harg11 : arg11.IsWhole) (v3 v5 v7 v9 v11 v13 v15 v17 v19 v21 v23 v25 v27 v29 v31 v33 v35 v37 v39 v41 v43 v45 : IVec S2048x1 32) (v46 v48 v50 v52 v54 v56 v58 v60 : Vec F S1x2048x1 .i32)
    (f : arg9.view.ty.Contents (Elt F)) :
    View.readAt (Elt F) arg9.view (Rect.unit (s := S2048x2048) ![0, 0] S2048x2048.size inb_S2048x2048_S2048x2048_0_0).toLoadRect
        (arg9.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 v3 v5 v7 v9 v11 v13 v15 v17 v19 v21 v23 v25 v27 v29 v31 v33 v35 v37 v39 v41 v43 v45 v46 v48 v50 v52 v54 v56 v58 v60
          (Scf.trips k0_t1_loop.lb k0_t1_loop.ub k0_t1_loop.st)))
      = matrix v3 v5 v7 v9 v11 v13 v15 v17 v19 v21 v23 v25 v27 v29 v31 v33 v35 v37 v39 v41 v43 v45 v46 v48 v50 v52 v54 v56 v58 v60 := by
  funext y
  have h8 : k0_t1_loop.trips = 8 := by decide
  have hy0 := idx2_lt0 y
  have hy1 := idx2_lt1 y
  have hi : (y 1).val / 256 < k0_t1_loop.trips := by rw [h8]; omega
  have hq : (y 1).val % 256 < 256 := Nat.mod_lt _ (by decide)
  rw [View.readAt_apply, pb_eq 𝒱 c bd i arg1 harg1 arg2 harg2 arg3 harg3 arg4 harg4 arg5 harg5 arg6 harg6 arg7 harg7 arg8 harg8 arg9 harg9 arg10 harg10 arg11 harg11 v3 v5 v7 v9 v11 v13 v15 v17 v19 v21 v23 v25 v27 v29 v31 v33 v35 v37 v39 v41 v43 v45 v46 v48 v50 v52 v54 v56 v58 v60 _ (le_refl _)]
  exact View.read_tilePieces arg9.view f S2048x256.size (fun k => k0_off1 k) (fun k a => k0_off1_inb k a)
    (fun k => tile v3 v5 v7 v9 v11 v13 v15 v17 v19 v21 v23 v25 v27 v29 v31 v33 v35 v37 v39 v41 v43 v45 v46 v48 v50 v52 v54 v56 v58 v60 k) _ (le_refl _) _ ⟨(y 1).val / 256, hi⟩ hi
    (ix2 ⟨(y 0).val, hy0⟩ ⟨(y 1).val % 256, hq⟩)
    (fun a => by
      rw [k0_off1_eq]
      match a with
      | ⟨0, _⟩ => show 0 + 1 * (y 0).val = 0 + (y 0).val; omega
      | ⟨1, _⟩ => show 0 + 1 * (y 1).val = 256 * ((y 1).val / 256) + (y 1).val % 256; omega)
    (1 : Fin 2)
    (fun i' hne => by
      rw [k0_off1_eq]
      have hne' : i'.val ≠ (y 1).val / 256 := fun h => hne (Fin.ext h)
      show 0 + 1 * (y 1).val < 256 * i'.val ∨ 256 * i'.val + 256 ≤ 0 + 1 * (y 1).val
      omega)

end Cert.Kernel.KTrip

end
-- ==== Proof.KBBody.lean ====
/-
  The kernel's body run once, on whole staging buffers, with what it stores STATED: the one piece it leaves in the output's
  buffer is the whole block, and its payload is the three layers applied in turn to the loaded node states — each layer
  from the table the layer before stored in a scratch buffer and read back whole — through the count matrix the
  column-tile loop built, which reads back whole as ONE function of the loaded neighbour columns whatever the scratch
  buffer held before (the eight tiles cover it).  Stated this way the triple mentions no unknown, and the frame certificate
  cites it as the generated one.
-/
import proofs.«400262_j80745385165161_3_alg».proof.Proof.Gen.Kernel.Frame.Runs
import proofs.«400262_j80745385165161_3_alg».proof.Proof.KBTrip

set_option maxRecDepth 16384

noncomputable section

namespace Cert.Kernel.KBody

open Cert.Kernel Cert.Kernel.Gen Cert.Kernel.KTrip
open Idealize.ShloMosaic Idealize.ShloMosaic.TcCoe Idealize.ShloMosaic.Tactic
open Idealize.SL Idealize.SL.Sem

variable {F : FTy → Type} [FloatOps F]

/-- The mask column the body loads. -/
def maskOf (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) : FVec F S2048x1 .f32 := (k0_pay9 (View.readAt (Elt F) arg3.view (Rect.unit (s := S1x2048x1) ![0, 0, 0] S1x2048x1.size inb_S1x2048x1_S1x2048x1_0_0_0).toLoadRect (harg3.unread x2)))

/-- The count matrix, from the 30 loaded neighbour columns. -/
def matOf (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) : Vec F S2048x2048 .bf16 :=
  matrix (k0_pay10 (View.readAt (Elt F) arg2.view (Rect.unit (s := S1x2048x30) ![0, 0, 0] S1x2048x1.size inb_S1x2048x30_S1x2048x1_0_0_0).toLoadRect (harg2.unread x1)))
    (k0_pay11 (View.readAt (Elt F) arg2.view (Rect.unit (s := S1x2048x30) ![0, 0, 1] S1x2048x1.size inb_S1x2048x30_S1x2048x1_0_0_1).toLoadRect (harg2.unread x1)))
    (k0_pay12 (View.readAt (Elt F) arg2.view (Rect.unit (s := S1x2048x30) ![0, 0, 2] S1x2048x1.size inb_S1x2048x30_S1x2048x1_0_0_2).toLoadRect (harg2.unread x1)))
    (k0_pay13 (View.readAt (Elt F) arg2.view (Rect.unit (s := S1x2048x30) ![0, 0, 3] S1x2048x1.size inb_S1x2048x30_S1x2048x1_0_0_3).toLoadRect (harg2.unread x1)))
    (k0_pay14 (View.readAt (Elt F) arg2.view (Rect.unit (s := S1x2048x30) ![0, 0, 4] S1x2048x1.size inb_S1x2048x30_S1x2048x1_0_0_4).toLoadRect (harg2.unread x1)))
    (k0_pay15 (View.readAt (Elt F) arg2.view (Rect.unit (s := S1x2048x30) ![0, 0, 5] S1x2048x1.size inb_S1x2048x30_S1x2048x1_0_0_5).toLoadRect (harg2.unread x1)))
    (k0_pay16 (View.readAt (Elt F) arg2.view (Rect.unit (s := S1x2048x30) ![0, 0, 6] S1x2048x1.size inb_S1x2048x30_S1x2048x1_0_0_6).toLoadRect (harg2.unread x1)))
    (k0_pay17 (View.readAt (Elt F) arg2.view (Rect.unit (s := S1x2048x30) ![0, 0, 7] S1x2048x1.size inb_S1x2048x30_S1x2048x1_0_0_7).toLoadRect (harg2.unread x1)))
    (k0_pay18 (View.readAt (Elt F) arg2.view (Rect.unit (s := S1x2048x30) ![0, 0, 8] S1x2048x1.size inb_S1x2048x30_S1x2048x1_0_0_8).toLoadRect (harg2.unread x1)))
    (k0_pay19 (View.readAt (Elt F) arg2.view (Rect.unit (s := S1x2048x30) ![0, 0, 9] S1x2048x1.size inb_S1x2048x30_S1x2048x1_0_0_9).toLoadRect (harg2.unread x1)))
    (k0_pay20 (View.readAt (Elt F) arg2.view (Rect.unit (s := S1x2048x30) ![0, 0, 10] S1x2048x1.size inb_S1x2048x30_S1x2048x1_0_0_10).toLoadRect (harg2.unread x1)))
    (k0_pay21 (View.readAt (Elt F) arg2.view (Rect.unit (s := S1x2048x30) ![0, 0, 11] S1x2048x1.size inb_S1x2048x30_S1x2048x1_0_0_11).toLoadRect (harg2.unread x1)))
    (k0_pay22 (View.readAt (Elt F) arg2.view (Rect.unit (s := S1x2048x30) ![0, 0, 12] S1x2048x1.size inb_S1x2048x30_S1x2048x1_0_0_12).toLoadRect (harg2.unread x1)))
    (k0_pay23 (View.readAt (Elt F) arg2.view (Rect.unit (s := S1x2048x30) ![0, 0, 13] S1x2048x1.size inb_S1x2048x30_S1x2048x1_0_0_13).toLoadRect (harg2.unread x1)))
    (k0_pay24 (View.readAt (Elt F) arg2.view (Rect.unit (s := S1x2048x30) ![0, 0, 14] S1x2048x1.size inb_S1x2048x30_S1x2048x1_0_0_14).toLoadRect (harg2.unread x1)))
    (k0_pay25 (View.readAt (Elt F) arg2.view (Rect.unit (s := S1x2048x30) ![0, 0, 15] S1x2048x1.size inb_S1x2048x30_S1x2048x1_0_0_15).toLoadRect (harg2.unread x1)))
    (k0_pay26 (View.readAt (Elt F) arg2.view (Rect.unit (s := S1x2048x30) ![0, 0, 16] S1x2048x1.size inb_S1x2048x30_S1x2048x1_0_0_16).toLoadRect (harg2.unread x1)))
    (k0_pay27 (View.readAt (Elt F) arg2.view (Rect.unit (s := S1x2048x30) ![0, 0, 17] S1x2048x1.size inb_S1x2048x30_S1x2048x1_0_0_17).toLoadRect (harg2.unread x1)))
    (k0_pay28 (View.readAt (Elt F) arg2.view (Rect.unit (s := S1x2048x30) ![0, 0, 18] S1x2048x1.size inb_S1x2048x30_S1x2048x1_0_0_18).toLoadRect (harg2.unread x1)))
    (k0_pay29 (View.readAt (Elt F) arg2.view (Rect.unit (s := S1x2048x30) ![0, 0, 19] S1x2048x1.size inb_S1x2048x30_S1x2048x1_0_0_19).toLoadRect (harg2.unread x1)))
    (k0_pay30 (View.readAt (Elt F) arg2.view (Rect.unit (s := S1x2048x30) ![0, 0, 20] S1x2048x1.size inb_S1x2048x30_S1x2048x1_0_0_20).toLoadRect (harg2.unread x1)))
    (k0_pay31 (View.readAt (Elt F) arg2.view (Rect.unit (s := S1x2048x30) ![0, 0, 21] S1x2048x1.size inb_S1x2048x30_S1x2048x1_0_0_21).toLoadRect (harg2.unread x1)))
    (View.readAt (Elt F) arg2.view (Rect.unit (s := S1x2048x30) ![0, 0, 22] S1x2048x1.size inb_S1x2048x30_S1x2048x1_0_0_22).toLoadRect (harg2.unread x1))
    (View.readAt (Elt F) arg2.view (Rect.unit (s := S1x2048x30) ![0, 0, 23] S1x2048x1.size inb_S1x2048x30_S1x2048x1_0_0_23).toLoadRect (harg2.unread x1))
    (View.readAt (Elt F) arg2.view (Rect.unit (s := S1x2048x30) ![0, 0, 24] S1x2048x1.size inb_S1x2048x30_S1x2048x1_0_0_24).toLoadRect (harg2.unread x1))
    (View.readAt (Elt F) arg2.view (Rect.unit (s := S1x2048x30) ![0, 0, 25] S1x2048x1.size inb_S1x2048x30_S1x2048x1_0_0_25).toLoadRect (harg2.unread x1))
    (View.readAt (Elt F) arg2.view (Rect.unit (s := S1x2048x30) ![0, 0, 26] S1x2048x1.size inb_S1x2048x30_S1x2048x1_0_0_26).toLoadRect (harg2.unread x1))
    (View.readAt (Elt F) arg2.view (Rect.unit (s := S1x2048x30) ![0, 0, 27] S1x2048x1.size inb_S1x2048x30_S1x2048x1_0_0_27).toLoadRect (harg2.unread x1))
    (View.readAt (Elt F) arg2.view (Rect.unit (s := S1x2048x30) ![0, 0, 28] S1x2048x1.size inb_S1x2048x30_S1x2048x1_0_0_28).toLoadRect (harg2.unread x1))
    (View.readAt (Elt F) arg2.view (Rect.unit (s := S1x2048x30) ![0, 0, 29] S1x2048x1.size inb_S1x2048x30_S1x2048x1_0_0_29).toLoadRect (harg2.unread x1))

/-- The table the first layer stores. -/
def lay0 (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) : FVec F S2048x128 .f32 :=
  k0_pay40 (maskOf arg1 harg1 arg2 harg2 arg3 harg3 arg4 harg4 arg5 harg5 arg6 harg6 arg7 harg7 x0 x1 x2 x3 x4 x5 x6) (k0_pay39 (View.readAt (Elt F) arg1.view (Rect.unit (s := S1x2048x128) ![0, 0, 0] S1x2048x128.size inb_S1x2048x128_S1x2048x128_0_0_0).toLoadRect (harg1.unread x0)) (matOf arg1 harg1 arg2 harg2 arg3 harg3 arg4 harg4 arg5 harg5 arg6 harg6 arg7 harg7 x0 x1 x2 x3 x4 x5 x6)) (View.readAt (Elt F) arg4.view (Rect.unit (s := S3x128x128) ![0, 0, 0] S1x128x128.size inb_S3x128x128_S1x128x128_0_0_0).toLoadRect (harg4.unread x3)) (View.readAt (Elt F) arg5.view (Rect.unit (s := S3x128) ![0, 0] S1x128.size inb_S3x128_S1x128_0_0).toLoadRect (harg5.unread x4)) (View.readAt (Elt F) arg6.view (Rect.unit (s := S3x128) ![0, 0] S1x128.size inb_S3x128_S1x128_0_0).toLoadRect (harg6.unread x5)) (View.readAt (Elt F) arg7.view (Rect.unit (s := S3x128) ![0, 0] S1x128.size inb_S3x128_S1x128_0_0).toLoadRect (harg7.unread x6))

/-- The table the second layer stores. -/
def lay1 (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) : FVec F S2048x128 .f32 :=
  k0_pay48 (maskOf arg1 harg1 arg2 harg2 arg3 harg3 arg4 harg4 arg5 harg5 arg6 harg6 arg7 harg7 x0 x1 x2 x3 x4 x5 x6) (k0_pay41 (View.readAt (Elt F) arg6.view (Rect.unit (s := S3x128) ![1, 0] S1x128.size inb_S3x128_S1x128_1_0).toLoadRect (harg6.unread x5))) (k0_pay42 (View.readAt (Elt F) arg7.view (Rect.unit (s := S3x128) ![1, 0] S1x128.size inb_S3x128_S1x128_1_0).toLoadRect (harg7.unread x6)))
    (k0_pay45 (lay0 arg1 harg1 arg2 harg2 arg3 harg3 arg4 harg4 arg5 harg5 arg6 harg6 arg7 harg7 x0 x1 x2 x3 x4 x5 x6) (matOf arg1 harg1 arg2 harg2 arg3 harg3 arg4 harg4 arg5 harg5 arg6 harg6 arg7 harg7 x0 x1 x2 x3 x4 x5 x6) (View.readAt (Elt F) arg4.view (Rect.unit (s := S3x128x128) ![1, 0, 0] S1x128x128.size inb_S3x128x128_S1x128x128_1_0_0).toLoadRect (harg4.unread x3)) (View.readAt (Elt F) arg5.view (Rect.unit (s := S3x128) ![1, 0] S1x128.size inb_S3x128_S1x128_1_0).toLoadRect (harg5.unread x4)))
    (k0_pay46 (lay0 arg1 harg1 arg2 harg2 arg3 harg3 arg4 harg4 arg5 harg5 arg6 harg6 arg7 harg7 x0 x1 x2 x3 x4 x5 x6) (matOf arg1 harg1 arg2 harg2 arg3 harg3 arg4 harg4 arg5 harg5 arg6 harg6 arg7 harg7 x0 x1 x2 x3 x4 x5 x6) (View.readAt (Elt F) arg4.view (Rect.unit (s := S3x128x128) ![1, 0, 0] S1x128x128.size inb_S3x128x128_S1x128x128_1_0_0).toLoadRect (harg4.unread x3)) (View.readAt (Elt F) arg5.view (Rect.unit (s := S3x128) ![1, 0] S1x128.size inb_S3x128_S1x128_1_0).toLoadRect (harg5.unread x4))) k0_pay47

/-- The block the third layer stores. -/
def blockOut (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) : FVec F S1x2048x128 .f32 :=
  k0_pay1 (maskOf arg1 harg1 arg2 harg2 arg3 harg3 arg4 harg4 arg5 harg5 arg6 harg6 arg7 harg7 x0 x1 x2 x3 x4 x5 x6) (k0_pay49 (View.readAt (Elt F) arg6.view (Rect.unit (s := S3x128) ![2, 0] S1x128.size inb_S3x128_S1x128_2_0).toLoadRect (harg6.unread x5))) (k0_pay50 (View.readAt (Elt F) arg7.view (Rect.unit (s := S3x128) ![2, 0] S1x128.size inb_S3x128_S1x128_2_0).toLoadRect (harg7.unread x6)))
    (k0_pay51 (lay1 arg1 harg1 arg2 harg2 arg3 harg3 arg4 harg4 arg5 harg5 arg6 harg6 arg7 harg7 x0 x1 x2 x3 x4 x5 x6) (matOf arg1 harg1 arg2 harg2 arg3 harg3 arg4 harg4 arg5 harg5 arg6 harg6 arg7 harg7 x0 x1 x2 x3 x4 x5 x6) (View.readAt (Elt F) arg4.view (Rect.unit (s := S3x128x128) ![2, 0, 0] S1x128x128.size inb_S3x128x128_S1x128x128_2_0_0).toLoadRect (harg4.unread x3)) (View.readAt (Elt F) arg5.view (Rect.unit (s := S3x128) ![2, 0] S1x128.size inb_S3x128_S1x128_2_0).toLoadRect (harg5.unread x4)))
    (k0_pay52 (lay1 arg1 harg1 arg2 harg2 arg3 harg3 arg4 harg4 arg5 harg5 arg6 harg6 arg7 harg7 x0 x1 x2 x3 x4 x5 x6) (matOf arg1 harg1 arg2 harg2 arg3 harg3 arg4 harg4 arg5 harg5 arg6 harg6 arg7 harg7 x0 x1 x2 x3 x4 x5 x6) (View.readAt (Elt F) arg4.view (Rect.unit (s := S3x128x128) ![2, 0, 0] S1x128x128.size inb_S3x128x128_S1x128x128_2_0_0).toLoadRect (harg4.unread x3)) (View.readAt (Elt F) arg5.view (Rect.unit (s := S3x128) ![2, 0] S1x128.size inb_S3x128_S1x128_2_0).toLoadRect (harg5.unread x4)))

end Cert.Kernel.KBody

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.KBody Cert.Kernel.KTrip

variable {F : FTy → Type} [FloatOps F]

local notation "𝕄" => MT nD τ sig Unit (Elt F) ℕ (UR sig nD τ) ℕ

/-- The one piece the body leaves in the output's buffer. -/
def kernelRun0_A_L7 (c : Dev nD) (i : grid0.Coords) (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S1x2048x128 .f32) (harg8 : arg8.IsWhole) (arg9 : Memref sig .tc .vmem S2048x2048 .bf16) (harg9 : arg9.IsWhole) (arg10 : Memref sig .tc .vmem S2048x128 .f32) (harg10 : arg10.IsWhole) (arg11 : Memref sig .tc .vmem S2048x128 .f32) (harg11 : arg11.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) : List (View.Piece (Elt F) S1x2048x128 .f32) :=
  [⟨Rect.unit (s := S1x2048x128) ![0, 0, 0] S1x2048x128.size inb_S1x2048x128_S1x2048x128_0_0_0, blockOut arg1 harg1 arg2 harg2 arg3 harg3 arg4 harg4 arg5 harg5 arg6 harg6 arg7 harg7 x0 x1 x2 x3 x4 x5 x6⟩]

set_option maxHeartbeats 4000000 in
/-- The body's triple: on whole staging memrefs — the inputs' at their contents, the output's and the scratch buffers at
    anything — the body runs to the continuation holding the inputs' as they were, the scratch at some contents, the output's
    buffer with that piece written. -/
theorem kernelRun0_A_spec (c : Dev nD) (i : grid0.Coords) (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S1x2048x128 .f32) (harg8 : arg8.IsWhole) (arg9 : Memref sig .tc .vmem S2048x2048 .bf16) (harg9 : arg9.IsWhole) (arg10 : Memref sig .tc .vmem S2048x128 .f32) (harg10 : arg10.IsWhole) (arg11 : Memref sig .tc .vmem S2048x128 .f32) (harg11 : arg11.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f (kernelRun0_A_L7 c i arg1 harg1 arg2 harg2 arg3 harg3 arg4 harg4 arg5 harg5 arg6 harg6 arg7 harg7 arg8 harg8 arg9 harg9 arg10 harg10 arg11 harg11 x0 x1 x2 x3 x4 x5 x6)) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K := by
    intro E K
    simp only [cc0__gcn_kernel_eq_skeleton]; unfold cc0__gcn_kernel_skel
    simp only [k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    generalize hX : k0_pay1 (F := F) _ _ _ _ _ = X
    have hOUT : X = blockOut arg1 harg1 arg2 harg2 arg3 harg3 arg4 harg4 arg5 harg5 arg6 harg6 arg7 harg7 x0 x1 x2 x3 x4 x5 x6 := by
      rw [← hX]
      sl_unfold_run_names
      simp only [View.readCov_cons_toLoadRect]
      rw [read_matrix]
      rfl
    subst hOUT
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The piece list with its triple, as the frame certificate takes them. -/
noncomputable def kernelRun0_A (c : Dev nD) (i : grid0.Coords) (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S1x2048x128 .f32) (harg8 : arg8.IsWhole) (arg9 : Memref sig .tc .vmem S2048x2048 .bf16) (harg9 : arg9.IsWhole) (arg10 : Memref sig .tc .vmem S2048x128 .f32) (harg10 : arg10.IsWhole) (arg11 : Memref sig .tc .vmem S2048x128 .f32) (harg11 : arg11.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) :
    { L7 : List (View.Piece (Elt F) S1x2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } :=
  ⟨kernelRun0_A_L7 c i arg1 harg1 arg2 harg2 arg3 harg3 arg4 harg4 arg5 harg5 arg6 harg6 arg7 harg7 arg8 harg8 arg9 harg9 arg10 harg10 arg11 harg11 x0 x1 x2 x3 x4 x5 x6, kernelRun0_A_spec c i arg1 harg1 arg2 harg2 arg3 harg3 arg4 harg4 arg5 harg5 arg6 harg6 arg7 harg7 arg8 harg8 arg9 harg9 arg10 harg10 arg11 harg11 x0 x1 x2 x3 x4 x5 x6⟩

end Cert.Kernel.Gen

end
-- ==== Proof.KTrip.lean ====
/-
  One trip of the kernel's column-tile loop, read as a value.  Trip k stores ONE piece into the 2048 × 2048 matrix: the
  2048 × 256 tile of columns 256·k … 256·k + 255, whose entry (l, q) adds up, over the 30 neighbour columns, the indicator
  "row l's neighbour equals column 256·k + q".  The pieces of the trips before k are therefore the first k tiles.
-/
import proofs.«400262_j80745385165161_3_alg».proof.Proof.Gen.KernelIdeal.Loops
import Idealize.ShloMosaic.Lib.Pipeline.Value
import Idealize.ShloMosaic.Lib.WritesUnit
import Idealize.ShloMosaic.Lib.ValueIdx
import Idealize.ShloMosaic.Lib.ValueLayout
import Idealize.ShloMosaic.PureOps.Ideal.Laws

set_option maxRecDepth 65536

noncomputable section

namespace Cert.KernelIdeal.KTrip

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- The tile trip k stores: the body's arithmetic from the 30 neighbour columns (22 already [2048, 1] columns, 8 still
    [1, 2048, 1] slices) and the trip's column numbers. -/
def tile (v3 v5 v7 v9 v11 v13 v15 v17 v19 v21 v23 v25 v27 v29 v31 v33 v35 v37 v39 v41 v43 v45 : IVec S2048x1 32) (v46 v48 v50 v52 v54 v56 v58 v60 : Vec F S1x2048x1 .i32) (k : Fin k0_t1_loop.trips) : FVec F S2048x256 .bf16 :=
  k0_pay38 v58 v60 (k0_pay2 0#32 1#32 k)
    (k0_pay7 v39 v41 v43 v45 (k0_pay32 v46) (k0_pay33 v48) (k0_pay34 v50) (k0_pay35 v52) (k0_pay36 v54) (k0_pay2 0#32 1#32 k)
      (k0_pay5 v19 v21 v23 v25 v27 v29 v31 v33 v35 (k0_pay2 0#32 1#32 k)
        (k0_pay3 v3 v5 v7 v9 v11 v13 v15 0#32 1#32 k) (k0_pay4 v17 0#32 1#32 k))
      (k0_pay6 v37 (k0_pay2 0#32 1#32 k)))
    (k0_pay8 (k0_pay37 v56) (k0_pay2 0#32 1#32 k))

/-- Trip k's pieces: the one tile, at columns 256·k. -/
theorem tripL_eq (𝒱 : Variants) (c : Dev nD) (bd : Option 𝒱.V) (i : grid0.Coords) (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S1x2048x128 .f32) (harg8 : arg8.IsWhole) (arg9 : Memref sig .tc .vmem S2048x2048 .bf16) (harg9 : arg9.IsWhole) (arg10 : Memref sig .tc .vmem S2048x128 .f32) (harg10 : arg10.IsWhole) (arg11 : Memref sig .tc .vmem S2048x128 .f32) (harg11 : arg11.IsWhole) (v3 v5 v7 v9 v11 v13 v15 v17 v19 v21 v23 v25 v27 v29 v31 v33 v35 v37 v39 v41 v43 v45 : IVec S2048x1 32) (v46 v48 v50 v52 v54 v56 v58 v60 : Vec F S1x2048x1 .i32) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 v3 v5 v7 v9 v11 v13 v15 v17 v19 v21 v23 v25 v27 v29 v31 v33 v35 v37 v39 v41 v43 v45 v46 v48 v50 v52 v54 v56 v58 v60 k
      = [⟨Rect.unit (s := S2048x2048) (k0_off1 k) S2048x256.size (k0_off1_inb k), tile v3 v5 v7 v9 v11 v13 v15 v17 v19 v21 v23 v25 v27 v29 v31 v33 v35 v37 v39 v41 v43 v45 v46 v48 v50 v52 v54 v56 v58 v60 k⟩] := by
  unfold tripL_k0_t1
  unfold trip_k0_t1
  dsimp only
  sl_unfold_run_names
  rfl

/-- The pieces of the trips before j are the first j tiles, newest first. -/
theorem pb_eq (𝒱 : Variants) (c : Dev nD) (bd : Option 𝒱.V) (i : grid0.Coords) (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S1x2048x128 .f32) (harg8 : arg8.IsWhole) (arg9 : Memref sig .tc .vmem S2048x2048 .bf16) (harg9 : arg9.IsWhole) (arg10 : Memref sig .tc .vmem S2048x128 .f32) (harg10 : arg10.IsWhole) (arg11 : Memref sig .tc .vmem S2048x128 .f32) (harg11 : arg11.IsWhole) (v3 v5 v7 v9 v11 v13 v15 v17 v19 v21 v23 v25 v27 v29 v31 v33 v35 v37 v39 v41 v43 v45 : IVec S2048x1 32) (v46 v48 v50 v52 v54 v56 v58 v60 : Vec F S1x2048x1 .i32) :
    ∀ (j : ℕ) (hj : j ≤ k0_t1_loop.trips),
      pb_k0_t1 (F := F) 𝒱 c bd i arg1 harg1 arg2 harg2 arg3 harg3 arg4 harg4 arg5 harg5 arg6 harg6 arg7 harg7 arg8 harg8 arg9 harg9 arg10 harg10 arg11 harg11 v3 v5 v7 v9 v11 v13 v15 v17 v19 v21 v23 v25 v27 v29 v31 v33 v35 v37 v39 v41 v43 v45 v46 v48 v50 v52 v54 v56 v58 v60 j
        = View.tilePieces (s := S2048x2048) (e := .bf16) (Val := Elt F) S2048x256.size (fun k => k0_off1 k)
            (fun k a => k0_off1_inb k a) (fun k => tile v3 v5 v7 v9 v11 v13 v15 v17 v19 v21 v23 v25 v27 v29 v31 v33 v35 v37 v39 v41 v43 v45 v46 v48 v50 v52 v54 v56 v58 v60 k) j hj
  | 0, _ => rfl
  | j + 1, hj => by
    have hs := pb_k0_t1_succ (F := F) 𝒱 c bd i arg1 harg1 arg2 harg2 arg3 harg3 arg4 harg4 arg5 harg5 arg6 harg6 arg7 harg7 arg8 harg8 arg9 harg9 arg10 harg10 arg11 harg11 v3 v5 v7 v9 v11 v13 v15 v17 v19 v21 v23 v25 v27 v29 v31 v33 v35 v37 v39 v41 v43 v45 v46 v48 v50 v52 v54 v56 v58 v60 ⟨j, hj⟩
    rw [show ((⟨j, hj⟩ : Fin k0_t1_loop.trips).val + 1) = j + 1 from rfl] at hs
    rw [hs, tripL_eq, pb_eq 𝒱 c bd i arg1 harg1 arg2 harg2 arg3 harg3 arg4 harg4 arg5 harg5 arg6 harg6 arg7 harg7 arg8 harg8 arg9 harg9 arg10 harg10 arg11 harg11 v3 v5 v7 v9 v11 v13 v15 v17 v19 v21 v23 v25 v27 v29 v31 v33 v35 v37 v39 v41 v43 v45 v46 v48 v50 v52 v54 v56 v58 v60 j (Nat.le_of_succ_le hj), View.tilePieces_succ]
    rfl

/-! ## The matrix the loop leaves, as one function -/

open Idealize.ShloMosaic.ValueIdx in
/-- Entry (l, j) of the matrix after the eight trips: entry (l, j % 256) of the tile of trip j / 256. -/
def matrix (v3 v5 v7 v9 v11 v13 v15 v17 v19 v21 v23 v25 v27 v29 v31 v33 v35 v37 v39 v41 v43 v45 : IVec S2048x1 32) (v46 v48 v50 v52 v54 v56 v58 v60 : Vec F S1x2048x1 .i32) : Vec F S2048x2048 .bf16 := fun y =>
  tile v3 v5 v7 v9 v11 v13 v15 v17 v19 v21 v23 v25 v27 v29 v31 v33 v35 v37 v39 v41 v43 v45 v46 v48 v50 v52 v54 v56 v58 v60
    ⟨(y 1).val / 256, by have h := idx2_lt1 y; have h8 : k0_t1_loop.trips = 8 := by decide
                         rw [h8]; omega⟩
    (ix2 ⟨(y 0).val, idx2_lt0 y⟩ ⟨(y 1).val % 256, Nat.mod_lt _ (by decide)⟩)

open Idealize.ShloMosaic.ValueIdx in
/-- Whatever the buffer held before the loop, after the loop's pieces it reads, whole, as that matrix: the tiles cover it
    and no two overlap. -/
theorem read_matrix (𝒱 : Variants) (c : Dev nD) (bd : Option 𝒱.V) (i : grid0.Coords) (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S1x2048x128 .f32) (harg8 : arg8.IsWhole) (arg9 : Memref sig .tc .vmem S2048x2048 .bf16) (harg9 : arg9.IsWhole) (arg10 : Memref sig .tc .vmem S2048x128 .f32) (harg10 : arg10.IsWhole) (arg11 : Memref sig .tc .vmem S2048x128 .f32) (harg11 : arg11.IsWhole) (v3 v5 v7 v9 v11 v13 v15 v17 v19 v21 v23 v25 v27 v29 v31 v33 v35 v37 v39 v41 v43 v45 : IVec S2048x1 32) (v46 v48 v50 v52 v54 v56 v58 v60 : Vec F S1x2048x1 .i32)
    (f : arg9.view.ty.Contents (Elt F)) :
    View.readAt (Elt F) arg9.view (Rect.unit (s := S2048x2048) ![0, 0] S2048x2048.size inb_S2048x2048_S2048x2048_0_0).toLoadRect
        (arg9.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 v3 v5 v7 v9 v11 v13 v15 v17 v19 v21 v23 v25 v27 v29 v31 v33 v35 v37 v39 v41 v43 v45 v46 v48 v50 v52 v54 v56 v58 v60
          (Scf.trips k0_t1_loop.lb k0_t1_loop.ub k0_t1_loop.st)))
      = matrix v3 v5 v7 v9 v11 v13 v15 v17 v19 v21 v23 v25 v27 v29 v31 v33 v35 v37 v39 v41 v43 v45 v46 v48 v50 v52 v54 v56 v58 v60 := by
  funext y
  have h8 : k0_t1_loop.trips = 8 := by decide
  have hy0 := idx2_lt0 y
  have hy1 := idx2_lt1 y
  have hi : (y 1).val / 256 < k0_t1_loop.trips := by rw [h8]; omega
  have hq : (y 1).val % 256 < 256 := Nat.mod_lt _ (by decide)
  rw [View.readAt_apply, pb_eq 𝒱 c bd i arg1 harg1 arg2 harg2 arg3 harg3 arg4 harg4 arg5 harg5 arg6 harg6 arg7 harg7 arg8 harg8 arg9 harg9 arg10 harg10 arg11 harg11 v3 v5 v7 v9 v11 v13 v15 v17 v19 v21 v23 v25 v27 v29 v31 v33 v35 v37 v39 v41 v43 v45 v46 v48 v50 v52 v54 v56 v58 v60 _ (le_refl _)]
  exact View.read_tilePieces arg9.view f S2048x256.size (fun k => k0_off1 k) (fun k a => k0_off1_inb k a)
    (fun k => tile v3 v5 v7 v9 v11 v13 v15 v17 v19 v21 v23 v25 v27 v29 v31 v33 v35 v37 v39 v41 v43 v45 v46 v48 v50 v52 v54 v56 v58 v60 k) _ (le_refl _) _ ⟨(y 1).val / 256, hi⟩ hi
    (ix2 ⟨(y 0).val, hy0⟩ ⟨(y 1).val % 256, hq⟩)
    (fun a => by
      rw [k0_off1_eq]
      match a with
      | ⟨0, _⟩ => show 0 + 1 * (y 0).val = 0 + (y 0).val; omega
      | ⟨1, _⟩ => show 0 + 1 * (y 1).val = 256 * ((y 1).val / 256) + (y 1).val % 256; omega)
    (1 : Fin 2)
    (fun i' hne => by
      rw [k0_off1_eq]
      have hne' : i'.val ≠ (y 1).val / 256 := fun h => hne (Fin.ext h)
      show 0 + 1 * (y 1).val < 256 * i'.val ∨ 256 * i'.val + 256 ≤ 0 + 1 * (y 1).val
      omega)

/-! ## A tile's entry -/

open Idealize.ShloMosaic.ValueIdx

/-- Row l of a [2048, 1] column of words. -/
def colI (v : IVec S2048x1 32) (l : Fin 2048) : BitVec 32 := v (ix2 l (0 : Fin 1))
/-- Row l of a [1, 2048, 1] slice of words. -/
def colV (v : Vec Ideal S1x2048x1 .i32) (l : Fin 2048) : BitVec 32 := v (ix3 (0 : Fin 1) l (0 : Fin 1))

/-- The indicator of two words being equal, as the kernel forms it: the one-bit test widened to a word and read as a
    number. -/
def ind (a b : BitVec 32) : EReal := FloatOps.sitofp (F := Ideal) .f32 ((IntOp.cmpi .eq a b).setWidth 32)

/-- The column number the trip k compares against at tile column q. -/
def colWord (k : Fin k0_t1_loop.trips) (q : Fin 256) : BitVec 32 :=
  k0_pay2 0#32 1#32 k (ix2 (0 : Fin 2048) q)

theorem bcol (v : IVec S2048x1 32) (l : Fin 2048) (q : Fin 256) :
    broadcastTo S2048x256 v broadcasts_S2048x1_S2048x256 (ix2 l q) = colI v l :=
  broadcastTo_apply v _ (ix2 l q) (ix2 l (0 : Fin 1)) (fun a => match a with
    | ⟨0, _⟩ => by show l.val = if (2048 : Nat) = 1 then 0 else l.val; rw [if_neg (by decide)]
    | ⟨1, _⟩ => by show (0 : Nat) = if (1 : Nat) = 1 then 0 else q.val; rw [if_pos rfl])

theorem cmpi_apply {s : Shape} {w : Nat} (p : CmpIPredicate) (a b : IVec s w) (i : s.Idx) :
    cmpi p a b i = IntOp.cmpi p (a i) (b i) := rfl

/-- A [1, 2048, 1] slice viewed as a [2048, 1] column has the same rows. -/
theorem colI_cast (v : Vec Ideal S1x2048x1 .i32) (l : Fin 2048) :
    colI (shapeCast S2048x1 v shapeCasts_S1x2048x1_S2048x1) l = colV v l :=
  shapeCast_1ab_ab_apply v _ l (0 : Fin 1)

/-- The column number does not depend on the row. -/
theorem pay2_row (k : Fin k0_t1_loop.trips) (l : Fin 2048) (q : Fin 256) :
    k0_pay2 0#32 1#32 k (ix2 l q) = colWord k q := by
  unfold colWord k0_pay2
  show IntOp.addi _ _ = IntOp.addi _ _
  rw [iota_single_apply, iota_single_apply]
  rfl

/-- The bf16 zero pattern denotes 0. -/
theorem ofBits_zero_bf16 : Ideal.ofBits .bf16 0x0000#16 = 0 := by simp [Ideal.ofBits, Ideal.ieee]

/-- The 30 neighbour columns, in the order the kernel adds their indicators. -/
def cols (v3 v5 v7 v9 v11 v13 v15 v17 v19 v21 v23 v25 v27 v29 v31 v33 v35 v37 v39 v41 v43 v45 : IVec S2048x1 32) (v46 v48 v50 v52 v54 v56 v58 v60 : Vec Ideal S1x2048x1 .i32) : List (Fin 2048 → BitVec 32) :=
  [colI v3, colI v5, colI v7, colI v9, colI v11, colI v13, colI v15, colI v17, colI v19, colI v21, colI v23, colI v25, colI v27, colI v29, colI v31, colI v33, colI v35, colI v37, colI v39, colI v41, colI v43, colI v45, colV v46, colV v48, colV v50, colV v52, colV v54, colV v56, colV v58, colV v60]

/-- The kernel's count at row l against the column word w: the indicators added up from zero, column by column. -/
def cntAt (cs : List (Fin 2048 → BitVec 32)) (l : Fin 2048) (w : BitVec 32) : EReal :=
  cs.foldl (fun acc c => acc + ind (c l) w) 0

/-- Entry (l, q) of trip k's tile is the count of row l against the trip's column word at q. -/
theorem tile_apply (v3 v5 v7 v9 v11 v13 v15 v17 v19 v21 v23 v25 v27 v29 v31 v33 v35 v37 v39 v41 v43 v45 : IVec S2048x1 32) (v46 v48 v50 v52 v54 v56 v58 v60 : Vec Ideal S1x2048x1 .i32) (k : Fin k0_t1_loop.trips) (l : Fin 2048) (q : Fin 256) :
    tile (F := Ideal) v3 v5 v7 v9 v11 v13 v15 v17 v19 v21 v23 v25 v27 v29 v31 v33 v35 v37 v39 v41 v43 v45 v46 v48 v50 v52 v54 v56 v58 v60 k (ix2 l q) = cntAt (cols v3 v5 v7 v9 v11 v13 v15 v17 v19 v21 v23 v25 v27 v29 v31 v33 v35 v37 v39 v41 v43 v45 v46 v48 v50 v52 v54 v56 v58 v60) l (colWord k q) := by
  unfold tile
  simp only [k0_pay38, k0_pay7, k0_pay5, k0_pay3, k0_pay4, k0_pay6, k0_pay8, k0_pay32, k0_pay33, k0_pay34, k0_pay35, k0_pay36, k0_pay37,
    addf_apply, truncf_apply, sitofp_apply, extui_apply, cmpi_apply, bcol, colI_cast, pay2_row, shapeCast_self, broadcast_apply]
  simp only [cntAt, cols, List.foldl, ind, Ideal.ofBits_def, ofBits_zero_bf16]

/-! ## The matrix after the eight trips -/

/-- The trip's multiple of 256 as a word. -/
theorem tripWord : ∀ k : Fin k0_t1_loop.trips,
    Scalar.muli (Scalar.addi 0#32 (Scalar.muli (Scf.iv 0#32 1#32 k) 1#32)) 256#32 = BitVec.ofNat 32 (256 * k.val) := by
  decide +kernel

/-- The column word of trip k at tile column q is the matrix column 256·k + q. -/
theorem colWord_eq (k : Fin k0_t1_loop.trips) (q : Fin 256) : colWord k q = BitVec.ofNat 32 (256 * k.val + q.val) := by
  unfold colWord k0_pay2
  show IntOp.addi _ _ = _
  rw [iota_single_apply]
  show IntOp.addi (BitVec.ofNat 32 q.val) (Scalar.muli (Scalar.addi 0#32 (Scalar.muli (Scf.iv 0#32 1#32 k) 1#32)) 256#32) = _
  rw [tripWord]
  show BitVec.ofNat 32 q.val + BitVec.ofNat 32 (256 * k.val) = _
  rw [← BitVec.ofNat_add, Nat.add_comm]

/-- After the eight trips the matrix holds, at (l, j), the count of row l against column j: exactly one tile covers the
    entry, the one of trip j / 256, at its column j % 256. -/
theorem matrix_read {sig' : RefSig} {κ : Kind} {sp : Space} (v : View sig' κ sp S2048x2048 .bf16) (f : v.ty.Contents (Elt Ideal))
    (v3 v5 v7 v9 v11 v13 v15 v17 v19 v21 v23 v25 v27 v29 v31 v33 v35 v37 v39 v41 v43 v45 : IVec S2048x1 32) (v46 v48 v50 v52 v54 v56 v58 v60 : Vec Ideal S1x2048x1 .i32) (l j : Fin 2048) :
    v.read (Elt Ideal) (v.writes (Elt Ideal) f (View.tilePieces (s := S2048x2048) (e := .bf16) (Val := Elt Ideal) S2048x256.size
        (fun k => k0_off1 k) (fun k a => k0_off1_inb k a) (fun k => tile (F := Ideal) v3 v5 v7 v9 v11 v13 v15 v17 v19 v21 v23 v25 v27 v29 v31 v33 v35 v37 v39 v41 v43 v45 v46 v48 v50 v52 v54 v56 v58 v60 k) k0_t1_loop.trips (le_refl _)))
      (ix2 l j) = cntAt (cols v3 v5 v7 v9 v11 v13 v15 v17 v19 v21 v23 v25 v27 v29 v31 v33 v35 v37 v39 v41 v43 v45 v46 v48 v50 v52 v54 v56 v58 v60) l (BitVec.ofNat 32 j.val) := by
  have hj := j.isLt
  have h8 : k0_t1_loop.trips = 8 := by decide
  have hi : j.val / 256 < k0_t1_loop.trips := by rw [h8]; omega
  have hq : j.val % 256 < 256 := Nat.mod_lt _ (by decide)
  rw [View.read_tilePieces v f S2048x256.size (fun k => k0_off1 k) (fun k a => k0_off1_inb k a)
    (fun k => tile (F := Ideal) v3 v5 v7 v9 v11 v13 v15 v17 v19 v21 v23 v25 v27 v29 v31 v33 v35 v37 v39 v41 v43 v45 v46 v48 v50 v52 v54 v56 v58 v60 k) k0_t1_loop.trips (le_refl _) (ix2 l j) ⟨j.val / 256, hi⟩ hi
    (ix2 l ⟨j.val % 256, hq⟩) ?_ (1 : Fin 2) ?_]
  · rw [tile_apply, colWord_eq]
    congr 2
    show 256 * (j.val / 256) + j.val % 256 = j.val
    omega
  · intro a
    rw [k0_off1_eq]
    match a with
    | ⟨0, _⟩ => show l.val = 0 + l.val; omega
    | ⟨1, _⟩ => show j.val = 256 * (j.val / 256) + j.val % 256; omega
  · intro i' hne
    rw [k0_off1_eq]
    have hne' : i'.val ≠ j.val / 256 := fun h => hne (Fin.ext h)
    show j.val < 256 * i'.val ∨ 256 * i'.val + 256 ≤ j.val
    omega

/-! ## The count as a sum of indicators -/

/-- The kernel's indicator is 1 when the two words are equal and 0 otherwise. -/
theorem ind_eq (a b : BitVec 32) : ind a b = if a = b then 1 else 0 := by
  unfold ind
  show (((BitVec.setWidth 32 (IntOp.cmpi .eq a b)).toInt : ℝ) : EReal) = _
  by_cases h : a = b
  · subst h
    rw [if_pos rfl]
    have : IntOp.cmpi .eq a a = 1#1 := by simp [IntOp.cmpi]
    rw [this]
    norm_num
  · rw [if_neg h]
    have : IntOp.cmpi .eq a b = 0#1 := by
      have hb : (a == b) = false := by simpa using h
      simp [IntOp.cmpi, hb]
    rw [this]
    norm_num

/-- Over the 30 columns given by a function of the neighbour slot, the count is the sum of the indicators. -/
theorem cntAt_ofFn (c : Fin 30 → Fin 2048 → BitVec 32) (l : Fin 2048) (w : BitVec 32) :
    cntAt (List.ofFn c) l w = ∑ k : Fin 30, (if c k l = w then (1 : EReal) else 0) := by
  unfold cntAt
  rw [← List.foldl_map (f := fun c : Fin 2048 → BitVec 32 => ind (c l) w) (g := fun (x y : EReal) => x + y), ← List.sum_eq_foldl,
    List.map_ofFn, List.sum_ofFn]
  exact Finset.sum_congr rfl fun k _ => ind_eq _ _

end Cert.KernelIdeal.KTrip

end
-- ==== Proof.KBody.lean ====
/-
  The kernel's body run once, on whole staging buffers, with what it stores STATED: the one piece it leaves in the output's
  buffer is the whole block, and its payload is the three layers applied in turn to the loaded node states — each layer
  from the table the layer before stored in a scratch buffer and read back whole — through the count matrix the
  column-tile loop built, which reads back whole as ONE function of the loaded neighbour columns whatever the scratch
  buffer held before (the eight tiles cover it).  Stated this way the triple mentions no unknown, and the frame certificate
  cites it as the generated one.
-/
import proofs.«400262_j80745385165161_3_alg».proof.Proof.Gen.KernelIdeal.Frame.Runs
import proofs.«400262_j80745385165161_3_alg».proof.Proof.KTrip

set_option maxRecDepth 16384

noncomputable section

namespace Cert.KernelIdeal.KBody

open Cert.KernelIdeal Cert.KernelIdeal.Gen Cert.KernelIdeal.KTrip
open Idealize.ShloMosaic Idealize.ShloMosaic.TcCoe Idealize.ShloMosaic.Tactic
open Idealize.SL Idealize.SL.Sem

variable {F : FTy → Type} [FloatOps F] [Named F]

/-- The mask column the body loads. -/
def maskOf (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) : FVec F S2048x1 .f32 := (k0_pay9 (View.readAt (Elt F) arg3.view (Rect.unit (s := S1x2048x1) ![0, 0, 0] S1x2048x1.size inb_S1x2048x1_S1x2048x1_0_0_0).toLoadRect (harg3.unread x2)))

/-- The count matrix, from the 30 loaded neighbour columns. -/
def matOf (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) : Vec F S2048x2048 .bf16 :=
  matrix (k0_pay10 (View.readAt (Elt F) arg2.view (Rect.unit (s := S1x2048x30) ![0, 0, 0] S1x2048x1.size inb_S1x2048x30_S1x2048x1_0_0_0).toLoadRect (harg2.unread x1)))
    (k0_pay11 (View.readAt (Elt F) arg2.view (Rect.unit (s := S1x2048x30) ![0, 0, 1] S1x2048x1.size inb_S1x2048x30_S1x2048x1_0_0_1).toLoadRect (harg2.unread x1)))
    (k0_pay12 (View.readAt (Elt F) arg2.view (Rect.unit (s := S1x2048x30) ![0, 0, 2] S1x2048x1.size inb_S1x2048x30_S1x2048x1_0_0_2).toLoadRect (harg2.unread x1)))
    (k0_pay13 (View.readAt (Elt F) arg2.view (Rect.unit (s := S1x2048x30) ![0, 0, 3] S1x2048x1.size inb_S1x2048x30_S1x2048x1_0_0_3).toLoadRect (harg2.unread x1)))
    (k0_pay14 (View.readAt (Elt F) arg2.view (Rect.unit (s := S1x2048x30) ![0, 0, 4] S1x2048x1.size inb_S1x2048x30_S1x2048x1_0_0_4).toLoadRect (harg2.unread x1)))
    (k0_pay15 (View.readAt (Elt F) arg2.view (Rect.unit (s := S1x2048x30) ![0, 0, 5] S1x2048x1.size inb_S1x2048x30_S1x2048x1_0_0_5).toLoadRect (harg2.unread x1)))
    (k0_pay16 (View.readAt (Elt F) arg2.view (Rect.unit (s := S1x2048x30) ![0, 0, 6] S1x2048x1.size inb_S1x2048x30_S1x2048x1_0_0_6).toLoadRect (harg2.unread x1)))
    (k0_pay17 (View.readAt (Elt F) arg2.view (Rect.unit (s := S1x2048x30) ![0, 0, 7] S1x2048x1.size inb_S1x2048x30_S1x2048x1_0_0_7).toLoadRect (harg2.unread x1)))
    (k0_pay18 (View.readAt (Elt F) arg2.view (Rect.unit (s := S1x2048x30) ![0, 0, 8] S1x2048x1.size inb_S1x2048x30_S1x2048x1_0_0_8).toLoadRect (harg2.unread x1)))
    (k0_pay19 (View.readAt (Elt F) arg2.view (Rect.unit (s := S1x2048x30) ![0, 0, 9] S1x2048x1.size inb_S1x2048x30_S1x2048x1_0_0_9).toLoadRect (harg2.unread x1)))
    (k0_pay20 (View.readAt (Elt F) arg2.view (Rect.unit (s := S1x2048x30) ![0, 0, 10] S1x2048x1.size inb_S1x2048x30_S1x2048x1_0_0_10).toLoadRect (harg2.unread x1)))
    (k0_pay21 (View.readAt (Elt F) arg2.view (Rect.unit (s := S1x2048x30) ![0, 0, 11] S1x2048x1.size inb_S1x2048x30_S1x2048x1_0_0_11).toLoadRect (harg2.unread x1)))
    (k0_pay22 (View.readAt (Elt F) arg2.view (Rect.unit (s := S1x2048x30) ![0, 0, 12] S1x2048x1.size inb_S1x2048x30_S1x2048x1_0_0_12).toLoadRect (harg2.unread x1)))
    (k0_pay23 (View.readAt (Elt F) arg2.view (Rect.unit (s := S1x2048x30) ![0, 0, 13] S1x2048x1.size inb_S1x2048x30_S1x2048x1_0_0_13).toLoadRect (harg2.unread x1)))
    (k0_pay24 (View.readAt (Elt F) arg2.view (Rect.unit (s := S1x2048x30) ![0, 0, 14] S1x2048x1.size inb_S1x2048x30_S1x2048x1_0_0_14).toLoadRect (harg2.unread x1)))
    (k0_pay25 (View.readAt (Elt F) arg2.view (Rect.unit (s := S1x2048x30) ![0, 0, 15] S1x2048x1.size inb_S1x2048x30_S1x2048x1_0_0_15).toLoadRect (harg2.unread x1)))
    (k0_pay26 (View.readAt (Elt F) arg2.view (Rect.unit (s := S1x2048x30) ![0, 0, 16] S1x2048x1.size inb_S1x2048x30_S1x2048x1_0_0_16).toLoadRect (harg2.unread x1)))
    (k0_pay27 (View.readAt (Elt F) arg2.view (Rect.unit (s := S1x2048x30) ![0, 0, 17] S1x2048x1.size inb_S1x2048x30_S1x2048x1_0_0_17).toLoadRect (harg2.unread x1)))
    (k0_pay28 (View.readAt (Elt F) arg2.view (Rect.unit (s := S1x2048x30) ![0, 0, 18] S1x2048x1.size inb_S1x2048x30_S1x2048x1_0_0_18).toLoadRect (harg2.unread x1)))
    (k0_pay29 (View.readAt (Elt F) arg2.view (Rect.unit (s := S1x2048x30) ![0, 0, 19] S1x2048x1.size inb_S1x2048x30_S1x2048x1_0_0_19).toLoadRect (harg2.unread x1)))
    (k0_pay30 (View.readAt (Elt F) arg2.view (Rect.unit (s := S1x2048x30) ![0, 0, 20] S1x2048x1.size inb_S1x2048x30_S1x2048x1_0_0_20).toLoadRect (harg2.unread x1)))
    (k0_pay31 (View.readAt (Elt F) arg2.view (Rect.unit (s := S1x2048x30) ![0, 0, 21] S1x2048x1.size inb_S1x2048x30_S1x2048x1_0_0_21).toLoadRect (harg2.unread x1)))
    (View.readAt (Elt F) arg2.view (Rect.unit (s := S1x2048x30) ![0, 0, 22] S1x2048x1.size inb_S1x2048x30_S1x2048x1_0_0_22).toLoadRect (harg2.unread x1))
    (View.readAt (Elt F) arg2.view (Rect.unit (s := S1x2048x30) ![0, 0, 23] S1x2048x1.size inb_S1x2048x30_S1x2048x1_0_0_23).toLoadRect (harg2.unread x1))
    (View.readAt (Elt F) arg2.view (Rect.unit (s := S1x2048x30) ![0, 0, 24] S1x2048x1.size inb_S1x2048x30_S1x2048x1_0_0_24).toLoadRect (harg2.unread x1))
    (View.readAt (Elt F) arg2.view (Rect.unit (s := S1x2048x30) ![0, 0, 25] S1x2048x1.size inb_S1x2048x30_S1x2048x1_0_0_25).toLoadRect (harg2.unread x1))
    (View.readAt (Elt F) arg2.view (Rect.unit (s := S1x2048x30) ![0, 0, 26] S1x2048x1.size inb_S1x2048x30_S1x2048x1_0_0_26).toLoadRect (harg2.unread x1))
    (View.readAt (Elt F) arg2.view (Rect.unit (s := S1x2048x30) ![0, 0, 27] S1x2048x1.size inb_S1x2048x30_S1x2048x1_0_0_27).toLoadRect (harg2.unread x1))
    (View.readAt (Elt F) arg2.view (Rect.unit (s := S1x2048x30) ![0, 0, 28] S1x2048x1.size inb_S1x2048x30_S1x2048x1_0_0_28).toLoadRect (harg2.unread x1))
    (View.readAt (Elt F) arg2.view (Rect.unit (s := S1x2048x30) ![0, 0, 29] S1x2048x1.size inb_S1x2048x30_S1x2048x1_0_0_29).toLoadRect (harg2.unread x1))

/-- The table the first layer stores. -/
def lay0 (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) : FVec F S2048x128 .f32 :=
  k0_pay40 (maskOf arg1 harg1 arg2 harg2 arg3 harg3 arg4 harg4 arg5 harg5 arg6 harg6 arg7 harg7 x0 x1 x2 x3 x4 x5 x6) (k0_pay39 (View.readAt (Elt F) arg1.view (Rect.unit (s := S1x2048x128) ![0, 0, 0] S1x2048x128.size inb_S1x2048x128_S1x2048x128_0_0_0).toLoadRect (harg1.unread x0)) (matOf arg1 harg1 arg2 harg2 arg3 harg3 arg4 harg4 arg5 harg5 arg6 harg6 arg7 harg7 x0 x1 x2 x3 x4 x5 x6)) (View.readAt (Elt F) arg4.view (Rect.unit (s := S3x128x128) ![0, 0, 0] S1x128x128.size inb_S3x128x128_S1x128x128_0_0_0).toLoadRect (harg4.unread x3)) (View.readAt (Elt F) arg5.view (Rect.unit (s := S3x128) ![0, 0] S1x128.size inb_S3x128_S1x128_0_0).toLoadRect (harg5.unread x4)) (View.readAt (Elt F) arg6.view (Rect.unit (s := S3x128) ![0, 0] S1x128.size inb_S3x128_S1x128_0_0).toLoadRect (harg6.unread x5)) (View.readAt (Elt F) arg7.view (Rect.unit (s := S3x128) ![0, 0] S1x128.size inb_S3x128_S1x128_0_0).toLoadRect (harg7.unread x6))

/-- The table the second layer stores. -/
def lay1 (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) : FVec F S2048x128 .f32 :=
  k0_pay48 (maskOf arg1 harg1 arg2 harg2 arg3 harg3 arg4 harg4 arg5 harg5 arg6 harg6 arg7 harg7 x0 x1 x2 x3 x4 x5 x6) (k0_pay41 (View.readAt (Elt F) arg6.view (Rect.unit (s := S3x128) ![1, 0] S1x128.size inb_S3x128_S1x128_1_0).toLoadRect (harg6.unread x5))) (k0_pay42 (View.readAt (Elt F) arg7.view (Rect.unit (s := S3x128) ![1, 0] S1x128.size inb_S3x128_S1x128_1_0).toLoadRect (harg7.unread x6)))
    (k0_pay45 (lay0 arg1 harg1 arg2 harg2 arg3 harg3 arg4 harg4 arg5 harg5 arg6 harg6 arg7 harg7 x0 x1 x2 x3 x4 x5 x6) (matOf arg1 harg1 arg2 harg2 arg3 harg3 arg4 harg4 arg5 harg5 arg6 harg6 arg7 harg7 x0 x1 x2 x3 x4 x5 x6) (View.readAt (Elt F) arg4.view (Rect.unit (s := S3x128x128) ![1, 0, 0] S1x128x128.size inb_S3x128x128_S1x128x128_1_0_0).toLoadRect (harg4.unread x3)) (View.readAt (Elt F) arg5.view (Rect.unit (s := S3x128) ![1, 0] S1x128.size inb_S3x128_S1x128_1_0).toLoadRect (harg5.unread x4)))
    (k0_pay46 (lay0 arg1 harg1 arg2 harg2 arg3 harg3 arg4 harg4 arg5 harg5 arg6 harg6 arg7 harg7 x0 x1 x2 x3 x4 x5 x6) (matOf arg1 harg1 arg2 harg2 arg3 harg3 arg4 harg4 arg5 harg5 arg6 harg6 arg7 harg7 x0 x1 x2 x3 x4 x5 x6) (View.readAt (Elt F) arg4.view (Rect.unit (s := S3x128x128) ![1, 0, 0] S1x128x128.size inb_S3x128x128_S1x128x128_1_0_0).toLoadRect (harg4.unread x3)) (View.readAt (Elt F) arg5.view (Rect.unit (s := S3x128) ![1, 0] S1x128.size inb_S3x128_S1x128_1_0).toLoadRect (harg5.unread x4))) k0_pay47

/-- The block the third layer stores. -/
def blockOut (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) : FVec F S1x2048x128 .f32 :=
  k0_pay1 (maskOf arg1 harg1 arg2 harg2 arg3 harg3 arg4 harg4 arg5 harg5 arg6 harg6 arg7 harg7 x0 x1 x2 x3 x4 x5 x6) (k0_pay49 (View.readAt (Elt F) arg6.view (Rect.unit (s := S3x128) ![2, 0] S1x128.size inb_S3x128_S1x128_2_0).toLoadRect (harg6.unread x5))) (k0_pay50 (View.readAt (Elt F) arg7.view (Rect.unit (s := S3x128) ![2, 0] S1x128.size inb_S3x128_S1x128_2_0).toLoadRect (harg7.unread x6)))
    (k0_pay51 (lay1 arg1 harg1 arg2 harg2 arg3 harg3 arg4 harg4 arg5 harg5 arg6 harg6 arg7 harg7 x0 x1 x2 x3 x4 x5 x6) (matOf arg1 harg1 arg2 harg2 arg3 harg3 arg4 harg4 arg5 harg5 arg6 harg6 arg7 harg7 x0 x1 x2 x3 x4 x5 x6) (View.readAt (Elt F) arg4.view (Rect.unit (s := S3x128x128) ![2, 0, 0] S1x128x128.size inb_S3x128x128_S1x128x128_2_0_0).toLoadRect (harg4.unread x3)) (View.readAt (Elt F) arg5.view (Rect.unit (s := S3x128) ![2, 0] S1x128.size inb_S3x128_S1x128_2_0).toLoadRect (harg5.unread x4)))
    (k0_pay52 (lay1 arg1 harg1 arg2 harg2 arg3 harg3 arg4 harg4 arg5 harg5 arg6 harg6 arg7 harg7 x0 x1 x2 x3 x4 x5 x6) (matOf arg1 harg1 arg2 harg2 arg3 harg3 arg4 harg4 arg5 harg5 arg6 harg6 arg7 harg7 x0 x1 x2 x3 x4 x5 x6) (View.readAt (Elt F) arg4.view (Rect.unit (s := S3x128x128) ![2, 0, 0] S1x128x128.size inb_S3x128x128_S1x128x128_2_0_0).toLoadRect (harg4.unread x3)) (View.readAt (Elt F) arg5.view (Rect.unit (s := S3x128) ![2, 0] S1x128.size inb_S3x128_S1x128_2_0).toLoadRect (harg5.unread x4)))

end Cert.KernelIdeal.KBody

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.KBody Cert.KernelIdeal.KTrip

variable {F : FTy → Type} [FloatOps F] [Named F]

local notation "𝕄" => MT nD τ sig Unit (Elt F) ℕ (UR sig nD τ) ℕ

/-- The one piece the body leaves in the output's buffer. -/
def kernelRun0_A_L7 (c : Dev nD) (i : grid0.Coords) (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S1x2048x128 .f32) (harg8 : arg8.IsWhole) (arg9 : Memref sig .tc .vmem S2048x2048 .bf16) (harg9 : arg9.IsWhole) (arg10 : Memref sig .tc .vmem S2048x128 .f32) (harg10 : arg10.IsWhole) (arg11 : Memref sig .tc .vmem S2048x128 .f32) (harg11 : arg11.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) : List (View.Piece (Elt F) S1x2048x128 .f32) :=
  [⟨Rect.unit (s := S1x2048x128) ![0, 0, 0] S1x2048x128.size inb_S1x2048x128_S1x2048x128_0_0_0, blockOut arg1 harg1 arg2 harg2 arg3 harg3 arg4 harg4 arg5 harg5 arg6 harg6 arg7 harg7 x0 x1 x2 x3 x4 x5 x6⟩]

set_option maxHeartbeats 4000000 in
/-- The body's triple: on whole staging memrefs — the inputs' at their contents, the output's and the scratch buffers at
    anything — the body runs to the continuation holding the inputs' as they were, the scratch at some contents, the output's
    buffer with that piece written. -/
theorem kernelRun0_A_spec (c : Dev nD) (i : grid0.Coords) (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S1x2048x128 .f32) (harg8 : arg8.IsWhole) (arg9 : Memref sig .tc .vmem S2048x2048 .bf16) (harg9 : arg9.IsWhole) (arg10 : Memref sig .tc .vmem S2048x128 .f32) (harg10 : arg10.IsWhole) (arg11 : Memref sig .tc .vmem S2048x128 .f32) (harg11 : arg11.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f (kernelRun0_A_L7 c i arg1 harg1 arg2 harg2 arg3 harg3 arg4 harg4 arg5 harg5 arg6 harg6 arg7 harg7 arg8 harg8 arg9 harg9 arg10 harg10 arg11 harg11 x0 x1 x2 x3 x4 x5 x6)) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K := by
    intro E K
    simp only [cc0__gcn_kernel_eq_skeleton]; unfold cc0__gcn_kernel_skel
    simp only [k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    generalize hX : k0_pay1 (F := F) _ _ _ _ _ = X
    have hOUT : X = blockOut arg1 harg1 arg2 harg2 arg3 harg3 arg4 harg4 arg5 harg5 arg6 harg6 arg7 harg7 x0 x1 x2 x3 x4 x5 x6 := by
      rw [← hX]
      sl_unfold_run_names
      simp only [View.readCov_cons_toLoadRect]
      rw [read_matrix]
      rfl
    subst hOUT
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The piece list with its triple, as the frame certificate takes them. -/
noncomputable def kernelRun0_A (c : Dev nD) (i : grid0.Coords) (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S1x2048x128 .f32) (harg8 : arg8.IsWhole) (arg9 : Memref sig .tc .vmem S2048x2048 .bf16) (harg9 : arg9.IsWhole) (arg10 : Memref sig .tc .vmem S2048x128 .f32) (harg10 : arg10.IsWhole) (arg11 : Memref sig .tc .vmem S2048x128 .f32) (harg11 : arg11.IsWhole)
    (x0 : Vec F S1x2048x128 .f32) (x1 : Vec F S1x2048x30 .i32) (x2 : Vec F S1x2048x1 .f32) (x3 : Vec F S3x128x128 .f32) (x4 : Vec F S3x128 .f32) (x5 : Vec F S3x128 .f32) (x6 : Vec F S3x128 .f32) :
    { L7 : List (View.Piece (Elt F) S1x2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } :=
  ⟨kernelRun0_A_L7 c i arg1 harg1 arg2 harg2 arg3 harg3 arg4 harg4 arg5 harg5 arg6 harg6 arg7 harg7 arg8 harg8 arg9 harg9 arg10 harg10 arg11 harg11 x0 x1 x2 x3 x4 x5 x6, kernelRun0_A_spec c i arg1 harg1 arg2 harg2 arg3 harg3 arg4 harg4 arg5 harg5 arg6 harg6 arg7 harg7 arg8 harg8 arg9 harg9 arg10 harg10 arg11 harg11 x0 x1 x2 x3 x4 x5 x6⟩

end Cert.KernelIdeal.Gen

end
-- ==== Proof.Spec.lean ====
/-
  The network both programs compute, stated once over plain indices and extended reals.

  A node state is a 2048 × 128 table `h`.  One layer sends `h` to

      LN_e( relu( Σ_d (h l d + a l d) · W d e + b e ) ) · g e + β e ,  times the row's mask,

  where `a = agg h` is the neighbour average and LN normalises a row by its mean and its (biased) variance plus ε.
  The two programs differ only in how they form `a`:
  the reference gathers the 30 neighbour rows, adds them and divides by 30 (`aggGather`);
  the kernel multiplies `h` by the 2048 × 2048 matrix that counts, for each row l and column j, how many of l's 30
  neighbours are j, and scales by 1/30 (`aggCount`).  `aggCount_eq_aggGather` says these are one function of `h`, for
  every extended-real table: the count matrix has non-negative entries, so the product distributes over the count's sum,
  each indicator row picks out one entry, and dividing by 30 is multiplying by 1/30 on every extended real.
-/
import Idealize.ShloMosaic.PureOps.Ideal
import Idealize.ShloMosaic.PureOps.Ideal.Laws

noncomputable section

namespace Cert.Gcn

open Idealize.ShloMosaic

/-- A table of node states (or of per-node features). -/
abbrev Tab := Fin 2048 → Fin 128 → EReal

/-- The width of a row as the programs write it (the f32 pattern of 128). -/
abbrev c128 : EReal := Ideal.ofBits .f32 0x43000000#32
/-- The variance guard ε as both programs write it (the f32 pattern nearest 1e-5). -/
abbrev cEps : EReal := Ideal.ofBits .f32 0x3727C5AC#32

/-- A row after the affine map and the rectifier: relu( Σ_d (h l d + a l d) · W d e + b e ). -/
def act (a h : Tab) (W : Fin 128 → Fin 128 → EReal) (b : Fin 128 → EReal) (l : Fin 2048) (e : Fin 128) : EReal :=
  max ((∑ d : Fin 128, (h l d + a l d) * W d e) + b e) 0

/-- The row's mean. -/
def mean (a h : Tab) (W : Fin 128 → Fin 128 → EReal) (b : Fin 128 → EReal) (l : Fin 2048) : EReal :=
  Ideal.div (∑ e : Fin 128, act a h W b l e) c128

/-- The row's variance about its mean. -/
def var (a h : Tab) (W : Fin 128 → Fin 128 → EReal) (b : Fin 128 → EReal) (l : Fin 2048) : EReal :=
  Ideal.div (∑ e : Fin 128, (act a h W b l e - mean a h W b l) * (act a h W b l e - mean a h W b l)) c128

/-- One layer, given the neighbour average `a` of the incoming table `h`. -/
def layerWith (a h : Tab) (W : Fin 128 → Fin 128 → EReal) (b g bt : Fin 128 → EReal) (mk : Fin 2048 → EReal) : Tab :=
  fun l e =>
    ((act a h W b l e - mean a h W b l) * Ideal.rsqrt (var a h W b l + cEps) * g e + bt e) * mk l

/-- One layer over an averaging rule `agg`. -/
def layer (agg : Tab → Tab) (h : Tab) (W : Fin 128 → Fin 128 → EReal) (b g bt : Fin 128 → EReal) (mk : Fin 2048 → EReal) : Tab :=
  layerWith (agg h) h W b g bt mk

/-- The three layers, each with its own weights (indexed by the layer). -/
def net (agg : Tab → Tab) (h : Tab) (W : Fin 3 → Fin 128 → Fin 128 → EReal) (b g bt : Fin 3 → Fin 128 → EReal)
    (mk : Fin 2048 → EReal) : Tab :=
  layer agg (layer agg (layer agg h (W 0) (b 0) (g 0) (bt 0) mk) (W 1) (b 1) (g 1) (bt 1) mk) (W 2) (b 2) (g 2) (bt 2) mk

/-- The reference's average: the 30 gathered rows added up from zero, divided by 30. -/
def aggGather (nb : Fin 2048 → Fin 30 → Fin 2048) (c30 : EReal) : Tab → Tab :=
  fun h l d => Ideal.div (0 + ∑ k : Fin 30, h (nb l k) d) c30

/-- The kernel's average: the count matrix times the table, scaled. `cnt l j` is how often j is a neighbour of l. -/
def aggCount (cnt : Fin 2048 → Fin 2048 → EReal) (s : EReal) : Tab → Tab :=
  fun h l d => (∑ j : Fin 2048, cnt l j * h j d) * s

/-- A sum of non-negative extended reals times `x` is the sum of the products. -/
theorem sum_nonneg_mul {ι : Type*} (S : Finset ι) (c : ι → EReal) (hc : ∀ i, 0 ≤ c i) (x : EReal) :
    (∑ i ∈ S, c i) * x = ∑ i ∈ S, c i * x := by
  classical
  induction S using Finset.induction_on with
  | empty => simp
  | insert i S hi ih =>
    rw [Finset.sum_insert hi, Finset.sum_insert hi, EReal.right_distrib_of_nonneg (hc i) (Finset.sum_nonneg fun j _ => hc j), ih]

/-- The count matrix of `nb` against a table is the sum of the gathered rows. -/
theorem count_mul_eq_gather (nb : Fin 2048 → Fin 30 → Fin 2048) (h : Tab) (l : Fin 2048) (d : Fin 128) :
    (∑ j : Fin 2048, (∑ k : Fin 30, (if nb l k = j then (1 : EReal) else 0)) * h j d) = ∑ k : Fin 30, h (nb l k) d := by
  have h1 : ∀ j : Fin 2048, (∑ k : Fin 30, (if nb l k = j then (1 : EReal) else 0)) * h j d
      = ∑ k : Fin 30, (if nb l k = j then (1 : EReal) else 0) * h j d := fun j =>
    sum_nonneg_mul _ _ (fun k => by split <;> simp) _
  simp only [h1]
  rw [Finset.sum_comm]
  refine Finset.sum_congr rfl fun k _ => ?_
  rw [Finset.sum_eq_single (nb l k)]
  · simp
  · intro j _ hj; rw [if_neg (Ne.symm hj), zero_mul]
  · intro hn; exact absurd (Finset.mem_univ _) hn

/-- The two averaging rules are one function, when the count matrix counts `nb`, the divisor is 30 and the scale 1/30. -/
theorem aggCount_eq_aggGather (nb : Fin 2048 → Fin 30 → Fin 2048) (cnt : Fin 2048 → Fin 2048 → EReal)
    (hcnt : ∀ l j, cnt l j = ∑ k : Fin 30, (if nb l k = j then (1 : EReal) else 0)) :
    aggCount cnt ((1 / 30 : ℝ) : EReal) = aggGather nb ((30 : ℝ) : EReal) := by
  funext h l d
  unfold aggCount aggGather
  rw [Ideal.div_coe (by norm_num : (30 : ℝ) ≠ 0), zero_add]
  simp only [hcnt]
  rw [count_mul_eq_gather]

end Cert.Gcn

end
-- ==== Proof.Rd.lean ====
/-
  Reading the kernel's vectors as plain tables: a 2048 × 128 block of node states, the 2048 × 2048 count matrix, one
  layer's 128 × 128 weights, a 128-vector kept as a [1, 128] row, and the mask kept as a [2048, 1] column.
-/
import proofs.«400262_j80745385165161_3_alg».proof.Proof.Gen.KernelIdeal.Skeleton
import proofs.«400262_j80745385165161_3_alg».proof.Proof.Spec
import Idealize.ShloMosaic.Lib.ValueIdx

noncomputable section

namespace Cert.KernelIdeal.Rd

open Idealize.ShloMosaic Idealize.ShloMosaic.ValueIdx Cert.KernelIdeal Cert.Gcn

/-- A [2048, 128] vector as a table. -/
def tab (v : Vec Ideal S2048x128 .f32) : Tab := fun l d => v (ix2 l d)
/-- A [1, 2048, 128] block as a table. -/
def tab3 (v : Vec Ideal S1x2048x128 .f32) : Tab := fun l d => v (ix3 (0 : Fin 1) l d)
/-- The [2048, 2048] matrix's entries. -/
def cnt (A : Vec Ideal S2048x2048 .bf16) : Fin 2048 → Fin 2048 → EReal := fun l j => A (ix2 l j)
/-- A [1, 128, 128] slice of the weights as a matrix. -/
def wts (v : Vec Ideal S1x128x128 .f32) : Fin 128 → Fin 128 → EReal := fun d e => v (ix3 (0 : Fin 1) d e)
/-- A [1, 128] slice as a vector. -/
def row (v : Vec Ideal S1x128 .f32) : Fin 128 → EReal := fun e => v (ix2 (0 : Fin 1) e)
/-- A [2048, 1] column as a vector. -/
def col (v : Vec Ideal S2048x1 .f32) : Fin 2048 → EReal := fun l => v (ix2 l (0 : Fin 1))

/-- The kernel's named reciprocal denotes 1/30. -/
theorem inv30 : Named.named (F := Ideal) κ "inv_30" (φ := .f32) 0x3D088889#32 = ((1 / 30 : ℝ) : EReal) :=
  IdealRules.named_const.ideal_named_scalar _ _ _ _ rfl

end Cert.KernelIdeal.Rd

end
-- ==== Proof.KLayer0.lean ====
/-
  The kernel's first layer, read at one entry: the block's arithmetic from the loaded node states, the count matrix and the layer's weights is the specification's layer over the count average.
-/
import proofs.«400262_j80745385165161_3_alg».proof.Proof.Rd
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KLayer0

open Idealize.ShloMosaic Idealize.ShloMosaic.ValueIdx Cert.KernelIdeal Cert.KernelIdeal.Gen Cert.KernelIdeal.Rd Cert.Gcn

/-! ## The two products, read at one entry

The first product contracts the matrix's column index with the table's row index; the second contracts the
table's column index with the weights' row index. In both, the left operand's axis 0 and the right operand's axis 1
are the result's two axes, and the other two axes carry the contraction's one coordinate. -/

theorem lhsA_0 (i : S2048x128.Idx) (q : dot_S2048x2048_S2048x128_S2048x128_1_0_0_1_n_n.contr.Idx) :
    (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
theorem lhsA_1 (i : S2048x128.Idx) (q : dot_S2048x2048_S2048x128_S2048x128_1_0_0_1_n_n.contr.Idx) :
    (dot_S2048x2048_S2048x128_S2048x128_1_0_0_1_n_n.lhsIdx i q 1).val = (q ⟨0, by decide⟩).val :=
  dot_S2048x2048_S2048x128_S2048x128_1_0_0_1_n_n.lhsIdx_val_of_single rfl i q
theorem rhsA_0 (i : S2048x128.Idx) (q : dot_S2048x2048_S2048x128_S2048x128_1_0_0_1_n_n.contr.Idx) :
    (dot_S2048x2048_S2048x128_S2048x128_1_0_0_1_n_n.rhsIdx i q 0).val = (q ⟨0, by decide⟩).val :=
  dot_S2048x2048_S2048x128_S2048x128_1_0_0_1_n_n.rhsIdx_val_of_single rfl i q
theorem rhsA_1 (i : S2048x128.Idx) (q : dot_S2048x2048_S2048x128_S2048x128_1_0_0_1_n_n.contr.Idx) :
    (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- The matrix times a table, into a zero accumulator: entry (l, d) is Σ_j A l j · H j d. -/
theorem mulA_apply (A : FVec Ideal S2048x2048 .bf16) (H : FVec Ideal S2048x128 .bf16) (l : Fin 2048) (d : Fin 128) :
    matmul dot_S2048x2048_S2048x128_S2048x128_1_0_0_1_n_n none A H (constant (F := Ideal) S2048x128 .f32 0x00000000#32) (ix2 l d)
      = ∑ j : Fin 2048, A (ix2 l j) * H (ix2 j d) := by
  simp only [matmul]
  rw [Ideal.matmul_constant_zero_apply, ← Equiv.sum_comp (ValueIdx.contrEquiv1 dot_S2048x2048_S2048x128_S2048x128_1_0_0_1_n_n 2048 rfl rfl).symm]
  refine Finset.sum_congr rfl fun k _ => ?_
  have hk := ValueIdx.contrEquiv1_symm_val dot_S2048x2048_S2048x128_S2048x128_1_0_0_1_n_n 2048 rfl rfl k
  have el : dot_S2048x2048_S2048x128_S2048x128_1_0_0_1_n_n.lhsIdx (ix2 l d) ((ValueIdx.contrEquiv1 dot_S2048x2048_S2048x128_S2048x128_1_0_0_1_n_n 2048 rfl rfl).symm k) = ix2 l k := funext fun a => Fin.ext (by
    match a with
    | ⟨0, _⟩ => exact lhsA_0 _ _
    | ⟨1, _⟩ => exact (lhsA_1 _ _).trans hk)
  have er : dot_S2048x2048_S2048x128_S2048x128_1_0_0_1_n_n.rhsIdx (ix2 l d) ((ValueIdx.contrEquiv1 dot_S2048x2048_S2048x128_S2048x128_1_0_0_1_n_n 2048 rfl rfl).symm k) = ix2 k d := funext fun a => Fin.ext (by
    match a with
    | ⟨0, _⟩ => exact (rhsA_0 _ _).trans hk
    | ⟨1, _⟩ => exact rhsA_1 _ _)
  rw [el, er]

theorem lhsW_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhsW_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhsW_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhsW_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- A table times the weights, into a zero accumulator: entry (l, e) is Σ_d X l d · W d e. -/
theorem mulW_apply (X : FVec Ideal S2048x128 .bf16) (W : FVec Ideal S128x128 .bf16) (l : Fin 2048) (e : Fin 128) :
    matmul dot_S2048x128_S128x128_S2048x128_1_0_0_1_n_n none X W (constant (F := Ideal) S2048x128 .f32 0x00000000#32) (ix2 l e)
      = ∑ d : Fin 128, X (ix2 l d) * W (ix2 d e) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 l e) ((ValueIdx.contrEquiv1 dot_S2048x128_S128x128_S2048x128_1_0_0_1_n_n 128 rfl rfl).symm k) = ix2 l k := funext fun a => Fin.ext (by
    match a with
    | ⟨0, _⟩ => exact lhsW_0 _ _
    | ⟨1, _⟩ => exact (lhsW_1 _ _).trans hk)
  have er : dot_S2048x128_S128x128_S2048x128_1_0_0_1_n_n.rhsIdx (ix2 l e) ((ValueIdx.contrEquiv1 dot_S2048x128_S128x128_S2048x128_1_0_0_1_n_n 128 rfl rfl).symm k) = ix2 k e := funext fun a => Fin.ext (by
    match a with
    | ⟨0, _⟩ => exact (rhsW_0 _ _).trans hk
    | ⟨1, _⟩ => exact rhsW_1 _ _)
  rw [el, er]

/-! ## The lane sum and the layout operations, read at one entry -/

/-- A lane sum of a [2048, 128] table: entry l is Σ_e x l e. -/
theorem laneSum_apply (x : FVec Ideal S2048x128 .f32) (l : Fin 2048) :
    multiReduction (F := Ideal) .add [1] S2048 x 0x00000000#32 reduces_S2048x128_S2048 (.inl rfl) rfl (ix1 l)
      = ∑ e : Fin 128, x (ix2 l e) := by
  refine (Ideal.multiReduction_add_single x 0x00000000#32 reduces_S2048x128_S2048 (.inl rfl) rfl (ix1 l)).trans ?_
  refine Finset.sum_congr rfl fun e _ => congrArg x ?_
  funext a
  refine Fin.ext ?_
  match a with
  | ⟨0, _⟩ => rfl
  | ⟨1, _⟩ => rfl

/-- A [2048] vector kept as a [2048, 1] column: entry (l, ·) is the vector's entry l. -/
theorem castCol_apply {α : Type} (x : S2048.Idx → α) (l : Fin 2048) (u : Fin 1) :
    shapeCast S2048x1 x shapeCasts_S2048_S2048x1 (ix2 l u) = x (ix1 l) :=
  shapeCast_apply x shapeCasts_S2048_S2048x1 (ix2 l u) (ix1 l) (by
    have hu : u.val = 0 := by omega
    rw [Shape.rowMajor_val_one, Shape.rowMajor_val_two]
    show l.val = l.val * 1 + u.val
    rw [hu, Nat.mul_one, Nat.add_zero])

/-- A [2048, 1] column spread over 128 lanes: entry (l, e) is the column's entry l. -/
theorem spreadCol_apply {α : Type} (x : S2048x1.Idx → α) (l : Fin 2048) (e : Fin 128) :
    broadcastTo S2048x128 x broadcasts_S2048x1_S2048x128 (ix2 l e) = x (ix2 l (0 : Fin 1)) := by
  refine broadcastTo_apply x broadcasts_S2048x1_S2048x128 (ix2 l e) (ix2 l (0 : Fin 1)) fun ax => ?_
  match ax with
  | ⟨0, _⟩ => rfl
  | ⟨1, _⟩ => rfl

/-- A [1, 128] row spread over 2048 rows: entry (l, e) is the row's entry e. -/
theorem spreadRow_apply {α : Type} (x : S1x128.Idx → α) (l : Fin 2048) (e : Fin 128) :
    broadcastTo S2048x128 x broadcasts_S1x128_S2048x128 (ix2 l e) = x (ix2 (0 : Fin 1) e) :=
  broadcastTo_1b_ab_apply x broadcasts_S1x128_S2048x128 l e

/-- A [1, 128] row squeezed to [128] and put back: the row itself at (0, e). -/
theorem rowBack_apply {α : Type} (x : S1x128.Idx → α) (e : Fin 128) :
    shapeCast S1x128 (shapeCast S128 x shapeCasts_S1x128_S128) shapeCasts_S128_S1x128 (ix2 (0 : Fin 1) e) = x (ix2 (0 : Fin 1) e) :=
  (shapeCast_a_1a_apply _ shapeCasts_S128_S1x128 (0 : Fin 1) e).trans (shapeCast_1a_a_apply x shapeCasts_S1x128_S128 e)

/-- The loaded [1, 2048, 128] block as a [2048, 128] table. -/
theorem dropH_apply {α : Type} (x : S1x2048x128.Idx → α) (l : Fin 2048) (d : Fin 128) :
    shapeCast S2048x128 x shapeCasts_S1x2048x128_S2048x128 (ix2 l d) = x (ix3 (0 : Fin 1) l d) :=
  shapeCast_1ab_ab_apply x shapeCasts_S1x2048x128_S2048x128 l d

/-- The loaded [1, 128, 128] weights as a [128, 128] matrix. -/
theorem dropW_apply {α : Type} (x : S1x128x128.Idx → α) (d e : Fin 128) :
    shapeCast S128x128 x shapeCasts_S1x128x128_S128x128 (ix2 d e) = x (ix3 (0 : Fin 1) d e) :=
  shapeCast_1ab_ab_apply x shapeCasts_S1x128x128_S128x128 d e

/-! ## The layer's input -/

/-- The layer's input table: the incoming state plus the count average of it. -/
theorem input_apply (v63 : Vec Ideal S1x2048x128 .f32) (v65 : Vec Ideal S2048x2048 .bf16) (l : Fin 2048) (d : Fin 128) :
    k0_pay39 (F := Ideal) v63 v65 (ix2 l d)
      = tab3 v63 l d + aggCount (cnt v65) ((1 / 30 : ℝ) : EReal) (tab3 v63) l d := by
  unfold k0_pay39
  simp only [addf_apply, mulf_apply, broadcast_apply]
  rw [dropH_apply, mulA_apply, inv30]
  simp only [truncf_apply, dropH_apply]
  rfl

/-! ## The layer's stages, each as a function of what it reads -/

/-- The affine map and the rectifier, from the layer's input table. -/
def actV (x : FVec Ideal S2048x128 .f32) (v71 : Vec Ideal S1x128x128 .f32) (v73 : Vec Ideal S1x128 .f32) : FVec Ideal S2048x128 .f32 :=
  maximumf
    (addf
      (matmul dot_S2048x128_S128x128_S2048x128_1_0_0_1_n_n none
        (truncf .bf16 x bitsLt_bf16_f32 : FVec Ideal S2048x128 .bf16)
        (truncf .bf16 (shapeCast S128x128 v71 shapeCasts_S1x128x128_S128x128 : FVec Ideal S128x128 .f32) bitsLt_bf16_f32 : FVec Ideal S128x128 .bf16)
        (constant S2048x128 .f32 0x00000000#32))
      (broadcastTo S2048x128
        (shapeCast S1x128 (shapeCast S128 v73 shapeCasts_S1x128_S128 : FVec Ideal S128 .f32) shapeCasts_S128_S1x128 : FVec Ideal S1x128 .f32)
        broadcasts_S1x128_S2048x128))
    (broadcast S2048x128 (Scalar.ofBits .f32 0x00000000#32))

/-- A table's lane sums divided by the row width, kept as a column. -/
def avgV (y : FVec Ideal S2048x128 .f32) : FVec Ideal S2048x1 .f32 :=
  divf
    (shapeCast S2048x1 (multiReduction (F := Ideal) .add [1] S2048 y 0x00000000#32 reduces_S2048x128_S2048 (.inl rfl) rfl) shapeCasts_S2048_S2048x1 : FVec Ideal S2048x1 .f32)
    (broadcast S2048x1 (Scalar.ofBits .f32 0x43000000#32))

/-- A table minus its row means. -/
def devV (y : FVec Ideal S2048x128 .f32) : FVec Ideal S2048x128 .f32 :=
  subf y (broadcastTo S2048x128 (avgV y) broadcasts_S2048x1_S2048x128)

/-- The normalised, scaled, shifted and masked table. -/
def outV (v1 : FVec Ideal S2048x1 .f32) (y : FVec Ideal S2048x128 .f32) (v75 v77 : Vec Ideal S1x128 .f32) : FVec Ideal S2048x128 .f32 :=
  shapeCast S2048x128
    (mulf
      (addf
        (mulf
          (mulf (devV y)
            (broadcastTo S2048x128
              (rsqrt (addf (avgV (mulf (devV y) (devV y))) (broadcast S2048x1 (Scalar.ofBits .f32 0x3727C5AC#32))))
              broadcasts_S2048x1_S2048x128))
          (broadcastTo S2048x128
            (shapeCast S1x128 (shapeCast S128 v75 shapeCasts_S1x128_S128 : FVec Ideal S128 .f32) shapeCasts_S128_S1x128 : FVec Ideal S1x128 .f32)
            broadcasts_S1x128_S2048x128))
        (broadcastTo S2048x128
          (shapeCast S1x128 (shapeCast S128 v77 shapeCasts_S1x128_S128 : FVec Ideal S128 .f32) shapeCasts_S128_S1x128 : FVec Ideal S1x128 .f32)
          broadcasts_S1x128_S2048x128))
      (broadcastTo S2048x128 v1 broadcasts_S2048x1_S2048x128))
    shapeCasts_S2048x128_S2048x128

/-- The block's arithmetic is these stages composed. -/
theorem pay40_eq (v1 : FVec Ideal S2048x1 .f32) (x : FVec Ideal S2048x128 .f32) (v71 : Vec Ideal S1x128x128 .f32) (v73 v75 v77 : Vec Ideal S1x128 .f32) :
    k0_pay40 (F := Ideal) v1 x v71 v73 v75 v77 = outV v1 (actV x v71 v73) v75 v77 := rfl

/-! ## The stages at one entry -/

/-- The rectified affine map at an entry. -/
theorem actV_apply (x : FVec Ideal S2048x128 .f32) (v71 : Vec Ideal S1x128x128 .f32) (v73 : Vec Ideal S1x128 .f32)
    (l : Fin 2048) (e : Fin 128) :
    actV x v71 v73 (ix2 l e) = max ((∑ d : Fin 128, x (ix2 l d) * wts v71 d e) + row v73 e) 0 := by
  unfold actV
  rw [maximumf_apply, addf_apply, mulW_apply, spreadRow_apply, rowBack_apply, broadcast_apply]
  simp only [truncf_apply, dropW_apply]
  rw [show Scalar.ofBits (F := Ideal) .f32 0x00000000#32 = (0 : EReal) from Ideal.ofBits_zero_f32]
  rfl

/-- A row's lane sum over the row width, at an entry of the column. -/
theorem avgV_apply (y : FVec Ideal S2048x128 .f32) (l : Fin 2048) (u : Fin 1) :
    avgV y (ix2 l u) = Ideal.div (∑ e : Fin 128, y (ix2 l e)) c128 := by
  unfold avgV
  rw [divf_apply, castCol_apply, laneSum_apply, broadcast_apply]
  rfl

/-- A deviation from the row's mean, at an entry. -/
theorem devV_apply (y : FVec Ideal S2048x128 .f32) (l : Fin 2048) (e : Fin 128) :
    devV y (ix2 l e) = y (ix2 l e) - Ideal.div (∑ e' : Fin 128, y (ix2 l e')) c128 := by
  unfold devV
  rw [subf_apply, spreadCol_apply, avgV_apply]

/-- The normalised, scaled, shifted and masked table at an entry. -/
theorem outV_apply (v1 : FVec Ideal S2048x1 .f32) (y : FVec Ideal S2048x128 .f32) (v75 v77 : Vec Ideal S1x128 .f32)
    (l : Fin 2048) (e : Fin 128) :
    outV v1 y v75 v77 (ix2 l e)
      = ((y (ix2 l e) - Ideal.div (∑ e' : Fin 128, y (ix2 l e')) c128)
          * Ideal.rsqrt (Ideal.div (∑ e' : Fin 128,
              (y (ix2 l e') - Ideal.div (∑ e'' : Fin 128, y (ix2 l e'')) c128)
                * (y (ix2 l e') - Ideal.div (∑ e'' : Fin 128, y (ix2 l e'')) c128)) c128 + cEps)
          * row v75 e + row v77 e) * col v1 l := by
  unfold outV
  rw [shapeCast_self]
  rw [mulf_apply, addf_apply, mulf_apply, mulf_apply, devV_apply, spreadCol_apply, spreadRow_apply, spreadRow_apply, rowBack_apply, rowBack_apply, spreadCol_apply]
  show (_ * Ideal.rsqrt (avgV (mulf (devV y) (devV y)) (ix2 l (0 : Fin 1)) + cEps) * _ + _) * _ = _
  rw [avgV_apply]
  simp only [mulf_apply, devV_apply]
  rfl

/-! ## The layer -/

theorem layer0 (v1 : Vec Ideal S2048x1 .f32) (v63 : Vec Ideal S1x2048x128 .f32) (v65 : Vec Ideal S2048x2048 .bf16) (v71 : Vec Ideal S1x128x128 .f32) (v73 v75 v77 : Vec Ideal S1x128 .f32) (l : Fin 2048) (e : Fin 128) :
    k0_pay40 (F := Ideal) v1 (k0_pay39 v63 v65) v71 v73 v75 v77 (ix2 l e)
      = layerWith (aggCount (cnt v65) ((1 / 30 : ℝ) : EReal) (tab3 v63)) (tab3 v63) (wts v71) (row v73) (row v75) (row v77) (col v1) l e := by
  rw [pay40_eq, outV_apply]
  simp only [actV_apply, input_apply]
  rfl

end Cert.KernelIdeal.KLayer0

end
-- ==== Proof.KLayer1.lean ====
/-
  The kernel's second layer, read at one entry.
-/
import proofs.«400262_j80745385165161_3_alg».proof.Proof.Rd
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KLayer1

open Idealize.ShloMosaic Idealize.ShloMosaic.ValueIdx Cert.KernelIdeal Cert.KernelIdeal.Gen Cert.KernelIdeal.Rd Cert.Gcn

/-! ## The two matrix products at an entry -/

/-- In the product of the count matrix with a table, the left operand's row is the output's row. -/
theorem lhs_mmA_0 (i : S2048x128.Idx) (q : dot_S2048x2048_S2048x128_S2048x128_1_0_0_1_n_n.contr.Idx) :
    (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
/-- Its column is the contracted coordinate. -/
theorem lhs_mmA_1 (i : S2048x128.Idx) (q : dot_S2048x2048_S2048x128_S2048x128_1_0_0_1_n_n.contr.Idx) :
    (dot_S2048x2048_S2048x128_S2048x128_1_0_0_1_n_n.lhsIdx i q 1).val = (q ⟨0, by decide⟩).val :=
  dot_S2048x2048_S2048x128_S2048x128_1_0_0_1_n_n.lhsIdx_val_of_single rfl i q
/-- The right operand's row is the contracted coordinate. -/
theorem rhs_mmA_0 (i : S2048x128.Idx) (q : dot_S2048x2048_S2048x128_S2048x128_1_0_0_1_n_n.contr.Idx) :
    (dot_S2048x2048_S2048x128_S2048x128_1_0_0_1_n_n.rhsIdx i q 0).val = (q ⟨0, by decide⟩).val :=
  dot_S2048x2048_S2048x128_S2048x128_1_0_0_1_n_n.rhsIdx_val_of_single rfl i q
/-- Its column is the output's column. -/
theorem rhs_mmA_1 (i : S2048x128.Idx) (q : dot_S2048x2048_S2048x128_S2048x128_1_0_0_1_n_n.contr.Idx) :
    (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- The count matrix times a table, into a zero accumulator, at (l, e): the sum over the 2048 rows of the table. -/
theorem mmA_apply (A : FVec Ideal S2048x2048 .bf16) (B : FVec Ideal S2048x128 .bf16) (l : Fin 2048) (e : Fin 128) :
    matmul dot_S2048x2048_S2048x128_S2048x128_1_0_0_1_n_n none A B (constant (F := Ideal) S2048x128 .f32 0x00000000#32) (ix2 l e)
      = ∑ k : Fin 2048, A (ix2 l k) * B (ix2 k e) := by
  simp only [matmul]
  rw [Ideal.matmul_constant_zero_apply, ← Equiv.sum_comp (ValueIdx.contrEquiv1 dot_S2048x2048_S2048x128_S2048x128_1_0_0_1_n_n 2048 rfl rfl).symm]
  refine Finset.sum_congr rfl fun k _ => ?_
  have hk := ValueIdx.contrEquiv1_symm_val dot_S2048x2048_S2048x128_S2048x128_1_0_0_1_n_n 2048 rfl rfl k
  have el : dot_S2048x2048_S2048x128_S2048x128_1_0_0_1_n_n.lhsIdx (ix2 l e) ((ValueIdx.contrEquiv1 dot_S2048x2048_S2048x128_S2048x128_1_0_0_1_n_n 2048 rfl rfl).symm k) = ix2 l k := funext fun a => Fin.ext (by
    match a with
    | ⟨0, _⟩ => exact lhs_mmA_0 _ _
    | ⟨1, _⟩ => exact (lhs_mmA_1 _ _).trans hk)
  have er : dot_S2048x2048_S2048x128_S2048x128_1_0_0_1_n_n.rhsIdx (ix2 l e) ((ValueIdx.contrEquiv1 dot_S2048x2048_S2048x128_S2048x128_1_0_0_1_n_n 2048 rfl rfl).symm k) = ix2 k e := funext fun a => Fin.ext (by
    match a with
    | ⟨0, _⟩ => exact (rhs_mmA_0 _ _).trans hk
    | ⟨1, _⟩ => exact rhs_mmA_1 _ _)
  rw [el, er]

/-- In the product of a table with the weights, the left operand's row is the output's row. -/
theorem lhs_mmW_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
/-- Its column is the contracted coordinate. -/
theorem lhs_mmW_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
/-- The right operand's row is the contracted coordinate. -/
theorem rhs_mmW_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
/-- Its column is the output's column. -/
theorem rhs_mmW_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- A table times the weights, into a zero accumulator, at (l, e): the sum over the 128 features. -/
theorem mmW_apply (A : FVec Ideal S2048x128 .bf16) (B : FVec Ideal S128x128 .bf16) (l : Fin 2048) (e : Fin 128) :
    matmul dot_S2048x128_S128x128_S2048x128_1_0_0_1_n_n none A B (constant (F := Ideal) S2048x128 .f32 0x00000000#32) (ix2 l e)
      = ∑ k : Fin 128, A (ix2 l k) * B (ix2 k e) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 l e) ((ValueIdx.contrEquiv1 dot_S2048x128_S128x128_S2048x128_1_0_0_1_n_n 128 rfl rfl).symm k) = ix2 l k := funext fun a => Fin.ext (by
    match a with
    | ⟨0, _⟩ => exact lhs_mmW_0 _ _
    | ⟨1, _⟩ => exact (lhs_mmW_1 _ _).trans hk)
  have er : dot_S2048x128_S128x128_S2048x128_1_0_0_1_n_n.rhsIdx (ix2 l e) ((ValueIdx.contrEquiv1 dot_S2048x128_S128x128_S2048x128_1_0_0_1_n_n 128 rfl rfl).symm k) = ix2 k e := funext fun a => Fin.ext (by
    match a with
    | ⟨0, _⟩ => exact (rhs_mmW_0 _ _).trans hk
    | ⟨1, _⟩ => exact rhs_mmW_1 _ _)
  rw [el, er]

/-! ## The lane sum and the column forms at an entry -/

/-- A sum along the 128 lanes of a [2048, 128] vector, at row l, is the sum of that row's entries. -/
theorem laneSum_apply (src : FVec Ideal S2048x128 .f32) (h : S2048x128.Reduces [1] S2048) (hφ : FKind.Formats .f32)
    (hacc : (0x00000000#32 : BitVec 32) = 0x00000000#32) (l : Fin 2048) :
    multiReduction (F := Ideal) .add [1] S2048 src 0x00000000#32 h hφ hacc (ix1 l) = ∑ e : Fin 128, src (ix2 l e) := by
  refine (Ideal.multiReduction_add_single src 0x00000000#32 h hφ hacc (ix1 l)).trans ?_
  refine Finset.sum_congr rfl fun e _ => congrArg src (funext fun a => Fin.ext ?_)
  match a with
  | ⟨0, _⟩ => rfl
  | ⟨1, _⟩ => rfl

/-- A [2048] vector cast to a [2048, 1] column reads, at (l, u), the vector at l. -/
theorem castCol_apply {α : Type} (v : S2048.Idx → α) (h : S2048.ShapeCasts S2048x1) (l : Fin 2048) (u : Fin 1) :
    shapeCast S2048x1 v h (ix2 l u) = v (ix1 l) :=
  shapeCast_apply v h _ _ (by
    have hu : u.val = 0 := by omega
    rw [Shape.rowMajor_val_two, Shape.rowMajor_val_one]
    show l.val = l.val * 1 + u.val
    rw [hu, Nat.mul_one, Nat.add_zero])

/-- A [2048, 1] column broadcast along the lanes reads, at (l, e), the column at l. -/
theorem bcastCol_apply {α : Type} (v : S2048x1.Idx → α) (h : S2048x1.Broadcasts S2048x128) (l : Fin 2048) (e : Fin 128) :
    broadcastTo S2048x128 v h (ix2 l e) = v (ix2 l (0 : Fin 1)) := by
  refine broadcastTo_apply v h (ix2 l e) (ix2 l (0 : Fin 1)) fun ax => ?_
  match ax with
  | ⟨0, _⟩ => rfl
  | ⟨1, _⟩ => rfl

/-! ## The activation at an entry -/

/-- The rectified affine row of the layer: the kernel's value at (l, e) is the specification's. -/
theorem act_apply (v116 : Vec Ideal S2048x128 .f32) (v117 : Vec Ideal S2048x2048 .bf16) (v123 : Vec Ideal S1x128x128 .f32)
    (v125 : Vec Ideal S1x128 .f32) (l : Fin 2048) (e : Fin 128) :
    k0_pay43 (F := Ideal) v116 v117 v123 v125 (ix2 l e)
      = act (aggCount (cnt v117) ((1 / 30 : ℝ) : EReal) (tab v116)) (tab v116) (wts v123) (row v125) l e := by
  unfold k0_pay43
  simp only [maximumf_apply, addf_apply, mulf_apply, broadcast_apply, truncf_apply, mmW_apply, mmA_apply,
    shapeCast_1ab_ab_apply, broadcastTo_1b_ab_apply, shapeCast_a_1a_apply, shapeCast_1a_a_apply, inv30]
  rw [Ideal.ofBits_def, Ideal.ofBits_zero_f32]
  rfl

/-! ## Mean, variance and the centred row -/

/-- The row mean, kept by the kernel as a [2048, 1] column: the lane sum over 128. -/
theorem mean_apply (v116 : Vec Ideal S2048x128 .f32) (v117 : Vec Ideal S2048x2048 .bf16) (v123 : Vec Ideal S1x128x128 .f32)
    (v125 : Vec Ideal S1x128 .f32) (l : Fin 2048) :
    k0_pay44 (F := Ideal) v116 v117 v123 v125 (ix2 l (0 : Fin 1))
      = mean (aggCount (cnt v117) ((1 / 30 : ℝ) : EReal) (tab v116)) (tab v116) (wts v123) (row v125) l := by
  unfold k0_pay44 mean
  simp only [divf_apply, broadcast_apply, castCol_apply]
  exact congrArg (fun x => Ideal.div x _)
    ((laneSum_apply _ _ _ _ l).trans (Finset.sum_congr rfl fun e _ => act_apply v116 v117 v123 v125 l e))

/-- The centred row: the activation minus its row's mean. -/
theorem dev_apply (v116 : Vec Ideal S2048x128 .f32) (v117 : Vec Ideal S2048x2048 .bf16) (v123 : Vec Ideal S1x128x128 .f32)
    (v125 : Vec Ideal S1x128 .f32) (l : Fin 2048) (e : Fin 128) :
    k0_pay46 (F := Ideal) v116 v117 v123 v125 (ix2 l e)
      = act (aggCount (cnt v117) ((1 / 30 : ℝ) : EReal) (tab v116)) (tab v116) (wts v123) (row v125) l e
        - mean (aggCount (cnt v117) ((1 / 30 : ℝ) : EReal) (tab v116)) (tab v116) (wts v123) (row v125) l := by
  unfold k0_pay46
  simp only [subf_apply, bcastCol_apply, act_apply, mean_apply]

/-- The row variance about the mean, as a [2048, 1] column: the lane sum of the squared centred row over 128. -/
theorem var_apply (v116 : Vec Ideal S2048x128 .f32) (v117 : Vec Ideal S2048x2048 .bf16) (v123 : Vec Ideal S1x128x128 .f32)
    (v125 : Vec Ideal S1x128 .f32) (l : Fin 2048) :
    k0_pay45 (F := Ideal) v116 v117 v123 v125 (ix2 l (0 : Fin 1))
      = var (aggCount (cnt v117) ((1 / 30 : ℝ) : EReal) (tab v116)) (tab v116) (wts v123) (row v125) l := by
  unfold k0_pay45 var
  simp only [divf_apply, broadcast_apply, castCol_apply]
  refine congrArg (fun x => Ideal.div x _) ((laneSum_apply _ _ _ _ l).trans (Finset.sum_congr rfl fun e _ => ?_))
  simp only [mulf_apply, subf_apply, bcastCol_apply, act_apply, mean_apply]

/-! ## The layer at an entry -/

/-- A reciprocal square root at an entry is that of the entry. -/
theorem rsqrt_apply {s : Shape} {φ : FTy} (a : FVec Ideal s φ) (i : s.Idx) : rsqrt a i = Ideal.rsqrt (a i) := rfl

theorem layer1 (v1 : Vec Ideal S2048x1 .f32) (v116 : Vec Ideal S2048x128 .f32) (v117 : Vec Ideal S2048x2048 .bf16) (v123 : Vec Ideal S1x128x128 .f32) (v125 v127 v129 : Vec Ideal S1x128 .f32) (l : Fin 2048) (e : Fin 128) :
    k0_pay48 (F := Ideal) v1 (k0_pay41 v127) (k0_pay42 v129) (k0_pay45 v116 v117 v123 v125) (k0_pay46 v116 v117 v123 v125) k0_pay47 (ix2 l e)
      = layerWith (aggCount (cnt v117) ((1 / 30 : ℝ) : EReal) (tab v116)) (tab v116) (wts v123) (row v125) (row v127) (row v129) (col v1) l e := by
  unfold k0_pay48 k0_pay47 k0_pay41 k0_pay42
  simp only [shapeCast_self, mulf_apply, addf_apply, rsqrt_apply, broadcast_apply, bcastCol_apply, broadcastTo_1b_ab_apply,
    shapeCast_a_1a_apply, shapeCast_1a_a_apply, var_apply, dev_apply]
  rfl

end Cert.KernelIdeal.KLayer1

end
-- ==== Proof.KLayer2.lean ====
/-
  The kernel's third layer, read at one entry of the stored block.
-/
import proofs.«400262_j80745385165161_3_alg».proof.Proof.Rd
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KLayer2

open Idealize.ShloMosaic Idealize.ShloMosaic.ValueIdx Cert.KernelIdeal Cert.KernelIdeal.Gen Cert.KernelIdeal.Rd Cert.Gcn

/-! ## The count matrix times the table: [2048, 2048] × [2048, 128] -/

/-- The left operand's row coordinate is the output's row. -/
theorem lhsA_0 (i : S2048x128.Idx) (q : dot_S2048x2048_S2048x128_S2048x128_1_0_0_1_n_n.contr.Idx) :
    (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
/-- The left operand's column coordinate is the contracted index. -/
theorem lhsA_1 (i : S2048x128.Idx) (q : dot_S2048x2048_S2048x128_S2048x128_1_0_0_1_n_n.contr.Idx) :
    (dot_S2048x2048_S2048x128_S2048x128_1_0_0_1_n_n.lhsIdx i q 1).val = (q ⟨0, by decide⟩).val :=
  dot_S2048x2048_S2048x128_S2048x128_1_0_0_1_n_n.lhsIdx_val_of_single rfl i q
/-- The right operand's row coordinate is the contracted index. -/
theorem rhsA_0 (i : S2048x128.Idx) (q : dot_S2048x2048_S2048x128_S2048x128_1_0_0_1_n_n.contr.Idx) :
    (dot_S2048x2048_S2048x128_S2048x128_1_0_0_1_n_n.rhsIdx i q 0).val = (q ⟨0, by decide⟩).val :=
  dot_S2048x2048_S2048x128_S2048x128_1_0_0_1_n_n.rhsIdx_val_of_single rfl i q
/-- The right operand's column coordinate is the output's column. -/
theorem rhsA_1 (i : S2048x128.Idx) (q : dot_S2048x2048_S2048x128_S2048x128_1_0_0_1_n_n.contr.Idx) :
    (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- The product into a zero accumulator, read at one entry: the plain sum over the contracted index. -/
theorem mmA_apply (x : FVec Ideal S2048x2048 .bf16) (y : FVec Ideal S2048x128 .bf16) (l : Fin 2048) (e : Fin 128) :
    matmul dot_S2048x2048_S2048x128_S2048x128_1_0_0_1_n_n none x y (constant (F := Ideal) S2048x128 .f32 0x00000000#32) (ix2 l e)
      = ∑ k : Fin 2048, x (ix2 l k) * y (ix2 k e) := by
  simp only [matmul]
  rw [Ideal.matmul_constant_zero_apply, ← Equiv.sum_comp (ValueIdx.contrEquiv1 dot_S2048x2048_S2048x128_S2048x128_1_0_0_1_n_n 2048 rfl rfl).symm]
  refine Finset.sum_congr rfl fun k _ => ?_
  have hk := ValueIdx.contrEquiv1_symm_val dot_S2048x2048_S2048x128_S2048x128_1_0_0_1_n_n 2048 rfl rfl k
  have el : dot_S2048x2048_S2048x128_S2048x128_1_0_0_1_n_n.lhsIdx (ix2 l e) ((ValueIdx.contrEquiv1 dot_S2048x2048_S2048x128_S2048x128_1_0_0_1_n_n 2048 rfl rfl).symm k) = ix2 l k := funext fun a => Fin.ext (by
    match a with
    | ⟨0, _⟩ => exact lhsA_0 _ _
    | ⟨1, _⟩ => exact (lhsA_1 _ _).trans hk)
  have er : dot_S2048x2048_S2048x128_S2048x128_1_0_0_1_n_n.rhsIdx (ix2 l e) ((ValueIdx.contrEquiv1 dot_S2048x2048_S2048x128_S2048x128_1_0_0_1_n_n 2048 rfl rfl).symm k) = ix2 k e := funext fun a => Fin.ext (by
    match a with
    | ⟨0, _⟩ => exact (rhsA_0 _ _).trans hk
    | ⟨1, _⟩ => exact rhsA_1 _ _)
  rw [el, er]

/-! ## The table times the weights: [2048, 128] × [128, 128] -/

/-- The left operand's row coordinate is the output's row. -/
theorem lhsW_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
/-- The left operand's column coordinate is the contracted index. -/
theorem lhsW_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
/-- The right operand's row coordinate is the contracted index. -/
theorem rhsW_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
/-- The right operand's column coordinate is the output's column. -/
theorem rhsW_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The product into a zero accumulator, read at one entry: the plain sum over the contracted index. -/
theorem mmW_apply (x : FVec Ideal S2048x128 .bf16) (y : FVec Ideal S128x128 .bf16) (l : Fin 2048) (e : Fin 128) :
    matmul dot_S2048x128_S128x128_S2048x128_1_0_0_1_n_n none x y (constant (F := Ideal) S2048x128 .f32 0x00000000#32) (ix2 l e)
      = ∑ k : Fin 128, x (ix2 l k) * y (ix2 k e) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 l e) ((ValueIdx.contrEquiv1 dot_S2048x128_S128x128_S2048x128_1_0_0_1_n_n 128 rfl rfl).symm k) = ix2 l k := funext fun a => Fin.ext (by
    match a with
    | ⟨0, _⟩ => exact lhsW_0 _ _
    | ⟨1, _⟩ => exact (lhsW_1 _ _).trans hk)
  have er : dot_S2048x128_S128x128_S2048x128_1_0_0_1_n_n.rhsIdx (ix2 l e) ((ValueIdx.contrEquiv1 dot_S2048x128_S128x128_S2048x128_1_0_0_1_n_n 128 rfl rfl).symm k) = ix2 k e := funext fun a => Fin.ext (by
    match a with
    | ⟨0, _⟩ => exact (rhsW_0 _ _).trans hk
    | ⟨1, _⟩ => exact rhsW_1 _ _)
  rw [el, er]

/-! ## Casts, broadcasts and the lane sum at an entry -/

/-- A [2048] vector cast to a [2048, 1] column reads, at (l, u), the vector at l. -/
theorem cast_col (x : FVec Ideal S2048 .f32) (h : S2048.ShapeCasts S2048x1) (l : Fin 2048) (u : Fin 1) :
    shapeCast S2048x1 x h (ix2 l u) = x (ix1 l) :=
  shapeCast_apply x h _ _ (by
    have hu : u.val = 0 := by omega
    rw [Shape.rowMajor_val_one, Shape.rowMajor_val_two]
    show l.val = l.val * 1 + u.val
    rw [hu, Nat.mul_one, Nat.add_zero])

/-- A [2048, 1] column broadcast along the rows reads, at (l, e), the column at l. -/
theorem bcast_col (x : FVec Ideal S2048x1 .f32) (h : S2048x1.Broadcasts S2048x128) (l : Fin 2048) (e : Fin 128) :
    broadcastTo S2048x128 x h (ix2 l e) = x (ix2 l (0 : Fin 1)) := by
  refine broadcastTo_apply x h (ix2 l e) (ix2 l (0 : Fin 1)) fun ax => ?_
  match ax with
  | ⟨0, _⟩ => rfl
  | ⟨1, _⟩ => rfl

/-- A [1, 128] row broadcast down the rows reads, at (l, e), the row at e. -/
theorem bcast_row (x : FVec Ideal S1x128 .f32) (h : S1x128.Broadcasts S2048x128) (l : Fin 2048) (e : Fin 128) :
    broadcastTo S2048x128 x h (ix2 l e) = x (ix2 (0 : Fin 1) e) :=
  broadcastTo_1b_ab_apply x h l e

/-- A [128] vector cast to a [1, 128] row. -/
theorem cast_row (x : FVec Ideal S128 .f32) (h : S128.ShapeCasts S1x128) (u : Fin 1) (e : Fin 128) :
    shapeCast S1x128 x h (ix2 u e) = x (ix1 e) :=
  shapeCast_a_1a_apply x h u e

/-- A [1, 128] row cast to a [128] vector. -/
theorem cast_vec (x : FVec Ideal S1x128 .f32) (h : S1x128.ShapeCasts S128) (e : Fin 128) :
    shapeCast S128 x h (ix1 e) = x (ix2 (0 : Fin 1) e) :=
  shapeCast_1a_a_apply x h e

/-- A [1, 128, 128] slice cast to a [128, 128] matrix. -/
theorem cast_mat (x : FVec Ideal S1x128x128 .f32) (h : S1x128x128.ShapeCasts S128x128) (d e : Fin 128) :
    shapeCast S128x128 x h (ix2 d e) = x (ix3 (0 : Fin 1) d e) :=
  shapeCast_1ab_ab_apply x h d e

/-- A [2048, 128] table cast to the stored [1, 2048, 128] block. -/
theorem cast_blk (x : FVec Ideal S2048x128 .f32) (h : S2048x128.ShapeCasts S1x2048x128) (u : Fin 1) (l : Fin 2048) (e : Fin 128) :
    shapeCast S1x2048x128 x h (ix3 u l e) = x (ix2 l e) :=
  shapeCast_ab_1ab_apply x h u l e

/-- A sum along the lanes, read at row l, is the sum of the row's entries. -/
theorem lane_sum (x : FVec Ideal S2048x128 .f32) (h : S2048x128.Reduces [1] S2048) (hφ : FKind.Formats FTy.f32)
    (hacc : (0x00000000#32 : BitVec 32) = 0x00000000#32) (l : Fin 2048) :
    multiReduction (F := Ideal) .add [1] S2048 x 0x00000000#32 h hφ hacc (ix1 l) = ∑ e : Fin 128, x (ix2 l e) := by
  refine (Ideal.multiReduction_add_single x _ h hφ hacc (ix1 l)).trans ?_
  refine Finset.sum_congr rfl fun e _ => congrArg x (funext fun a => Fin.ext ?_)
  match a with
  | ⟨0, _⟩ => rfl
  | ⟨1, _⟩ => rfl

/-! ## The activation, its row sums and the parameter rows -/

/-- The activation at one entry: the rectified affine image of the table plus its scaled neighbour sum. -/
theorem act_apply (v168 : Vec Ideal S2048x128 .f32) (v169 : Vec Ideal S2048x2048 .bf16) (v175 : Vec Ideal S1x128x128 .f32)
    (v177 : Vec Ideal S1x128 .f32) (l : Fin 2048) (e : Fin 128) :
    k0_pay51 (F := Ideal) v168 v169 v175 v177 (ix2 l e)
      = act (aggCount (cnt v169) ((1 / 30 : ℝ) : EReal) (tab v168)) (tab v168) (wts v175) (row v177) l e := by
  unfold k0_pay51
  show max (matmul dot_S2048x128_S128x128_S2048x128_1_0_0_1_n_n none _ _ _ (ix2 l e) + broadcastTo S2048x128 _ _ (ix2 l e)) (Ideal.ofBits .f32 0x00000000#32) = _
  rw [mmW_apply, bcast_row, cast_row, cast_vec, Ideal.ofBits_zero_f32]
  unfold act
  refine congrArg (fun s => max (s + v177 (ix2 (0 : Fin 1) e)) 0) (Finset.sum_congr rfl fun d _ => ?_)
  show (v168 (ix2 l d) + matmul (F := Ideal) dot_S2048x2048_S2048x128_S2048x128_1_0_0_1_n_n none v169 _ _ (ix2 l d)
      * Named.named (F := Ideal) κ "inv_30" (φ := .f32) 0x3D088889#32) * shapeCast S128x128 v175 _ (ix2 d e) = _
  rw [mmA_apply, cast_mat, inv30]
  rfl

/-- The kernel's row sums of the activation. -/
theorem rowsum_apply (v168 : Vec Ideal S2048x128 .f32) (v169 : Vec Ideal S2048x2048 .bf16) (v175 : Vec Ideal S1x128x128 .f32)
    (v177 : Vec Ideal S1x128 .f32) (l : Fin 2048) :
    k0_pay52 (F := Ideal) v168 v169 v175 v177 (ix1 l)
      = ∑ e : Fin 128, k0_pay51 (F := Ideal) v168 v169 v175 v177 (ix2 l e) := by
  unfold k0_pay52
  exact lane_sum _ _ _ _ l

/-- The [1, 128] parameter rows as [128] vectors. -/
theorem gamma_apply (v179 : Vec Ideal S1x128 .f32) (e : Fin 128) : k0_pay49 (F := Ideal) v179 (ix1 e) = row v179 e := by
  unfold k0_pay49
  exact cast_vec _ _ e
theorem beta_apply (v181 : Vec Ideal S1x128 .f32) (e : Fin 128) : k0_pay50 (F := Ideal) v181 (ix1 e) = row v181 e := by
  unfold k0_pay50
  exact cast_vec _ _ e

/-! ## Mean, variance and the final formula -/

/-- A reciprocal square root at an index is that of the entry. -/
theorem rsqrt_apply {s : Shape} (x : FVec Ideal s .f32) (i : s.Idx) : rsqrt x i = Ideal.rsqrt (x i) := rfl

/-- The normalisation at one entry, from the activation `a` and its row sums `s`: centre by the row mean, scale by the
    reciprocal root of the guarded variance, apply the affine parameters and the row's mask. -/
theorem norm_apply (v1 : FVec Ideal S2048x1 .f32) (g bt : FVec Ideal S128 .f32) (a : FVec Ideal S2048x128 .f32)
    (s : FVec Ideal S2048 .f32) (l : Fin 2048) (e : Fin 128) :
    k0_pay1 (F := Ideal) v1 g bt a s (ix3 (0 : Fin 1) l e)
      = ((a (ix2 l e) - Ideal.div (s (ix1 l)) c128)
          * Ideal.rsqrt (Ideal.div (∑ e' : Fin 128, (a (ix2 l e') - Ideal.div (s (ix1 l)) c128)
              * (a (ix2 l e') - Ideal.div (s (ix1 l)) c128)) c128 + cEps)
          * g (ix1 e) + bt (ix1 e)) * v1 (ix2 l (0 : Fin 1)) := by
  unfold k0_pay1
  rw [cast_blk]
  simp only [mulf_apply, addf_apply, subf_apply, divf_apply, rsqrt_apply, bcast_col, bcast_row, cast_row, cast_col,
    broadcast_apply]
  rw [lane_sum]
  simp only [mulf_apply, subf_apply, divf_apply, bcast_col, cast_col, broadcast_apply]
  rfl

/-- The layer's body at one entry of the stored block is the specification's layer over the count average. -/
theorem layer2 (v1 : Vec Ideal S2048x1 .f32) (v168 : Vec Ideal S2048x128 .f32) (v169 : Vec Ideal S2048x2048 .bf16) (v175 : Vec Ideal S1x128x128 .f32) (v177 v179 v181 : Vec Ideal S1x128 .f32) (l : Fin 2048) (e : Fin 128) :
    k0_pay1 (F := Ideal) v1 (k0_pay49 v179) (k0_pay50 v181) (k0_pay51 v168 v169 v175 v177) (k0_pay52 v168 v169 v175 v177) (ix3 (0 : Fin 1) l e)
      = layerWith (aggCount (cnt v169) ((1 / 30 : ℝ) : EReal) (tab v168)) (tab v168) (wts v175) (row v177) (row v179) (row v181) (col v1) l e := by
  refine (norm_apply _ _ _ _ _ l e).trans ?_
  rw [rowsum_apply, gamma_apply, beta_apply]
  simp only [act_apply]
  rfl

end Cert.KernelIdeal.KLayer2

end
-- ==== Proof.KNet.lean ====
/-
  The three layers of the kernel's body in a row: the stored block, at one entry, is the network of Spec.lean over the
  count average — layer after layer, each layer's output table feeding the next through the same count matrix.
-/
import proofs.«400262_j80745385165161_3_alg».proof.Proof.KLayer0
import proofs.«400262_j80745385165161_3_alg».proof.Proof.KLayer1
import proofs.«400262_j80745385165161_3_alg».proof.Proof.KLayer2

noncomputable section

namespace Cert.KernelIdeal.KNet

open Idealize.ShloMosaic Idealize.ShloMosaic.ValueIdx Cert.KernelIdeal Cert.KernelIdeal.Gen Cert.KernelIdeal.Rd Cert.Gcn

/-- The table the first layer leaves. -/
def out0 (v1 : Vec Ideal S2048x1 .f32) (v63 : Vec Ideal S1x2048x128 .f32) (A : Vec Ideal S2048x2048 .bf16)
    (v71 : Vec Ideal S1x128x128 .f32) (v73 v75 v77 : Vec Ideal S1x128 .f32) : Vec Ideal S2048x128 .f32 :=
  k0_pay40 (F := Ideal) v1 (k0_pay39 v63 A) v71 v73 v75 v77

/-- The table the second layer leaves, from the table it is given. -/
def out1 (v1 : Vec Ideal S2048x1 .f32) (h : Vec Ideal S2048x128 .f32) (A : Vec Ideal S2048x2048 .bf16)
    (v123 : Vec Ideal S1x128x128 .f32) (v125 v127 v129 : Vec Ideal S1x128 .f32) : Vec Ideal S2048x128 .f32 :=
  k0_pay48 (F := Ideal) v1 (k0_pay41 v127) (k0_pay42 v129) (k0_pay45 h A v123 v125) (k0_pay46 h A v123 v125) k0_pay47

/-- The block the third layer stores, from the table it is given. -/
def out2 (v1 : Vec Ideal S2048x1 .f32) (h : Vec Ideal S2048x128 .f32) (A : Vec Ideal S2048x2048 .bf16)
    (v175 : Vec Ideal S1x128x128 .f32) (v177 v179 v181 : Vec Ideal S1x128 .f32) : Vec Ideal S1x2048x128 .f32 :=
  k0_pay1 (F := Ideal) v1 (k0_pay49 v179) (k0_pay50 v181) (k0_pay51 h A v175 v177) (k0_pay52 h A v175 v177)

/-- The per-layer weights, biases, scales and shifts as the three loaded slices give them. -/
def pick {α : Type} (a b c : α) : Fin 3 → α := fun | 0 => a | 1 => b | 2 => c

theorem tab_out0 (v1 : Vec Ideal S2048x1 .f32) (v63 : Vec Ideal S1x2048x128 .f32) (A : Vec Ideal S2048x2048 .bf16)
    (v71 : Vec Ideal S1x128x128 .f32) (v73 v75 v77 : Vec Ideal S1x128 .f32) :
    tab (out0 v1 v63 A v71 v73 v75 v77)
      = layer (aggCount (cnt A) ((1 / 30 : ℝ) : EReal)) (tab3 v63) (wts v71) (row v73) (row v75) (row v77) (col v1) := by
  funext l e
  exact KLayer0.layer0 v1 v63 A v71 v73 v75 v77 l e

theorem tab_out1 (v1 : Vec Ideal S2048x1 .f32) (h : Vec Ideal S2048x128 .f32) (A : Vec Ideal S2048x2048 .bf16)
    (v123 : Vec Ideal S1x128x128 .f32) (v125 v127 v129 : Vec Ideal S1x128 .f32) :
    tab (out1 v1 h A v123 v125 v127 v129)
      = layer (aggCount (cnt A) ((1 / 30 : ℝ) : EReal)) (tab h) (wts v123) (row v125) (row v127) (row v129) (col v1) := by
  funext l e
  exact KLayer1.layer1 v1 h A v123 v125 v127 v129 l e

/-- The stored block at (0, l, e) is the three-layer network at (l, e). -/
theorem block_net (v1 : Vec Ideal S2048x1 .f32) (v63 : Vec Ideal S1x2048x128 .f32) (A : Vec Ideal S2048x2048 .bf16)
    (v71 v123 v175 : Vec Ideal S1x128x128 .f32) (v73 v75 v77 v125 v127 v129 v177 v179 v181 : Vec Ideal S1x128 .f32)
    (l : Fin 2048) (e : Fin 128) :
    out2 v1 (out1 v1 (out0 v1 v63 A v71 v73 v75 v77) A v123 v125 v127 v129) A v175 v177 v179 v181 (ix3 (0 : Fin 1) l e)
      = net (aggCount (cnt A) ((1 / 30 : ℝ) : EReal)) (tab3 v63) (pick (wts v71) (wts v123) (wts v175))
          (pick (row v73) (row v125) (row v177)) (pick (row v75) (row v127) (row v179)) (pick (row v77) (row v129) (row v181))
          (col v1) l e := by
  unfold out2
  rw [KLayer2.layer2, tab_out1, tab_out0]
  rfl

end Cert.KernelIdeal.KNet

end
-- ==== Proof.KHost.lean ====
/-
  What the region finds in the two arrays the host writes before it: the neighbour indices clipped to [0, 2047]
  (`min 2047 (max 0 ·)`, word by word) and the mask with a unit axis added.
-/
import proofs.«400262_j80745385165161_3_alg».proof.Proof.Gen.KernelIdeal.Frame.Runs
import Idealize.ShloMosaic.Lib.StableHlo.Run
import Idealize.ShloMosaic.Lib.ValueIdx
import Idealize.ShloMosaic.Lib.Pipeline.Value
import Idealize.ShloMosaic.Lib.StableHlo.Predicate

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F] [Named F]
variable (m : (ℓ : Loc nD τ sig) → Buf (Elt F) ℓ)

/-- The mask array as the region finds it: the launch mask with a trailing unit axis. -/
theorem V_mask (c : Dev nD) :
    (V m c main_v1 : S8x2048x1.Idx → F .f32)
      = broadcastInDim S8x2048x1 ![0, 1] bcast_S8x2048_S8x2048x1_0_1 (m ((c : Thread nD τ).loc main_arg3)) := by
  dsimp only [V]
  simp only [hostOps0, hostOps0_1, hostOps0_2, List.flatten_cons, List.flatten_nil, List.append_nil, List.cons_append,
    List.nil_append]
  after_results

/-- The index array as the region finds it: the launch indices clipped to [0, 2047]. -/
theorem V_idx (c : Dev nD) :
    (V m c main_v0 : S8x2048x30.Idx → BitVec 32)
      = minsi (broadcastInDim S8x2048x30 ![] bcast_S_S8x2048x30 (constantI S_ 32 2047#32))
          (maxsi (broadcastInDim S8x2048x30 ![] bcast_S_S8x2048x30 (constantI S_ 32 0#32)) (m ((c : Thread nD τ).loc main_arg2))) := by
  dsimp only [V]
  simp only [hostOps0, hostOps0_1, hostOps0_2, List.flatten_cons, List.flatten_nil, List.append_nil, List.cons_append,
    List.nil_append]
  after_results
  rfl

open Idealize.ShloMosaic.ValueIdx

/-- The mask array at (b, l, 0) is the launch mask at (b, l). -/
theorem V_mask_apply (c : Dev nD) (b : Fin 8) (l : Fin 2048) :
    V m c main_v1 (ix3 b l (0 : Fin 1)) = m ((c : Thread nD τ).loc main_arg3) (ix2 b l) := by
  rw [V_mask]
  exact broadcastInDim_apply _ bcast_S8x2048_S8x2048x1_0_1 _ _ (ix2 b l) (fun a => match a with
    | ⟨0, _⟩ => by show b.val = if (8 : Nat) = 1 then 0 else b.val; rw [if_neg (by decide)]
    | ⟨1, _⟩ => by show l.val = if (2048 : Nat) = 1 then 0 else l.val; rw [if_neg (by decide)])

/-- Clipping to [0, 2047] leaves a word below 2048 as it is. -/
theorem clip_id (w : BitVec 32) (h : w.toNat < 2048) : IntOp.minsi 2047#32 (IntOp.maxsi 0#32 w) = w := by
  have hti : w.toInt = w.toNat := StableHlo.Predicate.toInt_eq_toNat_of_lt (by omega)
  have h0 : (0#32 : BitVec 32).toInt = 0 := by decide
  have h2 : (2047#32 : BitVec 32).toInt = 2047 := by decide
  have hmax : IntOp.maxsi 0#32 w = w := by
    unfold IntOp.maxsi
    split <;> rename_i hc <;> simp only [BitVec.slt, hti, h0, decide_eq_true_eq] at hc
    · omega
    · rfl
  rw [hmax]
  unfold IntOp.minsi
  split <;> rename_i hc <;> simp only [BitVec.slt, hti, h2, decide_eq_true_eq] at hc
  · omega
  · rfl

/-- Where the launch index is below 2048, the index array holds it unchanged. -/
theorem V_idx_apply (c : Dev nD) (i : S8x2048x30.Idx) (h : (m ((c : Thread nD τ).loc main_arg2) i).toNat < 2048) :
    V m c main_v0 i = m ((c : Thread nD τ).loc main_arg2) i := by
  rw [V_idx]
  exact clip_id _ h

end Cert.KernelIdeal.KHost

end
-- ==== Proof.KRun.lean ====
/-
  The kernel's run as one function of the argument arrays.

  At grid point t the body's block is batch t of the result: the three-layer network over the count average, on batch t of
  the node states, with the count matrix of batch t's (clipped) neighbour indices, the weights whole, and batch t of the mask.
  The eight blocks are the eight batches, so they tile the result array, which therefore ends as ONE function `G` of the
  arrays the region finds.
-/
import proofs.«400262_j80745385165161_3_alg».proof.Proof.KIValue
import proofs.«400262_j80745385165161_3_alg».proof.Proof.KNet
import proofs.«400262_j80745385165161_3_alg».proof.Proof.KHost

set_option maxRecDepth 16384

noncomputable section

namespace Cert.KernelIdeal.KRun

open Cert.KernelIdeal Cert.KernelIdeal.Gen Cert.KernelIdeal.KBody Cert.KernelIdeal.KTrip Cert.KernelIdeal.Rd
open Cert.KernelIdeal.KNet Cert.Gcn
open Idealize.ShloMosaic Idealize.ShloMosaic.TcCoe Idealize.ShloMosaic.ValueIdx Idealize.SL.Sem
open Idealize.ShloMosaic.Pipeline (Dat)

/-! ## What the body's loads read -/

theorem hz3 : (![0, 0, 0] : Fin 3 → Nat) = fun _ => 0 := funext fun a => by fin_cases a <;> rfl

/-- A load from a whole buffer holding `x` reads `x` through the load's rectangle. -/
theorem ld_at {S : Shape} {e : EltTy} (arg : Memref sig .tc .vmem S e) (harg : arg.IsWhole) (x : Vec Ideal S e)
    (off size : Fin S.rank → Nat) (inb : ∀ a, off a + size a ≤ S.size a) (y : (Rect.unit (s := S) off size inb).shape.Idx) :
    View.readAt (Elt Ideal) arg.view (Rect.unit (s := S) off size inb).toLoadRect (harg.unread x) y
      = x ((Rect.unit (s := S) off size inb).emb y) := by
  rw [View.readAt_eq_ld, harg.read_unread]
  rfl

/-- Neighbour slot k of the index block, as a column over the rows. -/
def nbCol (x1 : Vec Ideal S1x2048x30 .i32) (k : Fin 30) : Fin 2048 → BitVec 32 := fun l => x1 (ix3 (0 : Fin 1) l k)

/-- The load of column k of the index block reads, at row l, neighbour slot k of row l. -/
theorem ld_col (arg2 : Memref sig .tc .vmem S1x2048x30 .i32) (harg2 : arg2.IsWhole) (x1 : Vec Ideal S1x2048x30 .i32) (k : Fin 30)
    (inb : ∀ a, (![0, 0, k.val] : Fin 3 → Nat) a + S1x2048x1.size a ≤ S1x2048x30.size a) (l : Fin 2048) :
    colV (View.readAt (Elt Ideal) arg2.view (Rect.unit (s := S1x2048x30) ![0, 0, k.val] S1x2048x1.size inb).toLoadRect (harg2.unread x1)) l
      = nbCol x1 k l := by
  unfold colV nbCol
  rw [ld_at]
  refine congrArg x1 (funext fun a => Fin.ext ?_)
  match a with
  | ⟨0, _⟩ => rfl
  | ⟨1, _⟩ => show 0 + 1 * l.val = l.val; omega
  | ⟨2, _⟩ => show k.val + 1 * 0 = k.val; omega

/-- The 30 columns the count is taken over are the 30 neighbour slots of the loaded index block. -/
theorem cols_eq (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole)
    (x0 : Vec Ideal S1x2048x128 .f32) (x1 : Vec Ideal S1x2048x30 .i32) (x2 : Vec Ideal S1x2048x1 .f32) (x3 : Vec Ideal S3x128x128 .f32) (x4 : Vec Ideal S3x128 .f32) (x5 : Vec Ideal S3x128 .f32) (x6 : Vec Ideal S3x128 .f32) :
    cols (k0_pay10 (View.readAt (Elt Ideal) arg2.view (Rect.unit (s := S1x2048x30) ![0, 0, 0] S1x2048x1.size inb_S1x2048x30_S1x2048x1_0_0_0).toLoadRect (harg2.unread x1)))
      (k0_pay11 (View.readAt (Elt Ideal) arg2.view (Rect.unit (s := S1x2048x30) ![0, 0, 1] S1x2048x1.size inb_S1x2048x30_S1x2048x1_0_0_1).toLoadRect (harg2.unread x1)))
      (k0_pay12 (View.readAt (Elt Ideal) arg2.view (Rect.unit (s := S1x2048x30) ![0, 0, 2] S1x2048x1.size inb_S1x2048x30_S1x2048x1_0_0_2).toLoadRect (harg2.unread x1)))
      (k0_pay13 (View.readAt (Elt Ideal) arg2.view (Rect.unit (s := S1x2048x30) ![0, 0, 3] S1x2048x1.size inb_S1x2048x30_S1x2048x1_0_0_3).toLoadRect (harg2.unread x1)))
      (k0_pay14 (View.readAt (Elt Ideal) arg2.view (Rect.unit (s := S1x2048x30) ![0, 0, 4] S1x2048x1.size inb_S1x2048x30_S1x2048x1_0_0_4).toLoadRect (harg2.unread x1)))
      (k0_pay15 (View.readAt (Elt Ideal) arg2.view (Rect.unit (s := S1x2048x30) ![0, 0, 5] S1x2048x1.size inb_S1x2048x30_S1x2048x1_0_0_5).toLoadRect (harg2.unread x1)))
      (k0_pay16 (View.readAt (Elt Ideal) arg2.view (Rect.unit (s := S1x2048x30) ![0, 0, 6] S1x2048x1.size inb_S1x2048x30_S1x2048x1_0_0_6).toLoadRect (harg2.unread x1)))
      (k0_pay17 (View.readAt (Elt Ideal) arg2.view (Rect.unit (s := S1x2048x30) ![0, 0, 7] S1x2048x1.size inb_S1x2048x30_S1x2048x1_0_0_7).toLoadRect (harg2.unread x1)))
      (k0_pay18 (View.readAt (Elt Ideal) arg2.view (Rect.unit (s := S1x2048x30) ![0, 0, 8] S1x2048x1.size inb_S1x2048x30_S1x2048x1_0_0_8).toLoadRect (harg2.unread x1)))
      (k0_pay19 (View.readAt (Elt Ideal) arg2.view (Rect.unit (s := S1x2048x30) ![0, 0, 9] S1x2048x1.size inb_S1x2048x30_S1x2048x1_0_0_9).toLoadRect (harg2.unread x1)))
      (k0_pay20 (View.readAt (Elt Ideal) arg2.view (Rect.unit (s := S1x2048x30) ![0, 0, 10] S1x2048x1.size inb_S1x2048x30_S1x2048x1_0_0_10).toLoadRect (harg2.unread x1)))
      (k0_pay21 (View.readAt (Elt Ideal) arg2.view (Rect.unit (s := S1x2048x30) ![0, 0, 11] S1x2048x1.size inb_S1x2048x30_S1x2048x1_0_0_11).toLoadRect (harg2.unread x1)))
      (k0_pay22 (View.readAt (Elt Ideal) arg2.view (Rect.unit (s := S1x2048x30) ![0, 0, 12] S1x2048x1.size inb_S1x2048x30_S1x2048x1_0_0_12).toLoadRect (harg2.unread x1)))
      (k0_pay23 (View.readAt (Elt Ideal) arg2.view (Rect.unit (s := S1x2048x30) ![0, 0, 13] S1x2048x1.size inb_S1x2048x30_S1x2048x1_0_0_13).toLoadRect (harg2.unread x1)))
      (k0_pay24 (View.readAt (Elt Ideal) arg2.view (Rect.unit (s := S1x2048x30) ![0, 0, 14] S1x2048x1.size inb_S1x2048x30_S1x2048x1_0_0_14).toLoadRect (harg2.unread x1)))
      (k0_pay25 (View.readAt (Elt Ideal) arg2.view (Rect.unit (s := S1x2048x30) ![0, 0, 15] S1x2048x1.size inb_S1x2048x30_S1x2048x1_0_0_15).toLoadRect (harg2.unread x1)))
      (k0_pay26 (View.readAt (Elt Ideal) arg2.view (Rect.unit (s := S1x2048x30) ![0, 0, 16] S1x2048x1.size inb_S1x2048x30_S1x2048x1_0_0_16).toLoadRect (harg2.unread x1)))
      (k0_pay27 (View.readAt (Elt Ideal) arg2.view (Rect.unit (s := S1x2048x30) ![0, 0, 17] S1x2048x1.size inb_S1x2048x30_S1x2048x1_0_0_17).toLoadRect (harg2.unread x1)))
      (k0_pay28 (View.readAt (Elt Ideal) arg2.view (Rect.unit (s := S1x2048x30) ![0, 0, 18] S1x2048x1.size inb_S1x2048x30_S1x2048x1_0_0_18).toLoadRect (harg2.unread x1)))
      (k0_pay29 (View.readAt (Elt Ideal) arg2.view (Rect.unit (s := S1x2048x30) ![0, 0, 19] S1x2048x1.size inb_S1x2048x30_S1x2048x1_0_0_19).toLoadRect (harg2.unread x1)))
      (k0_pay30 (View.readAt (Elt Ideal) arg2.view (Rect.unit (s := S1x2048x30) ![0, 0, 20] S1x2048x1.size inb_S1x2048x30_S1x2048x1_0_0_20).toLoadRect (harg2.unread x1)))
      (k0_pay31 (View.readAt (Elt Ideal) arg2.view (Rect.unit (s := S1x2048x30) ![0, 0, 21] S1x2048x1.size inb_S1x2048x30_S1x2048x1_0_0_21).toLoadRect (harg2.unread x1)))
      (View.readAt (Elt Ideal) arg2.view (Rect.unit (s := S1x2048x30) ![0, 0, 22] S1x2048x1.size inb_S1x2048x30_S1x2048x1_0_0_22).toLoadRect (harg2.unread x1))
      (View.readAt (Elt Ideal) arg2.view (Rect.unit (s := S1x2048x30) ![0, 0, 23] S1x2048x1.size inb_S1x2048x30_S1x2048x1_0_0_23).toLoadRect (harg2.unread x1))
      (View.readAt (Elt Ideal) arg2.view (Rect.unit (s := S1x2048x30) ![0, 0, 24] S1x2048x1.size inb_S1x2048x30_S1x2048x1_0_0_24).toLoadRect (harg2.unread x1))
      (View.readAt (Elt Ideal) arg2.view (Rect.unit (s := S1x2048x30) ![0, 0, 25] S1x2048x1.size inb_S1x2048x30_S1x2048x1_0_0_25).toLoadRect (harg2.unread x1))
      (View.readAt (Elt Ideal) arg2.view (Rect.unit (s := S1x2048x30) ![0, 0, 26] S1x2048x1.size inb_S1x2048x30_S1x2048x1_0_0_26).toLoadRect (harg2.unread x1))
      (View.readAt (Elt Ideal) arg2.view (Rect.unit (s := S1x2048x30) ![0, 0, 27] S1x2048x1.size inb_S1x2048x30_S1x2048x1_0_0_27).toLoadRect (harg2.unread x1))
      (View.readAt (Elt Ideal) arg2.view (Rect.unit (s := S1x2048x30) ![0, 0, 28] S1x2048x1.size inb_S1x2048x30_S1x2048x1_0_0_28).toLoadRect (harg2.unread x1))
      (View.readAt (Elt Ideal) arg2.view (Rect.unit (s := S1x2048x30) ![0, 0, 29] S1x2048x1.size inb_S1x2048x30_S1x2048x1_0_0_29).toLoadRect (harg2.unread x1))
      = List.ofFn (nbCol x1) := by
  have e : List.ofFn (nbCol x1) = [nbCol x1 ⟨0, by decide⟩, nbCol x1 ⟨1, by decide⟩, nbCol x1 ⟨2, by decide⟩, nbCol x1 ⟨3, by decide⟩, nbCol x1 ⟨4, by decide⟩, nbCol x1 ⟨5, by decide⟩, nbCol x1 ⟨6, by decide⟩, nbCol x1 ⟨7, by decide⟩, nbCol x1 ⟨8, by decide⟩, nbCol x1 ⟨9, by decide⟩, nbCol x1 ⟨10, by decide⟩, nbCol x1 ⟨11, by decide⟩, nbCol x1 ⟨12, by decide⟩, nbCol x1 ⟨13, by decide⟩, nbCol x1 ⟨14, by decide⟩, nbCol x1 ⟨15, by decide⟩, nbCol x1 ⟨16, by decide⟩, nbCol x1 ⟨17, by decide⟩, nbCol x1 ⟨18, by decide⟩, nbCol x1 ⟨19, by decide⟩, nbCol x1 ⟨20, by decide⟩, nbCol x1 ⟨21, by decide⟩, nbCol x1 ⟨22, by decide⟩, nbCol x1 ⟨23, by decide⟩, nbCol x1 ⟨24, by decide⟩, nbCol x1 ⟨25, by decide⟩, nbCol x1 ⟨26, by decide⟩, nbCol x1 ⟨27, by decide⟩, nbCol x1 ⟨28, by decide⟩, nbCol x1 ⟨29, by decide⟩] := by
    simp only [List.ofFn_succ, List.ofFn_zero]
    rfl
  rw [e]
  unfold cols
  have h0 : colI (k0_pay10 (F := Ideal) (View.readAt (Elt Ideal) arg2.view (Rect.unit (s := S1x2048x30) ![0, 0, 0] S1x2048x1.size inb_S1x2048x30_S1x2048x1_0_0_0).toLoadRect (harg2.unread x1))) = nbCol x1 ⟨0, by decide⟩ :=
    funext fun l => (colI_cast _ l).trans (ld_col arg2 harg2 x1 ⟨0, by decide⟩ _ l)
  have h1 : colI (k0_pay11 (F := Ideal) (View.readAt (Elt Ideal) arg2.view (Rect.unit (s := S1x2048x30) ![0, 0, 1] S1x2048x1.size inb_S1x2048x30_S1x2048x1_0_0_1).toLoadRect (harg2.unread x1))) = nbCol x1 ⟨1, by decide⟩ :=
    funext fun l => (colI_cast _ l).trans (ld_col arg2 harg2 x1 ⟨1, by decide⟩ _ l)
  have h2 : colI (k0_pay12 (F := Ideal) (View.readAt (Elt Ideal) arg2.view (Rect.unit (s := S1x2048x30) ![0, 0, 2] S1x2048x1.size inb_S1x2048x30_S1x2048x1_0_0_2).toLoadRect (harg2.unread x1))) = nbCol x1 ⟨2, by decide⟩ :=
    funext fun l => (colI_cast _ l).trans (ld_col arg2 harg2 x1 ⟨2, by decide⟩ _ l)
  have h3 : colI (k0_pay13 (F := Ideal) (View.readAt (Elt Ideal) arg2.view (Rect.unit (s := S1x2048x30) ![0, 0, 3] S1x2048x1.size inb_S1x2048x30_S1x2048x1_0_0_3).toLoadRect (harg2.unread x1))) = nbCol x1 ⟨3, by decide⟩ :=
    funext fun l => (colI_cast _ l).trans (ld_col arg2 harg2 x1 ⟨3, by decide⟩ _ l)
  have h4 : colI (k0_pay14 (F := Ideal) (View.readAt (Elt Ideal) arg2.view (Rect.unit (s := S1x2048x30) ![0, 0, 4] S1x2048x1.size inb_S1x2048x30_S1x2048x1_0_0_4).toLoadRect (harg2.unread x1))) = nbCol x1 ⟨4, by decide⟩ :=
    funext fun l => (colI_cast _ l).trans (ld_col arg2 harg2 x1 ⟨4, by decide⟩ _ l)
  have h5 : colI (k0_pay15 (F := Ideal) (View.readAt (Elt Ideal) arg2.view (Rect.unit (s := S1x2048x30) ![0, 0, 5] S1x2048x1.size inb_S1x2048x30_S1x2048x1_0_0_5).toLoadRect (harg2.unread x1))) = nbCol x1 ⟨5, by decide⟩ :=
    funext fun l => (colI_cast _ l).trans (ld_col arg2 harg2 x1 ⟨5, by decide⟩ _ l)
  have h6 : colI (k0_pay16 (F := Ideal) (View.readAt (Elt Ideal) arg2.view (Rect.unit (s := S1x2048x30) ![0, 0, 6] S1x2048x1.size inb_S1x2048x30_S1x2048x1_0_0_6).toLoadRect (harg2.unread x1))) = nbCol x1 ⟨6, by decide⟩ :=
    funext fun l => (colI_cast _ l).trans (ld_col arg2 harg2 x1 ⟨6, by decide⟩ _ l)
  have h7 : colI (k0_pay17 (F := Ideal) (View.readAt (Elt Ideal) arg2.view (Rect.unit (s := S1x2048x30) ![0, 0, 7] S1x2048x1.size inb_S1x2048x30_S1x2048x1_0_0_7).toLoadRect (harg2.unread x1))) = nbCol x1 ⟨7, by decide⟩ :=
    funext fun l => (colI_cast _ l).trans (ld_col arg2 harg2 x1 ⟨7, by decide⟩ _ l)
  have h8 : colI (k0_pay18 (F := Ideal) (View.readAt (Elt Ideal) arg2.view (Rect.unit (s := S1x2048x30) ![0, 0, 8] S1x2048x1.size inb_S1x2048x30_S1x2048x1_0_0_8).toLoadRect (harg2.unread x1))) = nbCol x1 ⟨8, by decide⟩ :=
    funext fun l => (colI_cast _ l).trans (ld_col arg2 harg2 x1 ⟨8, by decide⟩ _ l)
  have h9 : colI (k0_pay19 (F := Ideal) (View.readAt (Elt Ideal) arg2.view (Rect.unit (s := S1x2048x30) ![0, 0, 9] S1x2048x1.size inb_S1x2048x30_S1x2048x1_0_0_9).toLoadRect (harg2.unread x1))) = nbCol x1 ⟨9, by decide⟩ :=
    funext fun l => (colI_cast _ l).trans (ld_col arg2 harg2 x1 ⟨9, by decide⟩ _ l)
  have h10 : colI (k0_pay20 (F := Ideal) (View.readAt (Elt Ideal) arg2.view (Rect.unit (s := S1x2048x30) ![0, 0, 10] S1x2048x1.size inb_S1x2048x30_S1x2048x1_0_0_10).toLoadRect (harg2.unread x1))) = nbCol x1 ⟨10, by decide⟩ :=
    funext fun l => (colI_cast _ l).trans (ld_col arg2 harg2 x1 ⟨10, by decide⟩ _ l)
  have h11 : colI (k0_pay21 (F := Ideal) (View.readAt (Elt Ideal) arg2.view (Rect.unit (s := S1x2048x30) ![0, 0, 11] S1x2048x1.size inb_S1x2048x30_S1x2048x1_0_0_11).toLoadRect (harg2.unread x1))) = nbCol x1 ⟨11, by decide⟩ :=
    funext fun l => (colI_cast _ l).trans (ld_col arg2 harg2 x1 ⟨11, by decide⟩ _ l)
  have h12 : colI (k0_pay22 (F := Ideal) (View.readAt (Elt Ideal) arg2.view (Rect.unit (s := S1x2048x30) ![0, 0, 12] S1x2048x1.size inb_S1x2048x30_S1x2048x1_0_0_12).toLoadRect (harg2.unread x1))) = nbCol x1 ⟨12, by decide⟩ :=
    funext fun l => (colI_cast _ l).trans (ld_col arg2 harg2 x1 ⟨12, by decide⟩ _ l)
  have h13 : colI (k0_pay23 (F := Ideal) (View.readAt (Elt Ideal) arg2.view (Rect.unit (s := S1x2048x30) ![0, 0, 13] S1x2048x1.size inb_S1x2048x30_S1x2048x1_0_0_13).toLoadRect (harg2.unread x1))) = nbCol x1 ⟨13, by decide⟩ :=
    funext fun l => (colI_cast _ l).trans (ld_col arg2 harg2 x1 ⟨13, by decide⟩ _ l)
  have h14 : colI (k0_pay24 (F := Ideal) (View.readAt (Elt Ideal) arg2.view (Rect.unit (s := S1x2048x30) ![0, 0, 14] S1x2048x1.size inb_S1x2048x30_S1x2048x1_0_0_14).toLoadRect (harg2.unread x1))) = nbCol x1 ⟨14, by decide⟩ :=
    funext fun l => (colI_cast _ l).trans (ld_col arg2 harg2 x1 ⟨14, by decide⟩ _ l)
  have h15 : colI (k0_pay25 (F := Ideal) (View.readAt (Elt Ideal) arg2.view (Rect.unit (s := S1x2048x30) ![0, 0, 15] S1x2048x1.size inb_S1x2048x30_S1x2048x1_0_0_15).toLoadRect (harg2.unread x1))) = nbCol x1 ⟨15, by decide⟩ :=
    funext fun l => (colI_cast _ l).trans (ld_col arg2 harg2 x1 ⟨15, by decide⟩ _ l)
  have h16 : colI (k0_pay26 (F := Ideal) (View.readAt (Elt Ideal) arg2.view (Rect.unit (s := S1x2048x30) ![0, 0, 16] S1x2048x1.size inb_S1x2048x30_S1x2048x1_0_0_16).toLoadRect (harg2.unread x1))) = nbCol x1 ⟨16, by decide⟩ :=
    funext fun l => (colI_cast _ l).trans (ld_col arg2 harg2 x1 ⟨16, by decide⟩ _ l)
  have h17 : colI (k0_pay27 (F := Ideal) (View.readAt (Elt Ideal) arg2.view (Rect.unit (s := S1x2048x30) ![0, 0, 17] S1x2048x1.size inb_S1x2048x30_S1x2048x1_0_0_17).toLoadRect (harg2.unread x1))) = nbCol x1 ⟨17, by decide⟩ :=
    funext fun l => (colI_cast _ l).trans (ld_col arg2 harg2 x1 ⟨17, by decide⟩ _ l)
  have h18 : colI (k0_pay28 (F := Ideal) (View.readAt (Elt Ideal) arg2.view (Rect.unit (s := S1x2048x30) ![0, 0, 18] S1x2048x1.size inb_S1x2048x30_S1x2048x1_0_0_18).toLoadRect (harg2.unread x1))) = nbCol x1 ⟨18, by decide⟩ :=
    funext fun l => (colI_cast _ l).trans (ld_col arg2 harg2 x1 ⟨18, by decide⟩ _ l)
  have h19 : colI (k0_pay29 (F := Ideal) (View.readAt (Elt Ideal) arg2.view (Rect.unit (s := S1x2048x30) ![0, 0, 19] S1x2048x1.size inb_S1x2048x30_S1x2048x1_0_0_19).toLoadRect (harg2.unread x1))) = nbCol x1 ⟨19, by decide⟩ :=
    funext fun l => (colI_cast _ l).trans (ld_col arg2 harg2 x1 ⟨19, by decide⟩ _ l)
  have h20 : colI (k0_pay30 (F := Ideal) (View.readAt (Elt Ideal) arg2.view (Rect.unit (s := S1x2048x30) ![0, 0, 20] S1x2048x1.size inb_S1x2048x30_S1x2048x1_0_0_20).toLoadRect (harg2.unread x1))) = nbCol x1 ⟨20, by decide⟩ :=
    funext fun l => (colI_cast _ l).trans (ld_col arg2 harg2 x1 ⟨20, by decide⟩ _ l)
  have h21 : colI (k0_pay31 (F := Ideal) (View.readAt (Elt Ideal) arg2.view (Rect.unit (s := S1x2048x30) ![0, 0, 21] S1x2048x1.size inb_S1x2048x30_S1x2048x1_0_0_21).toLoadRect (harg2.unread x1))) = nbCol x1 ⟨21, by decide⟩ :=
    funext fun l => (colI_cast _ l).trans (ld_col arg2 harg2 x1 ⟨21, by decide⟩ _ l)
  have h22 : colV (View.readAt (Elt Ideal) arg2.view (Rect.unit (s := S1x2048x30) ![0, 0, 22] S1x2048x1.size inb_S1x2048x30_S1x2048x1_0_0_22).toLoadRect (harg2.unread x1)) = nbCol x1 ⟨22, by decide⟩ :=
    funext fun l => ld_col arg2 harg2 x1 ⟨22, by decide⟩ _ l
  have h23 : colV (View.readAt (Elt Ideal) arg2.view (Rect.unit (s := S1x2048x30) ![0, 0, 23] S1x2048x1.size inb_S1x2048x30_S1x2048x1_0_0_23).toLoadRect (harg2.unread x1)) = nbCol x1 ⟨23, by decide⟩ :=
    funext fun l => ld_col arg2 harg2 x1 ⟨23, by decide⟩ _ l
  have h24 : colV (View.readAt (Elt Ideal) arg2.view (Rect.unit (s := S1x2048x30) ![0, 0, 24] S1x2048x1.size inb_S1x2048x30_S1x2048x1_0_0_24).toLoadRect (harg2.unread x1)) = nbCol x1 ⟨24, by decide⟩ :=
    funext fun l => ld_col arg2 harg2 x1 ⟨24, by decide⟩ _ l
  have h25 : colV (View.readAt (Elt Ideal) arg2.view (Rect.unit (s := S1x2048x30) ![0, 0, 25] S1x2048x1.size inb_S1x2048x30_S1x2048x1_0_0_25).toLoadRect (harg2.unread x1)) = nbCol x1 ⟨25, by decide⟩ :=
    funext fun l => ld_col arg2 harg2 x1 ⟨25, by decide⟩ _ l
  have h26 : colV (View.readAt (Elt Ideal) arg2.view (Rect.unit (s := S1x2048x30) ![0, 0, 26] S1x2048x1.size inb_S1x2048x30_S1x2048x1_0_0_26).toLoadRect (harg2.unread x1)) = nbCol x1 ⟨26, by decide⟩ :=
    funext fun l => ld_col arg2 harg2 x1 ⟨26, by decide⟩ _ l
  have h27 : colV (View.readAt (Elt Ideal) arg2.view (Rect.unit (s := S1x2048x30) ![0, 0, 27] S1x2048x1.size inb_S1x2048x30_S1x2048x1_0_0_27).toLoadRect (harg2.unread x1)) = nbCol x1 ⟨27, by decide⟩ :=
    funext fun l => ld_col arg2 harg2 x1 ⟨27, by decide⟩ _ l
  have h28 : colV (View.readAt (Elt Ideal) arg2.view (Rect.unit (s := S1x2048x30) ![0, 0, 28] S1x2048x1.size inb_S1x2048x30_S1x2048x1_0_0_28).toLoadRect (harg2.unread x1)) = nbCol x1 ⟨28, by decide⟩ :=
    funext fun l => ld_col arg2 harg2 x1 ⟨28, by decide⟩ _ l
  have h29 : colV (View.readAt (Elt Ideal) arg2.view (Rect.unit (s := S1x2048x30) ![0, 0, 29] S1x2048x1.size inb_S1x2048x30_S1x2048x1_0_0_29).toLoadRect (harg2.unread x1)) = nbCol x1 ⟨29, by decide⟩ :=
    funext fun l => ld_col arg2 harg2 x1 ⟨29, by decide⟩ _ l
  rw [h0, h1, h2, h3, h4, h5, h6, h7, h8, h9, h10, h11, h12, h13, h14, h15, h16, h17, h18, h19, h20, h21, h22, h23, h24, h25, h26, h27, h28, h29]

/-- Entry (l, j) of the count matrix: how many of row l's 30 neighbour words are the word of j. -/
theorem cnt_mat (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole)
    (x0 : Vec Ideal S1x2048x128 .f32) (x1 : Vec Ideal S1x2048x30 .i32) (x2 : Vec Ideal S1x2048x1 .f32) (x3 : Vec Ideal S3x128x128 .f32) (x4 : Vec Ideal S3x128 .f32) (x5 : Vec Ideal S3x128 .f32) (x6 : Vec Ideal S3x128 .f32) (l j : Fin 2048) :
    cnt (matOf (F := Ideal) arg1 harg1 arg2 harg2 arg3 harg3 arg4 harg4 arg5 harg5 arg6 harg6 arg7 harg7 x0 x1 x2 x3 x4 x5 x6) l j = ∑ k : Fin 30, (if x1 (ix3 (0 : Fin 1) l k) = BitVec.ofNat 32 j.val then (1 : EReal) else 0) := by
  have hj := j.isLt
  have h8 : k0_t1_loop.trips = 8 := by decide
  have hi : j.val / 256 < k0_t1_loop.trips := by rw [h8]; omega
  have hq : j.val % 256 < 256 := Nat.mod_lt _ (by decide)
  show tile (F := Ideal) (k0_pay10 (View.readAt (Elt Ideal) arg2.view (Rect.unit (s := S1x2048x30) ![0, 0, 0] S1x2048x1.size inb_S1x2048x30_S1x2048x1_0_0_0).toLoadRect (harg2.unread x1)))
      (k0_pay11 (View.readAt (Elt Ideal) arg2.view (Rect.unit (s := S1x2048x30) ![0, 0, 1] S1x2048x1.size inb_S1x2048x30_S1x2048x1_0_0_1).toLoadRect (harg2.unread x1)))
      (k0_pay12 (View.readAt (Elt Ideal) arg2.view (Rect.unit (s := S1x2048x30) ![0, 0, 2] S1x2048x1.size inb_S1x2048x30_S1x2048x1_0_0_2).toLoadRect (harg2.unread x1)))
      (k0_pay13 (View.readAt (Elt Ideal) arg2.view (Rect.unit (s := S1x2048x30) ![0, 0, 3] S1x2048x1.size inb_S1x2048x30_S1x2048x1_0_0_3).toLoadRect (harg2.unread x1)))
      (k0_pay14 (View.readAt (Elt Ideal) arg2.view (Rect.unit (s := S1x2048x30) ![0, 0, 4] S1x2048x1.size inb_S1x2048x30_S1x2048x1_0_0_4).toLoadRect (harg2.unread x1)))
      (k0_pay15 (View.readAt (Elt Ideal) arg2.view (Rect.unit (s := S1x2048x30) ![0, 0, 5] S1x2048x1.size inb_S1x2048x30_S1x2048x1_0_0_5).toLoadRect (harg2.unread x1)))
      (k0_pay16 (View.readAt (Elt Ideal) arg2.view (Rect.unit (s := S1x2048x30) ![0, 0, 6] S1x2048x1.size inb_S1x2048x30_S1x2048x1_0_0_6).toLoadRect (harg2.unread x1)))
      (k0_pay17 (View.readAt (Elt Ideal) arg2.view (Rect.unit (s := S1x2048x30) ![0, 0, 7] S1x2048x1.size inb_S1x2048x30_S1x2048x1_0_0_7).toLoadRect (harg2.unread x1)))
      (k0_pay18 (View.readAt (Elt Ideal) arg2.view (Rect.unit (s := S1x2048x30) ![0, 0, 8] S1x2048x1.size inb_S1x2048x30_S1x2048x1_0_0_8).toLoadRect (harg2.unread x1)))
      (k0_pay19 (View.readAt (Elt Ideal) arg2.view (Rect.unit (s := S1x2048x30) ![0, 0, 9] S1x2048x1.size inb_S1x2048x30_S1x2048x1_0_0_9).toLoadRect (harg2.unread x1)))
      (k0_pay20 (View.readAt (Elt Ideal) arg2.view (Rect.unit (s := S1x2048x30) ![0, 0, 10] S1x2048x1.size inb_S1x2048x30_S1x2048x1_0_0_10).toLoadRect (harg2.unread x1)))
      (k0_pay21 (View.readAt (Elt Ideal) arg2.view (Rect.unit (s := S1x2048x30) ![0, 0, 11] S1x2048x1.size inb_S1x2048x30_S1x2048x1_0_0_11).toLoadRect (harg2.unread x1)))
      (k0_pay22 (View.readAt (Elt Ideal) arg2.view (Rect.unit (s := S1x2048x30) ![0, 0, 12] S1x2048x1.size inb_S1x2048x30_S1x2048x1_0_0_12).toLoadRect (harg2.unread x1)))
      (k0_pay23 (View.readAt (Elt Ideal) arg2.view (Rect.unit (s := S1x2048x30) ![0, 0, 13] S1x2048x1.size inb_S1x2048x30_S1x2048x1_0_0_13).toLoadRect (harg2.unread x1)))
      (k0_pay24 (View.readAt (Elt Ideal) arg2.view (Rect.unit (s := S1x2048x30) ![0, 0, 14] S1x2048x1.size inb_S1x2048x30_S1x2048x1_0_0_14).toLoadRect (harg2.unread x1)))
      (k0_pay25 (View.readAt (Elt Ideal) arg2.view (Rect.unit (s := S1x2048x30) ![0, 0, 15] S1x2048x1.size inb_S1x2048x30_S1x2048x1_0_0_15).toLoadRect (harg2.unread x1)))
      (k0_pay26 (View.readAt (Elt Ideal) arg2.view (Rect.unit (s := S1x2048x30) ![0, 0, 16] S1x2048x1.size inb_S1x2048x30_S1x2048x1_0_0_16).toLoadRect (harg2.unread x1)))
      (k0_pay27 (View.readAt (Elt Ideal) arg2.view (Rect.unit (s := S1x2048x30) ![0, 0, 17] S1x2048x1.size inb_S1x2048x30_S1x2048x1_0_0_17).toLoadRect (harg2.unread x1)))
      (k0_pay28 (View.readAt (Elt Ideal) arg2.view (Rect.unit (s := S1x2048x30) ![0, 0, 18] S1x2048x1.size inb_S1x2048x30_S1x2048x1_0_0_18).toLoadRect (harg2.unread x1)))
      (k0_pay29 (View.readAt (Elt Ideal) arg2.view (Rect.unit (s := S1x2048x30) ![0, 0, 19] S1x2048x1.size inb_S1x2048x30_S1x2048x1_0_0_19).toLoadRect (harg2.unread x1)))
      (k0_pay30 (View.readAt (Elt Ideal) arg2.view (Rect.unit (s := S1x2048x30) ![0, 0, 20] S1x2048x1.size inb_S1x2048x30_S1x2048x1_0_0_20).toLoadRect (harg2.unread x1)))
      (k0_pay31 (View.readAt (Elt Ideal) arg2.view (Rect.unit (s := S1x2048x30) ![0, 0, 21] S1x2048x1.size inb_S1x2048x30_S1x2048x1_0_0_21).toLoadRect (harg2.unread x1)))
      (View.readAt (Elt Ideal) arg2.view (Rect.unit (s := S1x2048x30) ![0, 0, 22] S1x2048x1.size inb_S1x2048x30_S1x2048x1_0_0_22).toLoadRect (harg2.unread x1))
      (View.readAt (Elt Ideal) arg2.view (Rect.unit (s := S1x2048x30) ![0, 0, 23] S1x2048x1.size inb_S1x2048x30_S1x2048x1_0_0_23).toLoadRect (harg2.unread x1))
      (View.readAt (Elt Ideal) arg2.view (Rect.unit (s := S1x2048x30) ![0, 0, 24] S1x2048x1.size inb_S1x2048x30_S1x2048x1_0_0_24).toLoadRect (harg2.unread x1))
      (View.readAt (Elt Ideal) arg2.view (Rect.unit (s := S1x2048x30) ![0, 0, 25] S1x2048x1.size inb_S1x2048x30_S1x2048x1_0_0_25).toLoadRect (harg2.unread x1))
      (View.readAt (Elt Ideal) arg2.view (Rect.unit (s := S1x2048x30) ![0, 0, 26] S1x2048x1.size inb_S1x2048x30_S1x2048x1_0_0_26).toLoadRect (harg2.unread x1))
      (View.readAt (Elt Ideal) arg2.view (Rect.unit (s := S1x2048x30) ![0, 0, 27] S1x2048x1.size inb_S1x2048x30_S1x2048x1_0_0_27).toLoadRect (harg2.unread x1))
      (View.readAt (Elt Ideal) arg2.view (Rect.unit (s := S1x2048x30) ![0, 0, 28] S1x2048x1.size inb_S1x2048x30_S1x2048x1_0_0_28).toLoadRect (harg2.unread x1))
      (View.readAt (Elt Ideal) arg2.view (Rect.unit (s := S1x2048x30) ![0, 0, 29] S1x2048x1.size inb_S1x2048x30_S1x2048x1_0_0_29).toLoadRect (harg2.unread x1)) ⟨j.val / 256, hi⟩ (ix2 (⟨l.val, l.isLt⟩ : Fin 2048) (⟨j.val % 256, hq⟩ : Fin 256)) = _
  rw [tile_apply, colWord_eq, cols_eq arg1 harg1 arg2 harg2 arg3 harg3 arg4 harg4 arg5 harg5 arg6 harg6 arg7 harg7 x0 x1 x2 x3 x4 x5 x6, cntAt_ofFn]
  have hw : 256 * (j.val / 256) + j.val % 256 = j.val := by omega
  show (∑ k : Fin 30, if nbCol x1 k ⟨l.val, l.isLt⟩ = BitVec.ofNat 32 (256 * (j.val / 256) + j.val % 256) then (1 : EReal) else 0) = _
  rw [hw]
  rfl

/-! ## The block as the network -/

/-- The count matrix of an index block: how many of row l's 30 neighbour words are the word of j. -/
def cntX (x1 : S1x2048x30.Idx → BitVec 32) : Fin 2048 → Fin 2048 → EReal :=
  fun l j => ∑ k : Fin 30, (if x1 (ix3 (0 : Fin 1) l k) = BitVec.ofNat 32 j.val then (1 : EReal) else 0)

/-- The three-layer network over the count average, read off a block of node states, an index block, a mask block and the
    whole weights. -/
def blockNet (x0 : S1x2048x128.Idx → EReal) (x1 : S1x2048x30.Idx → BitVec 32) (x2 : S1x2048x1.Idx → EReal)
    (x3 : S3x128x128.Idx → EReal) (x4 x5 x6 : S3x128.Idx → EReal) : Fin 2048 → Fin 128 → EReal :=
  net (aggCount (cntX x1) ((1 / 30 : ℝ) : EReal)) (fun l d => x0 (ix3 (0 : Fin 1) l d)) (fun i d e => x3 (ix3 i d e))
    (fun i e => x4 (ix2 i e)) (fun i e => x5 (ix2 i e)) (fun i e => x6 (ix2 i e))
    (fun l => x2 (ix3 (0 : Fin 1) l (0 : Fin 1)))

theorem tab3_ld (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole)
    (x0 : Vec Ideal S1x2048x128 .f32) (x1 : Vec Ideal S1x2048x30 .i32) (x2 : Vec Ideal S1x2048x1 .f32) (x3 : Vec Ideal S3x128x128 .f32) (x4 : Vec Ideal S3x128 .f32) (x5 : Vec Ideal S3x128 .f32) (x6 : Vec Ideal S3x128 .f32) :
    tab3 (View.readAt (Elt Ideal) arg1.view (Rect.unit (s := S1x2048x128) ![0, 0, 0] S1x2048x128.size inb_S1x2048x128_S1x2048x128_0_0_0).toLoadRect (harg1.unread x0)) = fun l d => x0 (ix3 (0 : Fin 1) l d) := by
  funext l d
  unfold tab3
  rw [ld_at]
  refine congrArg x0 (funext fun a => Fin.ext ?_)
  match a with
  | ⟨0, _⟩ => rfl
  | ⟨1, _⟩ => show 0 + 1 * l.val = l.val; omega
  | ⟨2, _⟩ => show 0 + 1 * d.val = d.val; omega

theorem wts_ld (arg4 : Memref sig .tc .vmem S3x128x128 .f32) (harg4 : arg4.IsWhole) (x3 : Vec Ideal S3x128x128 .f32) (i : Fin 3)
    (inb : ∀ a, (![i.val, 0, 0] : Fin 3 → Nat) a + S1x128x128.size a ≤ S3x128x128.size a) :
    wts (View.readAt (Elt Ideal) arg4.view (Rect.unit (s := S3x128x128) ![i.val, 0, 0] S1x128x128.size inb).toLoadRect (harg4.unread x3))
      = fun d e => x3 (ix3 i d e) := by
  funext d e
  unfold wts
  rw [ld_at]
  refine congrArg x3 (funext fun a => Fin.ext ?_)
  match a with
  | ⟨0, _⟩ => show i.val + 1 * 0 = i.val; omega
  | ⟨1, _⟩ => show 0 + 1 * d.val = d.val; omega
  | ⟨2, _⟩ => show 0 + 1 * e.val = e.val; omega

theorem row_ld (arg : Memref sig .tc .vmem S3x128 .f32) (harg : arg.IsWhole) (x : Vec Ideal S3x128 .f32) (i : Fin 3)
    (inb : ∀ a, (![i.val, 0] : Fin 2 → Nat) a + S1x128.size a ≤ S3x128.size a) :
    row (View.readAt (Elt Ideal) arg.view (Rect.unit (s := S3x128) ![i.val, 0] S1x128.size inb).toLoadRect (harg.unread x))
      = fun e => x (ix2 i e) := by
  funext e
  unfold row
  rw [ld_at]
  refine congrArg x (funext fun a => Fin.ext ?_)
  match a with
  | ⟨0, _⟩ => show i.val + 1 * 0 = i.val; omega
  | ⟨1, _⟩ => show 0 + 1 * e.val = e.val; omega

theorem col_mask (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole)
    (x0 : Vec Ideal S1x2048x128 .f32) (x1 : Vec Ideal S1x2048x30 .i32) (x2 : Vec Ideal S1x2048x1 .f32) (x3 : Vec Ideal S3x128x128 .f32) (x4 : Vec Ideal S3x128 .f32) (x5 : Vec Ideal S3x128 .f32) (x6 : Vec Ideal S3x128 .f32) :
    col (maskOf (F := Ideal) arg1 harg1 arg2 harg2 arg3 harg3 arg4 harg4 arg5 harg5 arg6 harg6 arg7 harg7 x0 x1 x2 x3 x4 x5 x6) = fun l => x2 (ix3 (0 : Fin 1) l (0 : Fin 1)) := by
  funext l
  unfold col maskOf k0_pay9
  show shapeCast S2048x1 _ shapeCasts_S1x2048x1_S2048x1 (ix2 l (0 : Fin 1)) = _
  rw [shapeCast_1ab_ab_apply, ld_at]
  refine congrArg x2 (funext fun a => Fin.ext ?_)
  match a with
  | ⟨0, _⟩ => rfl
  | ⟨1, _⟩ => show 0 + 1 * l.val = l.val; omega
  | ⟨2, _⟩ => rfl

/-- THE BLOCK: at (0, l, e) the body's stored block is the three-layer network over the count average of the loaded
    blocks. -/
theorem block_value (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole)
    (x0 : Vec Ideal S1x2048x128 .f32) (x1 : Vec Ideal S1x2048x30 .i32) (x2 : Vec Ideal S1x2048x1 .f32) (x3 : Vec Ideal S3x128x128 .f32) (x4 : Vec Ideal S3x128 .f32) (x5 : Vec Ideal S3x128 .f32) (x6 : Vec Ideal S3x128 .f32) (l : Fin 2048) (e : Fin 128) :
    blockOut (F := Ideal) arg1 harg1 arg2 harg2 arg3 harg3 arg4 harg4 arg5 harg5 arg6 harg6 arg7 harg7 x0 x1 x2 x3 x4 x5 x6 (ix3 (0 : Fin 1) l e)
      = blockNet x0 x1 x2 x3 x4 x5 x6 l e := by
  unfold blockNet
  have hb : blockOut (F := Ideal) arg1 harg1 arg2 harg2 arg3 harg3 arg4 harg4 arg5 harg5 arg6 harg6 arg7 harg7 x0 x1 x2 x3 x4 x5 x6
      = out2 (maskOf arg1 harg1 arg2 harg2 arg3 harg3 arg4 harg4 arg5 harg5 arg6 harg6 arg7 harg7 x0 x1 x2 x3 x4 x5 x6) (out1 (maskOf arg1 harg1 arg2 harg2 arg3 harg3 arg4 harg4 arg5 harg5 arg6 harg6 arg7 harg7 x0 x1 x2 x3 x4 x5 x6) (out0 (maskOf arg1 harg1 arg2 harg2 arg3 harg3 arg4 harg4 arg5 harg5 arg6 harg6 arg7 harg7 x0 x1 x2 x3 x4 x5 x6) (View.readAt (Elt Ideal) arg1.view (Rect.unit (s := S1x2048x128) ![0, 0, 0] S1x2048x128.size inb_S1x2048x128_S1x2048x128_0_0_0).toLoadRect (harg1.unread x0)) (matOf arg1 harg1 arg2 harg2 arg3 harg3 arg4 harg4 arg5 harg5 arg6 harg6 arg7 harg7 x0 x1 x2 x3 x4 x5 x6)
            (View.readAt (Elt Ideal) arg4.view (Rect.unit (s := S3x128x128) ![0, 0, 0] S1x128x128.size inb_S3x128x128_S1x128x128_0_0_0).toLoadRect (harg4.unread x3)) (View.readAt (Elt Ideal) arg5.view (Rect.unit (s := S3x128) ![0, 0] S1x128.size inb_S3x128_S1x128_0_0).toLoadRect (harg5.unread x4)) (View.readAt (Elt Ideal) arg6.view (Rect.unit (s := S3x128) ![0, 0] S1x128.size inb_S3x128_S1x128_0_0).toLoadRect (harg6.unread x5)) (View.readAt (Elt Ideal) arg7.view (Rect.unit (s := S3x128) ![0, 0] S1x128.size inb_S3x128_S1x128_0_0).toLoadRect (harg7.unread x6)))
          (matOf arg1 harg1 arg2 harg2 arg3 harg3 arg4 harg4 arg5 harg5 arg6 harg6 arg7 harg7 x0 x1 x2 x3 x4 x5 x6) (View.readAt (Elt Ideal) arg4.view (Rect.unit (s := S3x128x128) ![1, 0, 0] S1x128x128.size inb_S3x128x128_S1x128x128_1_0_0).toLoadRect (harg4.unread x3)) (View.readAt (Elt Ideal) arg5.view (Rect.unit (s := S3x128) ![1, 0] S1x128.size inb_S3x128_S1x128_1_0).toLoadRect (harg5.unread x4)) (View.readAt (Elt Ideal) arg6.view (Rect.unit (s := S3x128) ![1, 0] S1x128.size inb_S3x128_S1x128_1_0).toLoadRect (harg6.unread x5)) (View.readAt (Elt Ideal) arg7.view (Rect.unit (s := S3x128) ![1, 0] S1x128.size inb_S3x128_S1x128_1_0).toLoadRect (harg7.unread x6)))
        (matOf arg1 harg1 arg2 harg2 arg3 harg3 arg4 harg4 arg5 harg5 arg6 harg6 arg7 harg7 x0 x1 x2 x3 x4 x5 x6) (View.readAt (Elt Ideal) arg4.view (Rect.unit (s := S3x128x128) ![2, 0, 0] S1x128x128.size inb_S3x128x128_S1x128x128_2_0_0).toLoadRect (harg4.unread x3)) (View.readAt (Elt Ideal) arg5.view (Rect.unit (s := S3x128) ![2, 0] S1x128.size inb_S3x128_S1x128_2_0).toLoadRect (harg5.unread x4)) (View.readAt (Elt Ideal) arg6.view (Rect.unit (s := S3x128) ![2, 0] S1x128.size inb_S3x128_S1x128_2_0).toLoadRect (harg6.unread x5)) (View.readAt (Elt Ideal) arg7.view (Rect.unit (s := S3x128) ![2, 0] S1x128.size inb_S3x128_S1x128_2_0).toLoadRect (harg7.unread x6)) := rfl
  rw [hb, block_net]
  have hc : cnt (matOf (F := Ideal) arg1 harg1 arg2 harg2 arg3 harg3 arg4 harg4 arg5 harg5 arg6 harg6 arg7 harg7 x0 x1 x2 x3 x4 x5 x6) = cntX x1 := funext fun l => funext fun j => cnt_mat arg1 harg1 arg2 harg2 arg3 harg3 arg4 harg4 arg5 harg5 arg6 harg6 arg7 harg7 x0 x1 x2 x3 x4 x5 x6 l j
  have hW : pick (wts (View.readAt (Elt Ideal) arg4.view (Rect.unit (s := S3x128x128) ![0, 0, 0] S1x128x128.size inb_S3x128x128_S1x128x128_0_0_0).toLoadRect (harg4.unread x3))) (wts (View.readAt (Elt Ideal) arg4.view (Rect.unit (s := S3x128x128) ![1, 0, 0] S1x128x128.size inb_S3x128x128_S1x128x128_1_0_0).toLoadRect (harg4.unread x3))) (wts (View.readAt (Elt Ideal) arg4.view (Rect.unit (s := S3x128x128) ![2, 0, 0] S1x128x128.size inb_S3x128x128_S1x128x128_2_0_0).toLoadRect (harg4.unread x3))) = fun i d e => x3 (ix3 i d e) := by
    funext i
    match i with
    | ⟨0, _⟩ => exact wts_ld arg4 harg4 x3 ⟨0, by decide⟩ _
    | ⟨1, _⟩ => exact wts_ld arg4 harg4 x3 ⟨1, by decide⟩ _
    | ⟨2, _⟩ => exact wts_ld arg4 harg4 x3 ⟨2, by decide⟩ _
  have hB : pick (row (View.readAt (Elt Ideal) arg5.view (Rect.unit (s := S3x128) ![0, 0] S1x128.size inb_S3x128_S1x128_0_0).toLoadRect (harg5.unread x4))) (row (View.readAt (Elt Ideal) arg5.view (Rect.unit (s := S3x128) ![1, 0] S1x128.size inb_S3x128_S1x128_1_0).toLoadRect (harg5.unread x4))) (row (View.readAt (Elt Ideal) arg5.view (Rect.unit (s := S3x128) ![2, 0] S1x128.size inb_S3x128_S1x128_2_0).toLoadRect (harg5.unread x4))) = fun i e => x4 (ix2 i e) := by
    funext i
    match i with
    | ⟨0, _⟩ => exact row_ld arg5 harg5 x4 ⟨0, by decide⟩ _
    | ⟨1, _⟩ => exact row_ld arg5 harg5 x4 ⟨1, by decide⟩ _
    | ⟨2, _⟩ => exact row_ld arg5 harg5 x4 ⟨2, by decide⟩ _
  have hG : pick (row (View.readAt (Elt Ideal) arg6.view (Rect.unit (s := S3x128) ![0, 0] S1x128.size inb_S3x128_S1x128_0_0).toLoadRect (harg6.unread x5))) (row (View.readAt (Elt Ideal) arg6.view (Rect.unit (s := S3x128) ![1, 0] S1x128.size inb_S3x128_S1x128_1_0).toLoadRect (harg6.unread x5))) (row (View.readAt (Elt Ideal) arg6.view (Rect.unit (s := S3x128) ![2, 0] S1x128.size inb_S3x128_S1x128_2_0).toLoadRect (harg6.unread x5))) = fun i e => x5 (ix2 i e) := by
    funext i
    match i with
    | ⟨0, _⟩ => exact row_ld arg6 harg6 x5 ⟨0, by decide⟩ _
    | ⟨1, _⟩ => exact row_ld arg6 harg6 x5 ⟨1, by decide⟩ _
    | ⟨2, _⟩ => exact row_ld arg6 harg6 x5 ⟨2, by decide⟩ _
  have hT : pick (row (View.readAt (Elt Ideal) arg7.view (Rect.unit (s := S3x128) ![0, 0] S1x128.size inb_S3x128_S1x128_0_0).toLoadRect (harg7.unread x6))) (row (View.readAt (Elt Ideal) arg7.view (Rect.unit (s := S3x128) ![1, 0] S1x128.size inb_S3x128_S1x128_1_0).toLoadRect (harg7.unread x6))) (row (View.readAt (Elt Ideal) arg7.view (Rect.unit (s := S3x128) ![2, 0] S1x128.size inb_S3x128_S1x128_2_0).toLoadRect (harg7.unread x6))) = fun i e => x6 (ix2 i e) := by
    funext i
    match i with
    | ⟨0, _⟩ => exact row_ld arg7 harg7 x6 ⟨0, by decide⟩ _
    | ⟨1, _⟩ => exact row_ld arg7 harg7 x6 ⟨1, by decide⟩ _
    | ⟨2, _⟩ => exact row_ld arg7 harg7 x6 ⟨2, by decide⟩ _
  rw [hc, hW, hB, hG, hT, tab3_ld arg1 harg1 arg2 harg2 arg3 harg3 arg4 harg4 arg5 harg5 arg6 harg6 arg7 harg7 x0 x1 x2 x3 x4 x5 x6, col_mask arg1 harg1 arg2 harg2 arg3 harg3 arg4 harg4 arg5 harg5 arg6 harg6 arg7 harg7 x0 x1 x2 x3 x4 x5 x6]

/-- What the body leaves in the output's buffer is that block. -/
theorem out_eq (c : Dev nD) (i : grid0.Coords) (arg1 : Memref sig .tc .vmem S1x2048x128 .f32) (harg1 : arg1.IsWhole) (arg2 : Memref sig .tc .vmem S1x2048x30 .i32) (harg2 : arg2.IsWhole) (arg3 : Memref sig .tc .vmem S1x2048x1 .f32) (harg3 : arg3.IsWhole) (arg4 : Memref sig .tc .vmem S3x128x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S1x2048x128 .f32) (harg8 : arg8.IsWhole) (arg9 : Memref sig .tc .vmem S2048x2048 .bf16) (harg9 : arg9.IsWhole) (arg10 : Memref sig .tc .vmem S2048x128 .f32) (harg10 : arg10.IsWhole) (arg11 : Memref sig .tc .vmem S2048x128 .f32) (harg11 : arg11.IsWhole)
    (x0 : Vec Ideal S1x2048x128 .f32) (x1 : Vec Ideal S1x2048x30 .i32) (x2 : Vec Ideal S1x2048x1 .f32) (x3 : Vec Ideal S3x128x128 .f32) (x4 : Vec Ideal S3x128 .f32) (x5 : Vec Ideal S3x128 .f32) (x6 : Vec Ideal S3x128 .f32) :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 = blockOut arg1 harg1 arg2 harg2 arg3 harg3 arg4 harg4 arg5 harg5 arg6 harg6 arg7 harg7 x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5 x6)]
  exact View.canon_unit_zero hz3 _ _

/-! ## The result array -/

variable (m : (ℓ : Loc nD τ sig) → Buf (Elt Ideal) ℓ) (ρ : Dev nD → PrngReg)

/-- Batch b of a [8, 2048, n] array as a [1, 2048, n] block. -/
def batch {n : Nat} {α : Type} (X : (⟨3, ![8, 2048, n]⟩ : Shape).Idx → α) (b : Fin 8) : (⟨3, ![1, 2048, n]⟩ : Shape).Idx → α :=
  fun z => X (ix3 b ⟨(z 1).val, (z 1).isLt⟩ ⟨(z 2).val, (z 2).isLt⟩)

/-- THE RESULT: at (b, l, e), the network on batch b of the arrays the region finds. -/
def G (c : Dev nD) : S8x2048x128.Idx → EReal := fun y =>
  blockNet (batch (V m c main_arg0) ⟨(y 0).val, (y 0).isLt⟩) (batch (V m c main_v0) ⟨(y 0).val, (y 0).isLt⟩)
    (batch (V m c main_v1) ⟨(y 0).val, (y 0).isLt⟩) (V m c main_arg4) (V m c main_arg5) (V m c main_arg6) (V m c main_arg7)
    ⟨(y 1).val, (y 1).isLt⟩ ⟨(y 2).val, (y 2).isLt⟩

/-- The printed index maps, decided over the eight points: the batched windows sit at block (t, 0, 0), the whole ones at
    the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- The point's batch. -/
def bt (t : Fin cfg0.N) : Fin 8 := ⟨t.val, Nat.lt_of_lt_of_eq t.isLt N_0⟩

/-- Window 0's block at point t is batch t of its array. -/
theorem iblk0_eq (c : Dev nD) (t : Fin cfg0.N) : iblk m c 0 t = batch (V m c main_arg0) (bt t) := by
  obtain ⟨f0, f1, f2, f3, f4, f5, f6, f7, f8, f9, f10, f11, f12, f13, f14, f15, f16, f17, f18, f19, f20⟩ := idx_facts t
  funext z
  show V m c main_arg0 (((cfg0.win 0).blk t).view.emb z) = V m c main_arg0 (ix3 (bt t) ⟨(z 1).val, (z 1).isLt⟩ ⟨(z 2).val, (z 2).isLt⟩)
  refine congrArg (V m c main_arg0) (funext fun a => Fin.ext ?_)
  have hz0 : (z 0).val = 0 := by have h : (z 0).val < 1 := (z 0).isLt; omega
  match a with
  | ⟨0, _⟩ => show win0_0.index t (0 : Fin 3) * 1 + 1 * (z 0).val = t.val; omega
  | ⟨1, _⟩ => show win0_0.index t (1 : Fin 3) * 2048 + 1 * (z 1).val = (z 1).val; omega
  | ⟨2, _⟩ => show win0_0.index t (2 : Fin 3) * 128 + 1 * (z 2).val = (z 2).val; omega

/-- Window 1's block at point t is batch t of its array. -/
theorem iblk1_eq (c : Dev nD) (t : Fin cfg0.N) : iblk m c 1 t = batch (V m c main_v0) (bt t) := by
  obtain ⟨f0, f1, f2, f3, f4, f5, f6, f7, f8, f9, f10, f11, f12, f13, f14, f15, f16, f17, f18, f19, f20⟩ := idx_facts t
  funext z
  show V m c main_v0 (((cfg0.win 1).blk t).view.emb z) = V m c main_v0 (ix3 (bt t) ⟨(z 1).val, (z 1).isLt⟩ ⟨(z 2).val, (z 2).isLt⟩)
  refine congrArg (V m c main_v0) (funext fun a => Fin.ext ?_)
  have hz0 : (z 0).val = 0 := by have h : (z 0).val < 1 := (z 0).isLt; omega
  match a with
  | ⟨0, _⟩ => show win0_1.index t (0 : Fin 3) * 1 + 1 * (z 0).val = t.val; omega
  | ⟨1, _⟩ => show win0_1.index t (1 : Fin 3) * 2048 + 1 * (z 1).val = (z 1).val; omega
  | ⟨2, _⟩ => show win0_1.index t (2 : Fin 3) * 30 + 1 * (z 2).val = (z 2).val; omega

/-- Window 2's block at point t is batch t of its array. -/
theorem iblk2_eq (c : Dev nD) (t : Fin cfg0.N) : iblk m c 2 t = batch (V m c main_v1) (bt t) := by
  obtain ⟨f0, f1, f2, f3, f4, f5, f6, f7, f8, f9, f10, f11, f12, f13, f14, f15, f16, f17, f18, f19, f20⟩ := idx_facts t
  funext z
  show V m c main_v1 (((cfg0.win 2).blk t).view.emb z) = V m c main_v1 (ix3 (bt t) ⟨(z 1).val, (z 1).isLt⟩ ⟨(z 2).val, (z 2).isLt⟩)
  refine congrArg (V m c main_v1) (funext fun a => Fin.ext ?_)
  have hz0 : (z 0).val = 0 := by have h : (z 0).val < 1 := (z 0).isLt; omega
  match a with
  | ⟨0, _⟩ => show win0_2.index t (0 : Fin 3) * 1 + 1 * (z 0).val = t.val; omega
  | ⟨1, _⟩ => show win0_2.index t (1 : Fin 3) * 2048 + 1 * (z 1).val = (z 1).val; omega
  | ⟨2, _⟩ => show win0_2.index t (2 : Fin 3) * 1 + 1 * (z 2).val = (z 2).val; omega

/-- Window 3's block is the whole weights array. -/
theorem iblk3_eq (c : Dev nD) (t : Fin cfg0.N) : iblk m c 3 t = V m c main_arg4 := by
  obtain ⟨f0, f1, f2, f3, f4, f5, f6, f7, f8, f9, f10, f11, f12, f13, f14, f15, f16, f17, f18, f19, f20⟩ := idx_facts t
  funext z
  show V m c main_arg4 (((cfg0.win 3).blk t).view.emb z) = V m c main_arg4 z
  refine congrArg (V m c main_arg4) (funext fun a => Fin.ext ?_)
  match a with
  | ⟨0, _⟩ => show win0_3.index t (0 : Fin 3) * 3 + 1 * (z 0).val = (z 0).val; omega
  | ⟨1, _⟩ => show win0_3.index t (1 : Fin 3) * 128 + 1 * (z 1).val = (z 1).val; omega
  | ⟨2, _⟩ => show win0_3.index t (2 : Fin 3) * 128 + 1 * (z 2).val = (z 2).val; omega

/-- Window 4's block is its whole array. -/
theorem iblk4_eq (c : Dev nD) (t : Fin cfg0.N) : iblk m c 4 t = V m c main_arg5 := by
  obtain ⟨f0, f1, f2, f3, f4, f5, f6, f7, f8, f9, f10, f11, f12, f13, f14, f15, f16, f17, f18, f19, f20⟩ := idx_facts t
  funext z
  show V m c main_arg5 (((cfg0.win 4).blk t).view.emb z) = V m c main_arg5 z
  refine congrArg (V m c main_arg5) (funext fun a => Fin.ext ?_)
  match a with
  | ⟨0, _⟩ => show win0_4.index t (0 : Fin 2) * 3 + 1 * (z 0).val = (z 0).val; omega
  | ⟨1, _⟩ => show win0_4.index t (1 : Fin 2) * 128 + 1 * (z 1).val = (z 1).val; omega

/-- Window 5's block is its whole array. -/
theorem iblk5_eq (c : Dev nD) (t : Fin cfg0.N) : iblk m c 5 t = V m c main_arg6 := by
  obtain ⟨f0, f1, f2, f3, f4, f5, f6, f7, f8, f9, f10, f11, f12, f13, f14, f15, f16, f17, f18, f19, f20⟩ := idx_facts t
  funext z
  show V m c main_arg6 (((cfg0.win 5).blk t).view.emb z) = V m c main_arg6 z
  refine congrArg (V m c main_arg6) (funext fun a => Fin.ext ?_)
  match a with
  | ⟨0, _⟩ => show win0_5.index t (0 : Fin 2) * 3 + 1 * (z 0).val = (z 0).val; omega
  | ⟨1, _⟩ => show win0_5.index t (1 : Fin 2) * 128 + 1 * (z 1).val = (z 1).val; omega

/-- Window 6's block is its whole array. -/
theorem iblk6_eq (c : Dev nD) (t : Fin cfg0.N) : iblk m c 6 t = V m c main_arg7 := by
  obtain ⟨f0, f1, f2, f3, f4, f5, f6, f7, f8, f9, f10, f11, f12, f13, f14, f15, f16, f17, f18, f19, f20⟩ := idx_facts t
  funext z
  show V m c main_arg7 (((cfg0.win 6).blk t).view.emb z) = V m c main_arg7 z
  refine congrArg (V m c main_arg7) (funext fun a => Fin.ext ?_)
  match a with
  | ⟨0, _⟩ => show win0_6.index t (0 : Fin 2) * 3 + 1 * (z 0).val = (z 0).val; omega
  | ⟨1, _⟩ => show win0_6.index t (1 : Fin 2) * 128 + 1 * (z 1).val = (z 1).val; omega

/-- WHAT POINT t WRITES BACK is block t of `G`. -/
theorem flushed_eq (c : Dev nD) (t : Fin cfg0.N) :
    (dats m 0 c).flushed 7 t = ((cfg0.win 7).blk t).view.read (Elt Ideal) (G m c) := by
  rw [Cert.KernelIdeal.Value.flushed7_A]
  obtain ⟨f0, f1, f2, f3, f4, f5, f6, f7, f8, f9, f10, f11, f12, f13, f14, f15, f16, f17, f18, f19, f20⟩ := idx_facts t
  funext j
  show out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) j = G m c (((cfg0.win 7).blk t).view.emb j)
  obtain ⟨u, l, e, rfl⟩ : ∃ (u : Fin 1) (l : Fin 2048) (e : Fin 128), j = ix3 u l e := ⟨j 0, j 1, j 2, eq_ix3 j⟩
  obtain rfl : u = 0 := Subsingleton.elim _ _
  rw [out_eq, block_value, iblk0_eq, iblk1_eq, iblk2_eq, iblk3_eq, iblk4_eq, iblk5_eq, iblk6_eq]
  have he : ((cfg0.win 7).blk t).view.emb (ix3 (0 : Fin 1) l e) = ix3 (bt t) l e := by
    funext a
    apply Fin.ext
    match a with
    | ⟨0, _⟩ => show win0_7.index t (0 : Fin 3) * 1 + 1 * 0 = t.val; omega
    | ⟨1, _⟩ => show win0_7.index t (1 : Fin 3) * 2048 + 1 * l.val = l.val; omega
    | ⟨2, _⟩ => show win0_7.index t (2 : Fin 3) * 128 + 1 * e.val = e.val; omega
  rw [he]
  rfl

/-- An index of the result array is in point t's block iff its batch coordinate is t. -/
theorem mem_blk (t : Fin cfg0.N) (i : S8x2048x128.Idx) :
    i ∈ ((cfg0.win 7).blk t).view.set ↔ ∀ a : Fin 3, win0_7.index t a * S1x2048x128.size a ≤ (i a).val ∧ (i a).val < win0_7.index t a * S1x2048x128.size a + S1x2048x128.size a := by
  show i ∈ ((View.whole main_v2).slice (win0_7.rect t)).set ↔ _
  rw [View.set_slice_whole, Rect.mem_set_unit]
  exact Iff.rfl

/-- Every index of the result array lies in the block of the point of its batch. -/
theorem cover (i : S8x2048x128.Idx) : ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 128 := (i 2).isLt
  refine ⟨⟨(i 0).val, by rw [show cfg0.N = 8 from N_0]; exact h0⟩, flush0_7 _, ?_⟩
  obtain ⟨f0, f1, f2, f3, f4, f5, f6, f7, f8, f9, f10, f11, f12, f13, f14, f15, f16, f17, f18, f19, f20⟩ := idx_facts ⟨(i 0).val, by rw [show cfg0.N = 8 from N_0]; exact h0⟩
  rw [mem_blk]
  intro a
  match a with
  | ⟨0, _⟩ => show win0_7.index _ (0 : Fin 3) * 1 ≤ (i 0).val ∧ (i 0).val < win0_7.index _ (0 : Fin 3) * 1 + 1; rw [f18]; show (i 0).val * 1 ≤ (i 0).val ∧ (i 0).val < (i 0).val * 1 + 1; omega
  | ⟨1, _⟩ => show win0_7.index _ (1 : Fin 3) * 2048 ≤ (i 1).val ∧ (i 1).val < win0_7.index _ (1 : Fin 3) * 2048 + 2048; rw [f19]; omega
  | ⟨2, _⟩ => show win0_7.index _ (2 : Fin 3) * 128 ≤ (i 2).val ∧ (i 2).val < win0_7.index _ (2 : Fin 3) * 128 + 128; rw [f20]; omega

/-- THE ARRAY after the run is `G`. -/
theorem final (c : Dev nD) : (dats m 0 c).arrAt 7 cfg0.N = G m c :=
  (dats m 0 c).arrAt_eq_of_cover 7 (G m c) (fun t _ => flushed_eq m c t) cover

/-- The frame run re-posted: the result array at `G`, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.KRun

end
-- ==== Proof.RRd.lean ====
/-
  Reading the reference's arrays as the per-batch tables of Spec.lean: batch b of a [8, 2048, 128] array, layer i of the
  [3, 128, 128] weights and of the [3, 128] vectors, batch b of the mask, and — for the gather — the row of the table
  that neighbour slot k of row l names: the index word made absolute when negative (+ 2048), read signed and clamped
  into [0, 2047], as the gather clamps every start index.
-/
import proofs.«400262_j80745385165161_3_alg».proof.Proof.RStages
import proofs.«400262_j80745385165161_3_alg».proof.Proof.Spec
import Idealize.ShloMosaic.Lib.ValueIdx

noncomputable section

namespace Cert.ReferenceIdeal.RRd

open Idealize.ShloMosaic Idealize.ShloMosaic.ValueIdx Cert.ReferenceIdeal Cert.Gcn

/-- Batch b of a [8, 2048, 128] array as a table. -/
def tabR (x : S8x2048x128.Idx → EReal) (b : Fin 8) : Tab := fun l d => x (ix3 b l d)
/-- Layer i of the weights. -/
def wtsR (x4 : S3x128x128.Idx → EReal) (i : Fin 3) : Fin 128 → Fin 128 → EReal := fun d e => x4 (ix3 i d e)
/-- Layer i of a [3, 128] array. -/
def rowR (x : S3x128.Idx → EReal) (i : Fin 3) : Fin 128 → EReal := fun e => x (ix2 i e)
/-- Batch b of the mask. -/
def mkR (x3 : S8x2048.Idx → EReal) (b : Fin 8) : Fin 2048 → EReal := fun l => x3 (ix2 b l)

/-- An index word made absolute: 2048 added when it is negative. -/
def wrapW (w : BitVec 32) : BitVec 32 := Scalar.select (IntOp.cmpi .slt w 0#32) (IntOp.addi w 2048#32) w

/-- The row the gather reads for neighbour slot k of row l in batch b. -/
def nbR (x2 : S8x2048x30.Idx → BitVec 32) (b : Fin 8) : Fin 2048 → Fin 30 → Fin 2048 :=
  fun l k => ⟨min (wrapW (x2 (ix3 b l k))).toInt.toNat (2048 - 1), by omega⟩

/-- The divisor 30 as the reference writes it (the f32 pattern of 30). -/
abbrev c30 : EReal := Ideal.ofBits .f32 0x41F00000#32

end Cert.ReferenceIdeal.RRd

end
-- ==== Proof.LibTakeBatchRows.lean ====
/-
  The shape of `stablehlo.gather` that indexing the ROWS of each batch member by an integer matrix of its own lowers to
  (`jax.vmap(lambda h, i: h[i])(H, I)` of `H : [B, N, D]` and `I : [B, R, C]`, the start indices the `[B, R, C, 1]` column
  of `I`), read at one result index.

  Result element `(b, r, c, d)` is the operand's element `(b, n, d)`, where `n` is the start index at `(b, r, c, 0)` read
  signed and clamped into `[0, N - 1]`.  The first axis is a BATCHING axis of both the operand and the start indices (the
  result's coordinate `b` selects the same member of each); the middle axis of the operand is collapsed and is the only
  axis the start index names; the last axis is taken whole (the result's one offset axis).

  The dimension numbers are spelt field by field as a printed program's record is, so that record is one of these by `rfl`.
-/
import Idealize.ShloMosaic.Lib.ValueIdx

namespace Idealize.ShloMosaic.TakeBatchRows

open Idealize.ShloMosaic Idealize.ShloMosaic.ValueIdx

variable {α : Type}

/-- The dimension numbers of a batched row take: operand `[B, N, D]`, start indices `[B, R, C, 1]`, result `[B, R, C, D]`. -/
abbrev batchRowDims (B N D R C : Nat)
    (wf : GatherDims.WF ⟨3, ![B, N, D]⟩ ⟨4, ![B, R, C, 1]⟩ ⟨4, ![B, R, C, D]⟩ [3] [1] [0] [1] [0] 3 ![1, 1, D]) :
    GatherDims ⟨3, ![B, N, D]⟩ ⟨4, ![B, R, C, 1]⟩ ⟨4, ![B, R, C, D]⟩ where
  offsetDims := [3]
  collapsedSliceDims := [1]
  operandBatchingDims := [0]
  startIndicesBatchingDims := [0]
  startIndexMap := [1]
  indexVectorDim := 3
  sliceSizes := ![1, 1, D]
  wf := wf

/-- That gather read at `(b, r, c, d)`: the operand at `(b, n, d)`, `n` the clamped start index at `(b, r, c, 0)`. -/
theorem batchRowTake_apply {B N D R C w : Nat} (hN : 0 < N)
    (wf : GatherDims.WF ⟨3, ![B, N, D]⟩ ⟨4, ![B, R, C, 1]⟩ ⟨4, ![B, R, C, D]⟩ [3] [1] [0] [1] [0] 3 ![1, 1, D])
    (x : (⟨3, ![B, N, D]⟩ : Shape).Idx → α) (idx : IVec ⟨4, ![B, R, C, 1]⟩ w)
    (b : Fin B) (r : Fin R) (c : Fin C) (d : Fin D) :
    Host.gather (batchRowDims B N D R C wf) x idx (ix4 b r c d)
      = x (ix3 b ⟨min (idx (ix4 b r c (0 : Fin 1))).toInt.toNat (N - 1), by omega⟩ d) := by
  -- the gather reads the operand at the index whose coordinate on each axis is start + batching coordinate + offset
  -- coordinate; the two indices are compared axis by axis
  unfold Host.gather
  congr 1
  funext a
  refine Fin.ext ?_
  have hb0 : (0 : Fin 3) ∈ (batchRowDims B N D R C wf).operandBatchingDims := List.mem_singleton.mpr rfl
  have hc1 : (1 : Fin 3) ∈ (batchRowDims B N D R C wf).collapsedSliceDims := List.mem_singleton.mpr rfl
  have hm1 : (1 : Fin 3) ∈ (batchRowDims B N D R C wf).startIndexMap := List.mem_singleton.mpr rfl
  have n10 : (1 : Fin 3) ∉ ([0] : List (Fin 3)) := by decide
  have n20 : (2 : Fin 3) ∉ ([0] : List (Fin 3)) := by decide
  have n21 : (2 : Fin 3) ∉ ([1] : List (Fin 3)) := by decide
  have hb1 : (1 : Fin 3) ∉ (batchRowDims B N D R C wf).operandBatchingDims := n10
  have hb2 : (2 : Fin 3) ∉ (batchRowDims B N D R C wf).operandBatchingDims := n20
  have hm2 : (2 : Fin 3) ∉ (batchRowDims B N D R C wf).startIndexMap := n21
  have hk2 : (2 : Fin 3) ∈ (batchRowDims B N D R C wf).sKept := (GatherDims.mem_sKept _ _).mpr ⟨n21, hb2⟩
  match a with
  | ⟨0, _⟩ =>
    -- the batching axis: no start, no offset; the batching coordinate is the result's first coordinate
    show (batchRowDims B N D R C wf).start (ix4 b r c d) idx 0 + (batchRowDims B N D R C wf).batchCoord (ix4 b r c d) 0
      + (batchRowDims B N D R C wf).offCoord (ix4 b r c d) 0 = b.val
    rw [GatherDims.start_batching _ _ _ _ hb0,
      GatherDims.offCoord_eq_zero _ _ _ (fun h => ((GatherDims.mem_sKept _ _).mp h).2 hb0)]
    simp only [Nat.zero_add, Nat.add_zero]
    unfold GatherDims.batchCoord
    rw [dif_pos hb0]
    rfl
  | ⟨1, _⟩ =>
    -- the collapsed axis, the one the start index names: the clamped start index alone
    show (batchRowDims B N D R C wf).start (ix4 b r c d) idx 1 + (batchRowDims B N D R C wf).batchCoord (ix4 b r c d) 1
      + (batchRowDims B N D R C wf).offCoord (ix4 b r c d) 1 = min (idx (ix4 b r c (0 : Fin 1))).toInt.toNat (N - 1)
    rw [GatherDims.batchCoord_eq_zero _ _ _ hb1,
      GatherDims.offCoord_eq_zero _ _ _ (fun h => ((GatherDims.mem_sKept _ _).mp h).1 hc1)]
    simp only [Nat.add_zero]
    unfold GatherDims.start
    rw [dif_pos hm1]
    have hsi : (batchRowDims B N D R C wf).siIdx (ix4 b r c d) ⟨List.idxOf (1 : Fin 3) (batchRowDims B N D R C wf).startIndexMap,
        List.idxOf_lt_length_iff.2 hm1⟩ = ix4 b r c (0 : Fin 1) := by
      funext e; refine Fin.ext ?_
      match e with
      | ⟨0, _⟩ => rfl
      | ⟨1, _⟩ => rfl
      | ⟨2, _⟩ => rfl
      | ⟨3, _⟩ => rfl
    rw [hsi]
    rfl
  | ⟨2, _⟩ =>
    -- the axis taken whole: no start, no batching coordinate; the offset coordinate is the result's last coordinate
    show (batchRowDims B N D R C wf).start (ix4 b r c d) idx 2 + (batchRowDims B N D R C wf).batchCoord (ix4 b r c d) 2
      + (batchRowDims B N D R C wf).offCoord (ix4 b r c d) 2 = d.val
    rw [GatherDims.batchCoord_eq_zero _ _ _ hb2]
    unfold GatherDims.start GatherDims.offCoord
    rw [dif_neg hm2, dif_pos hk2]
    simp only [Nat.zero_add, Nat.add_zero]
    rfl

end Idealize.ShloMosaic.TakeBatchRows
-- ==== Proof.LibIndexRange.lean ====
/-
  Two general facts a proof meets when an integer input indexes an array.

  Words: a 32-bit word `w` with `0 ≤ w` and `w < n` as signed comparisons (`n` below 2³¹) has a signed value in
  `[0, n)`; for such a word the signed test `w < 0` fails, `w ≤ n - 1` holds, and the value read signed and clamped
  into `[0, n - 1]` is the value itself.

  Conjunctions: a `reduce` by `and` of one-bit words, started at 1, over an operand that is 1 everywhere is 1 at every
  result index (the converse of "a conjunction that is 1 met only 1s").
-/
import Idealize.ShloMosaic.Lib.ReduceAll
import Idealize.ShloMosaic.Lib.StableHlo.Predicate

namespace Idealize.ShloMosaic.IndexRange

open Idealize.ShloMosaic Idealize.ShloMosaic.StableHlo.Predicate

/-! ## Words in a range -/

/-- The signed value of a word that passes `0 ≤ w` and `w < n`. -/
theorem toInt_mem_of_cmpi {w : BitVec 32} (n : Nat) (hn : n < 2 ^ 31)
    (h0 : IntOp.cmpi .sge w 0#32 = 1#1) (h1 : IntOp.cmpi .slt w (BitVec.ofNat 32 n) = 1#1) :
    0 ≤ w.toInt ∧ w.toInt < n := by
  unfold IntOp.cmpi at h0 h1
  rw [ofBool_eq_one_iff] at h0 h1
  simp only [BitVec.sle, BitVec.slt, decide_eq_true_eq] at h0 h1
  rw [toInt_ofNat_small n hn] at h1
  exact ⟨by simpa using h0, h1⟩

/-- A word with a non-negative signed value fails the signed test `w < 0`. -/
theorem slt_zero_eq_zero {w : BitVec 32} (h : 0 ≤ w.toInt) : IntOp.cmpi .slt w 0#32 = 0#1 := by
  unfold IntOp.cmpi
  have : w.slt 0#32 = false := by
    simp only [BitVec.slt, decide_eq_false_iff_not, not_lt]
    simpa using h
  rw [this]; rfl

/-- A word with a non-negative signed value passes the signed test `0 ≤ w`. -/
theorem sge_zero_eq_one {w : BitVec 32} (h : 0 ≤ w.toInt) : IntOp.cmpi .sge w 0#32 = 1#1 := by
  unfold IntOp.cmpi
  rw [ofBool_eq_one_iff]
  simp only [BitVec.sle, decide_eq_true_eq]
  simpa using h

/-- For such a word the select "`w + n` if `w < 0`, else `w`" (an index counted from the end made absolute) is `w`. -/
theorem select_wrap_eq {w : BitVec 32} (n : BitVec 32) (h : 0 ≤ w.toInt) :
    Scalar.select (IntOp.cmpi .slt w 0#32) (IntOp.addi w n) w = w := by
  rw [slt_zero_eq_zero h]
  exact if_neg (by decide)

/-- A word whose signed value is at most `k` passes the signed test `w ≤ k`. -/
theorem sle_eq_one {w : BitVec 32} (k : Nat) (hk : k < 2 ^ 31) (h : w.toInt ≤ k) :
    IntOp.cmpi .sle w (BitVec.ofNat 32 k) = 1#1 := by
  unfold IntOp.cmpi
  rw [ofBool_eq_one_iff]
  simp only [BitVec.sle, decide_eq_true_eq]
  rw [toInt_ofNat_small k hk]
  exact h

/-- Read signed and clamped into `[0, k]`, a word whose signed value lies there is its own value. -/
theorem clamp_toNat {w : BitVec 32} (k : Nat) (h0 : 0 ≤ w.toInt) (h1 : w.toInt ≤ k) :
    min w.toInt.toNat k = w.toInt.toNat := by
  omega

/-! ## A conjunction of ones -/

/-- A left fold by `and` from 1 over one-bit words that are all 1 is 1. -/
theorem foldl_andi_of_forall {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_of_forall f l fun n hn => h n (List.mem_cons_of_mem _ hn)

/-- A `reduce` by `and` from an initial 1 over an operand that is 1 everywhere is 1 at every result index. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_of_forall x _ fun n _ => hx n

end Idealize.ShloMosaic.IndexRange
-- ==== Proof.RLayer0.lean ====
/-
  The reference's layer 1, read at one entry: the host operations of the layer, from the incoming [8, 2048, 128] table,
  are the specification's layer over the gathered average, batch by batch.
-/
import proofs.«400262_j80745385165161_3_alg».proof.Proof.RRd
import proofs.«400262_j80745385165161_3_alg».proof.Proof.LibTakeBatchRows
import proofs.«400262_j80745385165161_3_alg».proof.Proof.LibIndexRange
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RLayer0

open Idealize.ShloMosaic Idealize.ShloMosaic.ValueIdx Cert.ReferenceIdeal Cert.ReferenceIdeal.Read Cert.ReferenceIdeal.RRd Cert.Gcn

/-! ## The gather: which row it reads -/

/-- The printed gather's dimension numbers are those of a batched row take. -/
theorem gatherDims_eq :
    gather_S8x2048x128_S8x2048x30x1_S8x2048x30x128_3_1_0_0_1_3_11128
      = TakeBatchRows.batchRowDims 8 2048 128 2048 30 gather_S8x2048x128_S8x2048x30x1_S8x2048x30x128_3_1_0_0_1_3_11128.wf := rfl

/-- The start index of neighbour slot k of row l: the index word, made absolute when negative. -/
theorem start_at (x2 : S8x2048x30.Idx → BitVec 32) (b : Fin 8) (l : Fin 2048) (k : Fin 30) :
    val_main_v6 (F := Ideal) x2 (ix4 b l k (0 : Fin 1)) = wrapW (x2 (ix3 b l k)) := by
  have hi : idx_main_v6 (ix4 b l k (0 : Fin 1)) = ix3 b l k :=
    funext fun a => Fin.ext (by match a with | ⟨0, _⟩ => rfl | ⟨1, _⟩ => rfl | ⟨2, _⟩ => rfl)
  rw [val_main_v6_apply, hi]
  rfl

/-- The gathered array at (b, l, k, d) is the table's row that slot k of row l names, at column d. -/
theorem gathered_at (x0 : S8x2048x128.Idx → EReal) (x2 : S8x2048x30.Idx → BitVec 32)
    (b : Fin 8) (l : Fin 2048) (k : Fin 30) (d : Fin 128) :
    val_main_v7 (F := Ideal) x0 x2 (ix4 b l k d) = x0 (ix3 b (nbR x2 b l k) d) := by
  have hs := start_at x2 b l k
  unfold val_main_v7
  rw [gatherDims_eq]
  refine (TakeBatchRows.batchRowTake_apply (by decide) _ x0 (val_main_v6 (F := Ideal) x2) b l k d).trans ?_
  refine congrArg x0 (funext fun a => Fin.ext ?_)
  match a with
  | ⟨0, _⟩ => rfl
  | ⟨1, _⟩ =>
    show min (val_main_v6 (F := Ideal) x2 (ix4 b l k (0 : Fin 1))).toInt.toNat (2048 - 1)
      = min (wrapW (x2 (ix3 b l k))).toInt.toNat (2048 - 1)
    rw [hs]
  | ⟨2, _⟩ => rfl

/-! ## The layer's input: the table plus its gathered average -/

theorem input_at (x0 : S8x2048x128.Idx → EReal) (x2 : S8x2048x30.Idx → BitVec 32)
    (b : Fin 8) (l : Fin 2048) (d : Fin 128) :
    val_main_v11 (F := Ideal) x0 x2 (ix3 b l d)
      = tabR x0 b l d + aggGather (nbR x2 b) c30 (tabR x0 b) l d := by
  have hi : ∀ k : Fin 30, idx_main_v8 (ix3 b l d) k = ix4 b l k d := fun k =>
    funext fun a => Fin.ext (by match a with | ⟨0, _⟩ => rfl | ⟨1, _⟩ => rfl | ⟨2, _⟩ => rfl | ⟨3, _⟩ => rfl)
  rw [val_main_v11_apply, val_main_v10_apply, val_main_v8_apply, val_main_v9_apply, val_main_cst_1_apply, val_main_cst_apply]
  simp only [hi, gathered_at, Ideal.addf_def, Ideal.hostDivf_def, Ideal.ofBits_def, Ideal.ofBits_zero_f32]
  rfl

/-! ## The layer's weights, bias, scale, shift and mask, read at an entry -/

theorem weights_at (x4 : S3x128x128.Idx → EReal) (d e : Fin 128) :
    val_main_v13 (F := Ideal) x4 (ix2 d e) = wtsR x4 0 d e := by
  have hd := d.isLt
  have he := e.isLt
  have h13 : idx_main_v13 (ix2 d e) = ix3 (0 : Fin 1) d e := funext fun a => Fin.ext (by
    match a with
    | ⟨0, _⟩ => rfl
    | ⟨1, _⟩ => show (d.val * 128 + e.val) / 128 % 128 = d.val; omega
    | ⟨2, _⟩ => show (d.val * 128 + e.val) % 128 = e.val; omega)
  have h12 : idx_main_v12 (ix3 (0 : Fin 1) d e) = ix3 (0 : Fin 3) d e :=
    funext fun a => Fin.ext (by match a with | ⟨0, _⟩ => rfl | ⟨1, _⟩ => rfl | ⟨2, _⟩ => rfl)
  rw [val_main_v13_apply, h13, val_main_v12_apply, h12]
  rfl

theorem bias_at (x5 : S3x128.Idx → EReal) (b : Fin 8) (l : Fin 2048) (e : Fin 128) :
    val_main_v18 (F := Ideal) x5 (ix3 b l e) = rowR x5 0 e := by
  rw [val_main_v18_apply, val_main_v17_apply, val_main_v16_apply, val_main_v15_apply]
  show x5 _ = x5 (ix2 (0 : Fin 3) e)
  refine congrArg x5 (funext fun a => Fin.ext ?_)
  match a with
  | ⟨0, _⟩ => rfl
  | ⟨1, _⟩ => exact Nat.mod_eq_of_lt e.isLt

theorem scale_at (x6 : S3x128.Idx → EReal) (b : Fin 8) (l : Fin 2048) (e : Fin 128) :
    val_main_v44 (F := Ideal) x6 (ix3 b l e) = rowR x6 0 e := by
  rw [val_main_v44_apply, val_main_v43_apply, val_main_v22_apply, val_main_v21_apply]
  show x6 _ = x6 (ix2 (0 : Fin 3) e)
  refine congrArg x6 (funext fun a => Fin.ext ?_)
  match a with
  | ⟨0, _⟩ => rfl
  | ⟨1, _⟩ => exact Nat.mod_eq_of_lt e.isLt

theorem shift_at (x7 : S3x128.Idx → EReal) (b : Fin 8) (l : Fin 2048) (e : Fin 128) :
    val_main_v47 (F := Ideal) x7 (ix3 b l e) = rowR x7 0 e := by
  rw [val_main_v47_apply, val_main_v46_apply, val_main_v24_apply, val_main_v23_apply]
  show x7 _ = x7 (ix2 (0 : Fin 3) e)
  refine congrArg x7 (funext fun a => Fin.ext ?_)
  match a with
  | ⟨0, _⟩ => rfl
  | ⟨1, _⟩ => exact Nat.mod_eq_of_lt e.isLt

theorem mask_at (x3 : S8x2048.Idx → EReal) (b : Fin 8) (l : Fin 2048) (e : Fin 128) :
    val_main_v49 (F := Ideal) x3 (ix3 b l e) = mkR x3 b l := by
  rw [val_main_v49_apply, val_main_v0_apply]
  show x3 _ = x3 (ix2 b l)
  refine congrArg x3 (funext fun a => Fin.ext ?_)
  match a with
  | ⟨0, _⟩ => rfl
  | ⟨1, _⟩ => rfl

/-! ## The affine map and the rectifier -/

theorem act_at (x0 : S8x2048x128.Idx → EReal) (x2 : S8x2048x30.Idx → BitVec 32) (x4 : S3x128x128.Idx → EReal)
    (x5 : S3x128.Idx → EReal) (b : Fin 8) (l : Fin 2048) (e : Fin 128) :
    val_main_v20 (F := Ideal) x0 x2 x4 x5 (ix3 b l e)
      = act (aggGather (nbR x2 b) c30 (tabR x0 b)) (tabR x0 b) (wtsR x4 0) (rowR x5 0) l e := by
  have hl : ∀ k : Fin 128, lidx_main_v14 (ix3 b l e) k = ix3 b l k := fun k =>
    funext fun a => Fin.ext (by match a with | ⟨0, _⟩ => rfl | ⟨1, _⟩ => rfl | ⟨2, _⟩ => rfl)
  have hr : ∀ k : Fin 128, ridx_main_v14 (ix3 b l e) k = ix2 k e := fun k =>
    funext fun a => Fin.ext (by match a with | ⟨0, _⟩ => rfl | ⟨1, _⟩ => rfl)
  rw [val_main_v20_apply, val_main_v19_apply, val_main_v14_apply, bias_at, val_main_call0_v0_apply, val_main_call0_cst_apply]
  simp only [hl, hr, input_at, weights_at, Ideal.maximumf_def, Ideal.addf_def, Ideal.ofBits_def, Ideal.ofBits_zero_f32]
  rfl

/-! ## The row's mean and variance -/

theorem mean_at (x0 : S8x2048x128.Idx → EReal) (x2 : S8x2048x30.Idx → BitVec 32) (x4 : S3x128x128.Idx → EReal)
    (x5 : S3x128.Idx → EReal) (b : Fin 8) (l : Fin 2048) (u : Fin 1) :
    val_main_v28 (F := Ideal) x0 x2 x4 x5 (ix3 b l u)
      = mean (aggGather (nbR x2 b) c30 (tabR x0 b)) (tabR x0 b) (wtsR x4 0) (rowR x5 0) l := by
  have h26 : idx_main_v26 (ix3 b l u) = ix2 b l :=
    funext fun a => Fin.ext (by match a with | ⟨0, _⟩ => rfl | ⟨1, _⟩ => rfl)
  have h25 : ∀ k : Fin 128, idx_main_v25 (ix2 b l) k = ix3 b l k := fun k =>
    funext fun a => Fin.ext (by match a with | ⟨0, _⟩ => rfl | ⟨1, _⟩ => rfl | ⟨2, _⟩ => rfl)
  rw [val_main_v28_apply, val_main_v26_apply, h26, val_main_v25_apply, val_main_v27_apply, val_main_cst_3_apply, val_main_cst_2_apply]
  simp only [h25, act_at, Ideal.hostDivf_def, Ideal.ofBits_def, Ideal.ofBits_zero_f32, zero_add]
  rfl

theorem var_at (x0 : S8x2048x128.Idx → EReal) (x2 : S8x2048x30.Idx → BitVec 32) (x4 : S3x128x128.Idx → EReal)
    (x5 : S3x128.Idx → EReal) (b : Fin 8) (l : Fin 2048) (u : Fin 1) :
    val_main_v35 (F := Ideal) x0 x2 x4 x5 (ix3 b l u)
      = var (aggGather (nbR x2 b) c30 (tabR x0 b)) (tabR x0 b) (wtsR x4 0) (rowR x5 0) l := by
  have h33 : idx_main_v33 (ix3 b l u) = ix2 b l :=
    funext fun a => Fin.ext (by match a with | ⟨0, _⟩ => rfl | ⟨1, _⟩ => rfl)
  have h32 : ∀ k : Fin 128, idx_main_v32 (ix2 b l) k = ix3 b l k := fun k =>
    funext fun a => Fin.ext (by match a with | ⟨0, _⟩ => rfl | ⟨1, _⟩ => rfl | ⟨2, _⟩ => rfl)
  have h29 : ∀ k : Fin 128, idx_main_v29 (ix3 b l k) = ix3 b l (0 : Fin 1) := fun k =>
    funext fun a => Fin.ext (by match a with | ⟨0, _⟩ => rfl | ⟨1, _⟩ => rfl | ⟨2, _⟩ => rfl)
  rw [val_main_v35_apply, val_main_v33_apply, h33, val_main_v32_apply, val_main_v34_apply, val_main_cst_5_apply, val_main_cst_4_apply]
  simp only [h32, val_main_v31_apply, val_main_v30_apply, val_main_v29_apply, h29, act_at, mean_at,
    Ideal.mulf_def, Ideal.subf_def, Ideal.hostDivf_def, Ideal.ofBits_def, Ideal.ofBits_zero_f32, zero_add]
  rfl

/-! ## The layer -/

theorem rlayer0 (x0 : S8x2048x128.Idx → EReal) (x2 : S8x2048x30.Idx → BitVec 32) (x3 : S8x2048.Idx → EReal) (x4 : S3x128x128.Idx → EReal) (x5 x6 x7 : S3x128.Idx → EReal) (b : Fin 8) (l : Fin 2048) (e : Fin 128) :
    val_main_v50 (F := Ideal) x0 x2 x3 x4 x5 x6 x7 (ix3 b l e)
      = layer (aggGather (nbR x2 b) c30) (tabR x0 b) (wtsR x4 0) (rowR x5 0) (rowR x6 0) (rowR x7 0) (mkR x3 b) l e := by
  have h36 : idx_main_v36 (ix3 b l e) = ix3 b l (0 : Fin 1) :=
    funext fun a => Fin.ext (by match a with | ⟨0, _⟩ => rfl | ⟨1, _⟩ => rfl | ⟨2, _⟩ => rfl)
  have h41 : idx_main_v41 (ix3 b l e) = ix3 b l (0 : Fin 1) :=
    funext fun a => Fin.ext (by match a with | ⟨0, _⟩ => rfl | ⟨1, _⟩ => rfl | ⟨2, _⟩ => rfl)
  rw [val_main_v50_apply, val_main_v48_apply, val_main_v45_apply, val_main_v42_apply, val_main_v37_apply,
    val_main_v36_apply, h36, val_main_v41_apply, h41, val_main_v40_apply, val_main_v39_apply, val_main_v38_apply,
    val_main_cst_6_apply, mask_at, scale_at, shift_at, act_at, mean_at, var_at]
  rfl

end Cert.ReferenceIdeal.RLayer0

end
-- ==== Proof.RLayer1.lean ====
/-
  The reference's layer 2, read at one entry: the host operations of the layer, from the incoming [8, 2048, 128] table,
  are the specification's layer over the gathered average, batch by batch.
-/
import proofs.«400262_j80745385165161_3_alg».proof.Proof.RRd
import proofs.«400262_j80745385165161_3_alg».proof.Proof.LibTakeBatchRows
import proofs.«400262_j80745385165161_3_alg».proof.Proof.LibIndexRange
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RLayer1

open Idealize.ShloMosaic Idealize.ShloMosaic.ValueIdx Cert.ReferenceIdeal Cert.ReferenceIdeal.Read Cert.ReferenceIdeal.RRd Cert.Gcn

section Stages

variable (x0 : S8x2048x128.Idx → EReal) (x2 : S8x2048x30.Idx → BitVec 32) (x3 : S8x2048.Idx → EReal)
  (x4 : S3x128x128.Idx → EReal) (x5 x6 x7 : S3x128.Idx → EReal)

/-! ## The gathered rows -/

theorem idx56 (b : Fin 8) (l : Fin 2048) (k : Fin 30) (u : Fin 1) : idx_main_v56 (ix4 b l k u) = ix3 b l k :=
  funext fun a => Fin.ext (by match a with | ⟨0, _⟩ => rfl | ⟨1, _⟩ => rfl | ⟨2, _⟩ => rfl)

/-- The start index the gather is given at (b, l, k): the neighbour's index word, 2048 added when it is negative. -/
theorem start_at (b : Fin 8) (l : Fin 2048) (k : Fin 30) :
    val_main_v56 (F := Ideal) x2 (ix4 b l k (0 : Fin 1)) = wrapW (x2 (ix3 b l k)) := by
  rw [val_main_v56_apply, idx56, val_main_v55_apply, val_main_v52_apply, val_main_v54_apply, val_main_v51_apply,
    val_main_v53_apply, val_main_c_7_apply, val_main_c_8_apply]
  rfl

/-- The gather at (b, l, k, d): the incoming table's row that neighbour slot k of row l names, at feature d. -/
theorem gather_at (b : Fin 8) (l : Fin 2048) (k : Fin 30) (d : Fin 128) :
    val_main_v57 (F := Ideal) x0 x2 x3 x4 x5 x6 x7 (ix4 b l k d) = (val_main_v50 (F := Ideal) x0 x2 x3 x4 x5 x6 x7) (ix3 b (nbR x2 b l k) d) := by
  unfold val_main_v57
  refine (TakeBatchRows.batchRowTake_apply (B := 8) (N := 2048) (D := 128) (R := 2048) (C := 30) (by decide)
    gather_S8x2048x128_S8x2048x30x1_S8x2048x30x128_3_1_0_0_1_3_11128.wf (val_main_v50 (F := Ideal) x0 x2 x3 x4 x5 x6 x7)
    (val_main_v56 (F := Ideal) x2) b l k d).trans ?_
  exact congrArg (fun n : Fin 2048 => (val_main_v50 (F := Ideal) x0 x2 x3 x4 x5 x6 x7) (ix3 b n d))
    (Fin.ext (congrArg (fun w : BitVec 32 => min w.toInt.toNat (2048 - 1)) (start_at x2 b l k)))

theorem idx58 (b : Fin 8) (l : Fin 2048) (d : Fin 128) (k : Fin 30) : idx_main_v58 (ix3 b l d) k = ix4 b l k d :=
  funext fun a => Fin.ext (by match a with | ⟨0, _⟩ => rfl | ⟨1, _⟩ => rfl | ⟨2, _⟩ => rfl | ⟨3, _⟩ => rfl)

/-- The neighbour average at (b, l, d): the 30 gathered rows added up from zero, over 30. -/
theorem agg_at (b : Fin 8) (l : Fin 2048) (d : Fin 128) :
    val_main_v60 (F := Ideal) x0 x2 x3 x4 x5 x6 x7 (ix3 b l d) = (aggGather (nbR x2 b) c30 (tabR (val_main_v50 (F := Ideal) x0 x2 x3 x4 x5 x6 x7) b)) l d := by
  rw [val_main_v60_apply, val_main_v58_apply, val_main_v59_apply, val_main_cst_9_apply, val_main_cst_10_apply]
  simp only [Ideal.hostDivf_def, Ideal.ofBits_def, Ideal.ofBits_zero_f32]
  unfold aggGather
  refine congrArg (fun s => Ideal.div (0 + s) _) (Finset.sum_congr rfl fun k _ => ?_)
  rw [idx58, gather_at]
  rfl

/-! ## Weights and the per-feature rows -/

theorem idx63 (d e : Fin 128) : idx_main_v63 (ix2 d e) = ix3 (0 : Fin 1) d e :=
  funext fun a => Fin.ext (by
    match a with
    | ⟨0, _⟩ => rfl
    | ⟨1, _⟩ => have hd := d.isLt; have he := e.isLt; show (d.val * 128 + e.val) / 128 % 128 = d.val; omega
    | ⟨2, _⟩ => have hd := d.isLt; have he := e.isLt; show (d.val * 128 + e.val) % 128 = e.val; omega)
theorem idx62 (d e : Fin 128) : idx_main_v62 (ix3 (0 : Fin 1) d e) = ix3 (1 : Fin 3) d e :=
  funext fun a => Fin.ext (by match a with | ⟨0, _⟩ => rfl | ⟨1, _⟩ => rfl | ⟨2, _⟩ => rfl)
/-- The layer's weights at (d, e): the second slice of the weight array. -/
theorem wts_at (d e : Fin 128) : val_main_v63 (F := Ideal) x4 (ix2 d e) = wtsR x4 1 d e := by
  rw [val_main_v63_apply, idx63, val_main_v62_apply, idx62]
  rfl

theorem idx68 (b : Fin 8) (l : Fin 2048) (e : Fin 128) : idx_main_v68 (ix3 b l e) = ix3 (0 : Fin 1) (0 : Fin 1) e :=
  funext fun a => Fin.ext (by match a with | ⟨0, _⟩ => rfl | ⟨1, _⟩ => rfl | ⟨2, _⟩ => rfl)
theorem idx67 (u v : Fin 1) (e : Fin 128) : idx_main_v67 (ix3 u v e) = ix1 e :=
  funext fun a => Fin.ext (by match a with | ⟨0, _⟩ => rfl)
theorem idx66 (e : Fin 128) : idx_main_v66 (ix1 e) = ix2 (0 : Fin 1) e :=
  funext fun a => Fin.ext (by
    match a with
    | ⟨0, _⟩ => rfl
    | ⟨1, _⟩ => exact Nat.mod_eq_of_lt e.isLt)
theorem idx65 (e : Fin 128) : idx_main_v65 (ix2 (0 : Fin 1) e) = ix2 (1 : Fin 3) e :=
  funext fun a => Fin.ext (by match a with | ⟨0, _⟩ => rfl | ⟨1, _⟩ => rfl)
/-- The bias broadcast over the table, at (b, l, e): the second row of the bias array at e. -/
theorem bias_at (b : Fin 8) (l : Fin 2048) (e : Fin 128) :
    val_main_v68 (F := Ideal) x5 (ix3 b l e) = rowR x5 1 e := by
  rw [val_main_v68_apply, idx68, val_main_v67_apply, idx67, val_main_v66_apply, idx66, val_main_v65_apply, idx65]
  rfl

theorem idx94 (b : Fin 8) (l : Fin 2048) (e : Fin 128) : idx_main_v94 (ix3 b l e) = ix3 (0 : Fin 1) (0 : Fin 1) e :=
  funext fun a => Fin.ext (by match a with | ⟨0, _⟩ => rfl | ⟨1, _⟩ => rfl | ⟨2, _⟩ => rfl)
theorem idx93 (u v : Fin 1) (e : Fin 128) : idx_main_v93 (ix3 u v e) = ix1 e :=
  funext fun a => Fin.ext (by match a with | ⟨0, _⟩ => rfl)
theorem idx72 (e : Fin 128) : idx_main_v72 (ix1 e) = ix2 (0 : Fin 1) e :=
  funext fun a => Fin.ext (by
    match a with
    | ⟨0, _⟩ => rfl
    | ⟨1, _⟩ => exact Nat.mod_eq_of_lt e.isLt)
theorem idx71 (e : Fin 128) : idx_main_v71 (ix2 (0 : Fin 1) e) = ix2 (1 : Fin 3) e :=
  funext fun a => Fin.ext (by match a with | ⟨0, _⟩ => rfl | ⟨1, _⟩ => rfl)
/-- The scale broadcast over the table, at (b, l, e): the second row of the scale array at e. -/
theorem gamma_at (b : Fin 8) (l : Fin 2048) (e : Fin 128) :
    val_main_v94 (F := Ideal) x6 (ix3 b l e) = rowR x6 1 e := by
  rw [val_main_v94_apply, idx94, val_main_v93_apply, idx93, val_main_v72_apply, idx72, val_main_v71_apply, idx71]
  rfl

theorem idx97 (b : Fin 8) (l : Fin 2048) (e : Fin 128) : idx_main_v97 (ix3 b l e) = ix3 (0 : Fin 1) (0 : Fin 1) e :=
  funext fun a => Fin.ext (by match a with | ⟨0, _⟩ => rfl | ⟨1, _⟩ => rfl | ⟨2, _⟩ => rfl)
theorem idx96 (u v : Fin 1) (e : Fin 128) : idx_main_v96 (ix3 u v e) = ix1 e :=
  funext fun a => Fin.ext (by match a with | ⟨0, _⟩ => rfl)
theorem idx74 (e : Fin 128) : idx_main_v74 (ix1 e) = ix2 (0 : Fin 1) e :=
  funext fun a => Fin.ext (by
    match a with
    | ⟨0, _⟩ => rfl
    | ⟨1, _⟩ => exact Nat.mod_eq_of_lt e.isLt)
theorem idx73 (e : Fin 128) : idx_main_v73 (ix2 (0 : Fin 1) e) = ix2 (1 : Fin 3) e :=
  funext fun a => Fin.ext (by match a with | ⟨0, _⟩ => rfl | ⟨1, _⟩ => rfl)
/-- The shift broadcast over the table, at (b, l, e): the second row of the shift array at e. -/
theorem beta_at (b : Fin 8) (l : Fin 2048) (e : Fin 128) :
    val_main_v97 (F := Ideal) x7 (ix3 b l e) = rowR x7 1 e := by
  rw [val_main_v97_apply, idx97, val_main_v96_apply, idx96, val_main_v74_apply, idx74, val_main_v73_apply, idx73]
  rfl

/-! ## The activation at an entry -/

theorem lidx64 (b : Fin 8) (l : Fin 2048) (e d : Fin 128) : lidx_main_v64 (ix3 b l e) d = ix3 b l d :=
  funext fun a => Fin.ext (by match a with | ⟨0, _⟩ => rfl | ⟨1, _⟩ => rfl | ⟨2, _⟩ => rfl)
theorem ridx64 (b : Fin 8) (l : Fin 2048) (e d : Fin 128) : ridx_main_v64 (ix3 b l e) d = ix2 d e :=
  funext fun a => Fin.ext (by match a with | ⟨0, _⟩ => rfl | ⟨1, _⟩ => rfl)

/-- The rectified affine row at (b, l, e) is the specification's, over the gathered average of batch b. -/
theorem act_at (b : Fin 8) (l : Fin 2048) (e : Fin 128) :
    val_main_v70 (F := Ideal) x0 x2 x3 x4 x5 x6 x7 (ix3 b l e) = act (aggGather (nbR x2 b) c30 (tabR (val_main_v50 (F := Ideal) x0 x2 x3 x4 x5 x6 x7) b)) (tabR (val_main_v50 (F := Ideal) x0 x2 x3 x4 x5 x6 x7) b) (wtsR x4 1) (rowR x5 1) l e := by
  rw [val_main_v70_apply, val_main_v69_apply, val_main_v64_apply, bias_at, val_main_call1_v0_apply, val_main_call1_cst_apply]
  simp only [Ideal.maximumf_def, Ideal.addf_def, Ideal.ofBits_def, Ideal.ofBits_zero_f32]
  unfold act
  refine congrArg (fun s => max (s + _) 0) (Finset.sum_congr rfl fun d _ => ?_)
  rw [lidx64, ridx64, val_main_v61_apply, agg_at, wts_at] <;> rfl

/-! ## Mean, variance and the centred row -/

theorem idx76 (b : Fin 8) (l : Fin 2048) (u : Fin 1) : idx_main_v76 (ix3 b l u) = ix2 b l :=
  funext fun a => Fin.ext (by match a with | ⟨0, _⟩ => rfl | ⟨1, _⟩ => rfl)
theorem idx75 (b : Fin 8) (l : Fin 2048) (e : Fin 128) : idx_main_v75 (ix2 b l) e = ix3 b l e :=
  funext fun a => Fin.ext (by match a with | ⟨0, _⟩ => rfl | ⟨1, _⟩ => rfl | ⟨2, _⟩ => rfl)

/-- The row mean at (b, l). -/
theorem mean_at (b : Fin 8) (l : Fin 2048) :
    val_main_v78 (F := Ideal) x0 x2 x3 x4 x5 x6 x7 (ix3 b l (0 : Fin 1)) = mean (aggGather (nbR x2 b) c30 (tabR (val_main_v50 (F := Ideal) x0 x2 x3 x4 x5 x6 x7) b)) (tabR (val_main_v50 (F := Ideal) x0 x2 x3 x4 x5 x6 x7) b) (wtsR x4 1) (rowR x5 1) l := by
  rw [val_main_v78_apply, val_main_v76_apply, idx76, val_main_v75_apply, val_main_v77_apply, val_main_cst_11_apply,
    val_main_cst_12_apply]
  simp only [Ideal.hostDivf_def, Ideal.ofBits_def, Ideal.ofBits_zero_f32, zero_add]
  unfold mean
  refine congrArg (fun s => Ideal.div s _) (Finset.sum_congr rfl fun e _ => ?_)
  rw [idx75, act_at]

theorem idx79 (b : Fin 8) (l : Fin 2048) (e : Fin 128) : idx_main_v79 (ix3 b l e) = ix3 b l (0 : Fin 1) :=
  funext fun a => Fin.ext (by match a with | ⟨0, _⟩ => rfl | ⟨1, _⟩ => rfl | ⟨2, _⟩ => rfl)

/-- The centred row at (b, l, e), as the variance reads it. -/
theorem dev_at (b : Fin 8) (l : Fin 2048) (e : Fin 128) :
    val_main_v80 (F := Ideal) x0 x2 x3 x4 x5 x6 x7 (ix3 b l e) = act (aggGather (nbR x2 b) c30 (tabR (val_main_v50 (F := Ideal) x0 x2 x3 x4 x5 x6 x7) b)) (tabR (val_main_v50 (F := Ideal) x0 x2 x3 x4 x5 x6 x7) b) (wtsR x4 1) (rowR x5 1) l e - mean (aggGather (nbR x2 b) c30 (tabR (val_main_v50 (F := Ideal) x0 x2 x3 x4 x5 x6 x7) b)) (tabR (val_main_v50 (F := Ideal) x0 x2 x3 x4 x5 x6 x7) b) (wtsR x4 1) (rowR x5 1) l := by
  rw [val_main_v80_apply, val_main_v79_apply, idx79, act_at, mean_at] <;> rfl

theorem idx83 (b : Fin 8) (l : Fin 2048) (u : Fin 1) : idx_main_v83 (ix3 b l u) = ix2 b l :=
  funext fun a => Fin.ext (by match a with | ⟨0, _⟩ => rfl | ⟨1, _⟩ => rfl)
theorem idx82 (b : Fin 8) (l : Fin 2048) (e : Fin 128) : idx_main_v82 (ix2 b l) e = ix3 b l e :=
  funext fun a => Fin.ext (by match a with | ⟨0, _⟩ => rfl | ⟨1, _⟩ => rfl | ⟨2, _⟩ => rfl)

/-- The row variance at (b, l). -/
theorem var_at (b : Fin 8) (l : Fin 2048) :
    val_main_v85 (F := Ideal) x0 x2 x3 x4 x5 x6 x7 (ix3 b l (0 : Fin 1)) = var (aggGather (nbR x2 b) c30 (tabR (val_main_v50 (F := Ideal) x0 x2 x3 x4 x5 x6 x7) b)) (tabR (val_main_v50 (F := Ideal) x0 x2 x3 x4 x5 x6 x7) b) (wtsR x4 1) (rowR x5 1) l := by
  rw [val_main_v85_apply, val_main_v83_apply, idx83, val_main_v82_apply, val_main_v84_apply, val_main_cst_13_apply,
    val_main_cst_14_apply]
  simp only [Ideal.hostDivf_def, Ideal.ofBits_def, Ideal.ofBits_zero_f32, zero_add]
  unfold var
  refine congrArg (fun s => Ideal.div s _) (Finset.sum_congr rfl fun e _ => ?_)
  rw [idx82, val_main_v81_apply, dev_at] <;> rfl

/-! ## The layer at an entry -/

theorem idx86 (b : Fin 8) (l : Fin 2048) (e : Fin 128) : idx_main_v86 (ix3 b l e) = ix3 b l (0 : Fin 1) :=
  funext fun a => Fin.ext (by match a with | ⟨0, _⟩ => rfl | ⟨1, _⟩ => rfl | ⟨2, _⟩ => rfl)
theorem idx91 (b : Fin 8) (l : Fin 2048) (e : Fin 128) : idx_main_v91 (ix3 b l e) = ix3 b l (0 : Fin 1) :=
  funext fun a => Fin.ext (by match a with | ⟨0, _⟩ => rfl | ⟨1, _⟩ => rfl | ⟨2, _⟩ => rfl)
theorem idx99 (b : Fin 8) (l : Fin 2048) (e : Fin 128) : idx_main_v99 (ix3 b l e) = ix3 b l (0 : Fin 1) :=
  funext fun a => Fin.ext (by match a with | ⟨0, _⟩ => rfl | ⟨1, _⟩ => rfl | ⟨2, _⟩ => rfl)
theorem idx0 (b : Fin 8) (l : Fin 2048) (u : Fin 1) : idx_main_v0 (ix3 b l u) = ix2 b l :=
  funext fun a => Fin.ext (by match a with | ⟨0, _⟩ => rfl | ⟨1, _⟩ => rfl)

/-- The reciprocal root of the guarded variance at (b, l). -/
theorem rs_at (b : Fin 8) (l : Fin 2048) :
    val_main_v90 (F := Ideal) x0 x2 x3 x4 x5 x6 x7 (ix3 b l (0 : Fin 1)) = Ideal.rsqrt (var (aggGather (nbR x2 b) c30 (tabR (val_main_v50 (F := Ideal) x0 x2 x3 x4 x5 x6 x7) b)) (tabR (val_main_v50 (F := Ideal) x0 x2 x3 x4 x5 x6 x7) b) (wtsR x4 1) (rowR x5 1) l + cEps) := by
  rw [val_main_v90_apply, val_main_v89_apply, var_at, val_main_v88_apply, val_main_cst_15_apply] <;> rfl

/-- The mask broadcast over the table, at (b, l, e): the mask of row l in batch b. -/
theorem mask_at (b : Fin 8) (l : Fin 2048) (e : Fin 128) : val_main_v99 (F := Ideal) x3 (ix3 b l e) = mkR x3 b l := by
  rw [val_main_v99_apply, idx99, val_main_v0_apply, idx0]
  rfl

end Stages

theorem rlayer1 (x0 : S8x2048x128.Idx → EReal) (x2 : S8x2048x30.Idx → BitVec 32) (x3 : S8x2048.Idx → EReal) (x4 : S3x128x128.Idx → EReal) (x5 x6 x7 : S3x128.Idx → EReal) (b : Fin 8) (l : Fin 2048) (e : Fin 128) :
    val_main_v100 (F := Ideal) x0 x2 x3 x4 x5 x6 x7 (ix3 b l e)
      = layer (aggGather (nbR x2 b) c30) (tabR (val_main_v50 (F := Ideal) x0 x2 x3 x4 x5 x6 x7) b) (wtsR x4 1) (rowR x5 1) (rowR x6 1) (rowR x7 1) (mkR x3 b) l e := by
  rw [val_main_v100_apply, val_main_v98_apply, val_main_v95_apply, val_main_v92_apply, val_main_v87_apply, val_main_v86_apply,
    idx86, val_main_v91_apply, idx91, act_at, mean_at, rs_at, gamma_at, beta_at, mask_at] <;> rfl

end Cert.ReferenceIdeal.RLayer1

end
-- ==== Proof.RLayer2.lean ====
/-
  The reference's layer 3, read at one entry: the host operations of the layer, from the incoming [8, 2048, 128] table,
  are the specification's layer over the gathered average, batch by batch.
-/
import proofs.«400262_j80745385165161_3_alg».proof.Proof.RRd
import proofs.«400262_j80745385165161_3_alg».proof.Proof.LibTakeBatchRows
import proofs.«400262_j80745385165161_3_alg».proof.Proof.LibIndexRange
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RLayer2

open Idealize.ShloMosaic Idealize.ShloMosaic.ValueIdx Cert.ReferenceIdeal Cert.ReferenceIdeal.Read Cert.ReferenceIdeal.RRd Cert.Gcn

/-! ## The gathered rows -/

/-- The start index of neighbour slot k of row l: the index word made absolute. -/
theorem start_apply (x2 : S8x2048x30.Idx → BitVec 32) (b : Fin 8) (l : Fin 2048) (k : Fin 30) :
    val_main_v106 (F := Ideal) x2 (ix4 b l k (0 : Fin 1)) = wrapW (x2 (ix3 b l k)) := by
  have h : idx_main_v106 (ix4 b l k (0 : Fin 1)) = ix3 b l k :=
    funext fun a => Fin.ext (by match a with | ⟨0, _⟩ => rfl | ⟨1, _⟩ => rfl | ⟨2, _⟩ => rfl)
  rw [val_main_v106_apply, h, val_main_v105_apply, val_main_v102_apply, val_main_v104_apply, val_main_v101_apply,
    val_main_v103_apply]
  rfl

/-- The reference's gather is a batched row take. -/
theorem gather_rec : gather_S8x2048x128_S8x2048x30x1_S8x2048x30x128_3_1_0_0_1_3_11128
    = TakeBatchRows.batchRowDims 8 2048 128 2048 30 Facts₀.gather_S8x2048x128_S8x2048x30x1_S8x2048x30x128_3_1_0_0_1_3_11128_wf := rfl

/-- The gather at (b, l, k, d): the incoming table's row that slot k of row l names, at d. -/
theorem gather_apply (x0 : S8x2048x128.Idx → EReal) (x2 : S8x2048x30.Idx → BitVec 32) (x3 : S8x2048.Idx → EReal) (x4 : S3x128x128.Idx → EReal) (x5 x6 x7 : S3x128.Idx → EReal) (b : Fin 8) (l : Fin 2048) (k : Fin 30) (d : Fin 128) :
    val_main_v107 (F := Ideal) x0 x2 x3 x4 x5 x6 x7 (ix4 b l k d)
      = tabR (val_main_v100 (F := Ideal) x0 x2 x3 x4 x5 x6 x7) b (nbR x2 b l k) d := by
  unfold val_main_v107
  rw [gather_rec, TakeBatchRows.batchRowTake_apply (N := 2048) (by decide)]
  refine congrArg (fun n : Fin 2048 => val_main_v100 (F := Ideal) x0 x2 x3 x4 x5 x6 x7 (ix3 b n d)) (Fin.ext ?_)
  show min (val_main_v106 (F := Ideal) x2 (ix4 b l k (0 : Fin 1))).toInt.toNat (2048 - 1)
    = min (wrapW (x2 (ix3 b l k))).toInt.toNat (2048 - 1)
  rw [start_apply]

/-- The sum of the thirty gathered rows, from the zero initial value. -/
theorem nbsum_apply (x0 : S8x2048x128.Idx → EReal) (x2 : S8x2048x30.Idx → BitVec 32) (x3 : S8x2048.Idx → EReal) (x4 : S3x128x128.Idx → EReal) (x5 x6 x7 : S3x128.Idx → EReal) (b : Fin 8) (l : Fin 2048) (d : Fin 128) :
    val_main_v108 (F := Ideal) x0 x2 x3 x4 x5 x6 x7 (ix3 b l d)
      = 0 + ∑ k : Fin 30, tabR (val_main_v100 (F := Ideal) x0 x2 x3 x4 x5 x6 x7) b (nbR x2 b l k) d := by
  have h : ∀ k : Fin 30, idx_main_v108 (ix3 b l d) k = ix4 b l k d := fun k =>
    funext fun a => Fin.ext (by match a with | ⟨0, _⟩ => rfl | ⟨1, _⟩ => rfl | ⟨2, _⟩ => rfl | ⟨3, _⟩ => rfl)
  rw [val_main_v108_apply, val_main_cst_18_apply, Ideal.ofBits_def, Ideal.ofBits_zero_f32]
  simp only [h, gather_apply]

/-- The table plus its gathered average, at one entry. -/
theorem x_apply (x0 : S8x2048x128.Idx → EReal) (x2 : S8x2048x30.Idx → BitVec 32) (x3 : S8x2048.Idx → EReal) (x4 : S3x128x128.Idx → EReal) (x5 x6 x7 : S3x128.Idx → EReal) (b : Fin 8) (l : Fin 2048) (d : Fin 128) :
    val_main_v111 (F := Ideal) x0 x2 x3 x4 x5 x6 x7 (ix3 b l d)
      = tabR (val_main_v100 (F := Ideal) x0 x2 x3 x4 x5 x6 x7) b l d
        + aggGather (nbR x2 b) c30 (tabR (val_main_v100 (F := Ideal) x0 x2 x3 x4 x5 x6 x7) b) l d := by
  rw [val_main_v111_apply, val_main_v110_apply, nbsum_apply, val_main_v109_apply, val_main_cst_19_apply]
  rfl

/-! ## The affine map and the rectifier -/

/-- The third layer's weights as a [128, 128] matrix. -/
theorem w_apply (x4 : S3x128x128.Idx → EReal) (d e : Fin 128) :
    val_main_v113 (F := Ideal) x4 (ix2 d e) = wtsR x4 2 d e := by
  have h1 : idx_main_v113 (ix2 d e) = ix3 (0 : Fin 1) d e :=
    funext fun a => Fin.ext (by
      match a with
      | ⟨0, _⟩ => rfl
      | ⟨1, _⟩ => show (d.val * 128 + e.val) / 128 % 128 = d.val; omega
      | ⟨2, _⟩ => show (d.val * 128 + e.val) % 128 = e.val; omega)
  have h2 : idx_main_v112 (ix3 (0 : Fin 1) d e) = ix3 (2 : Fin 3) d e :=
    funext fun a => Fin.ext (by match a with | ⟨0, _⟩ => rfl | ⟨1, _⟩ => rfl | ⟨2, _⟩ => rfl)
  rw [val_main_v113_apply, h1, val_main_v112_apply, h2]
  rfl

/-- The third layer's bias, broadcast over batches and rows. -/
theorem bias_apply (x5 : S3x128.Idx → EReal) (b : Fin 8) (l : Fin 2048) (e : Fin 128) :
    val_main_v118 (F := Ideal) x5 (ix3 b l e) = rowR x5 2 e := by
  have h1 : idx_main_v118 (ix3 b l e) = ix3 (0 : Fin 1) (0 : Fin 1) e :=
    funext fun a => Fin.ext (by match a with | ⟨0, _⟩ => rfl | ⟨1, _⟩ => rfl | ⟨2, _⟩ => rfl)
  have h2 : idx_main_v117 (ix3 (0 : Fin 1) (0 : Fin 1) e) = ix1 e :=
    funext fun a => Fin.ext (by match a with | ⟨0, _⟩ => rfl)
  have h3 : idx_main_v116 (ix1 e) = ix2 (0 : Fin 1) e :=
    funext fun a => Fin.ext (by
      match a with
      | ⟨0, _⟩ => rfl
      | ⟨1, _⟩ => show e.val % 128 = e.val; omega)
  have h4 : idx_main_v115 (ix2 (0 : Fin 1) e) = ix2 (2 : Fin 3) e :=
    funext fun a => Fin.ext (by match a with | ⟨0, _⟩ => rfl | ⟨1, _⟩ => rfl)
  rw [val_main_v118_apply, h1, val_main_v117_apply, h2, val_main_v116_apply, h3, val_main_v115_apply, h4]
  rfl

/-- The third layer's scale, broadcast over batches and rows. -/
theorem gamma_apply (x6 : S3x128.Idx → EReal) (b : Fin 8) (l : Fin 2048) (e : Fin 128) :
    val_main_v144 (F := Ideal) x6 (ix3 b l e) = rowR x6 2 e := by
  have h1 : idx_main_v144 (ix3 b l e) = ix3 (0 : Fin 1) (0 : Fin 1) e :=
    funext fun a => Fin.ext (by match a with | ⟨0, _⟩ => rfl | ⟨1, _⟩ => rfl | ⟨2, _⟩ => rfl)
  have h2 : idx_main_v143 (ix3 (0 : Fin 1) (0 : Fin 1) e) = ix1 e :=
    funext fun a => Fin.ext (by match a with | ⟨0, _⟩ => rfl)
  have h3 : idx_main_v122 (ix1 e) = ix2 (0 : Fin 1) e :=
    funext fun a => Fin.ext (by
      match a with
      | ⟨0, _⟩ => rfl
      | ⟨1, _⟩ => show e.val % 128 = e.val; omega)
  have h4 : idx_main_v121 (ix2 (0 : Fin 1) e) = ix2 (2 : Fin 3) e :=
    funext fun a => Fin.ext (by match a with | ⟨0, _⟩ => rfl | ⟨1, _⟩ => rfl)
  rw [val_main_v144_apply, h1, val_main_v143_apply, h2, val_main_v122_apply, h3, val_main_v121_apply, h4]
  rfl

/-- The third layer's shift, broadcast over batches and rows. -/
theorem beta_apply (x7 : S3x128.Idx → EReal) (b : Fin 8) (l : Fin 2048) (e : Fin 128) :
    val_main_v147 (F := Ideal) x7 (ix3 b l e) = rowR x7 2 e := by
  have h1 : idx_main_v147 (ix3 b l e) = ix3 (0 : Fin 1) (0 : Fin 1) e :=
    funext fun a => Fin.ext (by match a with | ⟨0, _⟩ => rfl | ⟨1, _⟩ => rfl | ⟨2, _⟩ => rfl)
  have h2 : idx_main_v146 (ix3 (0 : Fin 1) (0 : Fin 1) e) = ix1 e :=
    funext fun a => Fin.ext (by match a with | ⟨0, _⟩ => rfl)
  have h3 : idx_main_v124 (ix1 e) = ix2 (0 : Fin 1) e :=
    funext fun a => Fin.ext (by
      match a with
      | ⟨0, _⟩ => rfl
      | ⟨1, _⟩ => show e.val % 128 = e.val; omega)
  have h4 : idx_main_v123 (ix2 (0 : Fin 1) e) = ix2 (2 : Fin 3) e :=
    funext fun a => Fin.ext (by match a with | ⟨0, _⟩ => rfl | ⟨1, _⟩ => rfl)
  rw [val_main_v147_apply, h1, val_main_v146_apply, h2, val_main_v124_apply, h3, val_main_v123_apply, h4]
  rfl

/-- The activation at one entry. -/
theorem act_apply (x0 : S8x2048x128.Idx → EReal) (x2 : S8x2048x30.Idx → BitVec 32) (x3 : S8x2048.Idx → EReal) (x4 : S3x128x128.Idx → EReal) (x5 x6 x7 : S3x128.Idx → EReal) (b : Fin 8) (l : Fin 2048) (e : Fin 128) :
    val_main_v120 (F := Ideal) x0 x2 x3 x4 x5 x6 x7 (ix3 b l e)
      = act (aggGather (nbR x2 b) c30 (tabR (val_main_v100 (F := Ideal) x0 x2 x3 x4 x5 x6 x7) b)) (tabR (val_main_v100 (F := Ideal) x0 x2 x3 x4 x5 x6 x7) b)
          (wtsR x4 2) (rowR x5 2) l e := by
  have hl : ∀ d : Fin 128, lidx_main_v114 (ix3 b l e) d = ix3 b l d := fun d =>
    funext fun a => Fin.ext (by match a with | ⟨0, _⟩ => rfl | ⟨1, _⟩ => rfl | ⟨2, _⟩ => rfl)
  have hr : ∀ d : Fin 128, ridx_main_v114 (ix3 b l e) d = ix2 d e := fun d =>
    funext fun a => Fin.ext (by match a with | ⟨0, _⟩ => rfl | ⟨1, _⟩ => rfl)
  rw [val_main_v120_apply, val_main_v119_apply, val_main_v114_apply, bias_apply, val_main_call2_v0_apply,
    val_main_call2_cst_apply, Ideal.ofBits_def, Ideal.ofBits_zero_f32]
  simp only [hl, hr, x_apply, w_apply]
  rfl

/-! ## Mean, variance and the final formula -/

/-- The row mean, kept as a [8, 2048, 1] column. -/
theorem mean_apply (x0 : S8x2048x128.Idx → EReal) (x2 : S8x2048x30.Idx → BitVec 32) (x3 : S8x2048.Idx → EReal) (x4 : S3x128x128.Idx → EReal) (x5 x6 x7 : S3x128.Idx → EReal) (b : Fin 8) (l : Fin 2048) :
    val_main_v128 (F := Ideal) x0 x2 x3 x4 x5 x6 x7 (ix3 b l (0 : Fin 1))
      = mean (aggGather (nbR x2 b) c30 (tabR (val_main_v100 (F := Ideal) x0 x2 x3 x4 x5 x6 x7) b)) (tabR (val_main_v100 (F := Ideal) x0 x2 x3 x4 x5 x6 x7) b)
          (wtsR x4 2) (rowR x5 2) l := by
  have h1 : idx_main_v126 (ix3 b l (0 : Fin 1)) = ix2 b l := funext fun a => Fin.ext (by match a with | ⟨0, _⟩ => rfl | ⟨1, _⟩ => rfl)
  have h2 : ∀ k : Fin 128, idx_main_v125 (ix2 b l) k = ix3 b l k := fun k => funext fun a => Fin.ext (by match a with | ⟨0, _⟩ => rfl | ⟨1, _⟩ => rfl | ⟨2, _⟩ => rfl)
  rw [val_main_v128_apply, val_main_v126_apply, h1, val_main_v125_apply, val_main_cst_20_apply, val_main_v127_apply,
    val_main_cst_21_apply]
  simp only [h2, act_apply, Ideal.ofBits_def, Ideal.ofBits_zero_f32]
  rw [zero_add]
  rfl

/-- The row variance about the mean, kept as a [8, 2048, 1] column. -/
theorem var_apply (x0 : S8x2048x128.Idx → EReal) (x2 : S8x2048x30.Idx → BitVec 32) (x3 : S8x2048.Idx → EReal) (x4 : S3x128x128.Idx → EReal) (x5 x6 x7 : S3x128.Idx → EReal) (b : Fin 8) (l : Fin 2048) :
    val_main_v135 (F := Ideal) x0 x2 x3 x4 x5 x6 x7 (ix3 b l (0 : Fin 1))
      = var (aggGather (nbR x2 b) c30 (tabR (val_main_v100 (F := Ideal) x0 x2 x3 x4 x5 x6 x7) b)) (tabR (val_main_v100 (F := Ideal) x0 x2 x3 x4 x5 x6 x7) b)
          (wtsR x4 2) (rowR x5 2) l := by
  have h1 : idx_main_v133 (ix3 b l (0 : Fin 1)) = ix2 b l := funext fun a => Fin.ext (by match a with | ⟨0, _⟩ => rfl | ⟨1, _⟩ => rfl)
  have h2 : ∀ k : Fin 128, idx_main_v132 (ix2 b l) k = ix3 b l k := fun k => funext fun a => Fin.ext (by match a with | ⟨0, _⟩ => rfl | ⟨1, _⟩ => rfl | ⟨2, _⟩ => rfl)
  have h3 : ∀ k : Fin 128, idx_main_v129 (ix3 b l k) = ix3 b l (0 : Fin 1) := fun k => funext fun a => Fin.ext (by match a with | ⟨0, _⟩ => rfl | ⟨1, _⟩ => rfl | ⟨2, _⟩ => rfl)
  rw [val_main_v135_apply, val_main_v133_apply, h1, val_main_v132_apply, val_main_cst_22_apply, val_main_v134_apply,
    val_main_cst_23_apply]
  simp only [h2, val_main_v131_apply, val_main_v130_apply, val_main_v129_apply, h3, mean_apply, act_apply,
    Ideal.ofBits_def, Ideal.ofBits_zero_f32]
  rw [zero_add]
  rfl

/-- The reference's third layer at one entry is the specification's layer over the gathered average. -/
theorem rlayer2 (x0 : S8x2048x128.Idx → EReal) (x2 : S8x2048x30.Idx → BitVec 32) (x3 : S8x2048.Idx → EReal) (x4 : S3x128x128.Idx → EReal) (x5 x6 x7 : S3x128.Idx → EReal) (b : Fin 8) (l : Fin 2048) (e : Fin 128) :
    val_main_v150 (F := Ideal) x0 x2 x3 x4 x5 x6 x7 (ix3 b l e)
      = layer (aggGather (nbR x2 b) c30) (tabR (val_main_v100 (F := Ideal) x0 x2 x3 x4 x5 x6 x7) b) (wtsR x4 2) (rowR x5 2) (rowR x6 2) (rowR x7 2) (mkR x3 b) l e := by
  have h1 : idx_main_v149 (ix3 b l e) = ix3 b l (0 : Fin 1) := funext fun a => Fin.ext (by match a with | ⟨0, _⟩ => rfl | ⟨1, _⟩ => rfl | ⟨2, _⟩ => rfl)
  have h2 : idx_main_v0 (ix3 b l (0 : Fin 1)) = ix2 b l := funext fun a => Fin.ext (by match a with | ⟨0, _⟩ => rfl | ⟨1, _⟩ => rfl)
  have h3 : idx_main_v136 (ix3 b l e) = ix3 b l (0 : Fin 1) := funext fun a => Fin.ext (by match a with | ⟨0, _⟩ => rfl | ⟨1, _⟩ => rfl | ⟨2, _⟩ => rfl)
  have h4 : idx_main_v141 (ix3 b l e) = ix3 b l (0 : Fin 1) := funext fun a => Fin.ext (by match a with | ⟨0, _⟩ => rfl | ⟨1, _⟩ => rfl | ⟨2, _⟩ => rfl)
  rw [val_main_v150_apply, val_main_v148_apply, val_main_v145_apply, val_main_v142_apply, val_main_v137_apply,
    val_main_v136_apply, h3, val_main_v141_apply, h4, val_main_v140_apply, val_main_v139_apply, val_main_v138_apply,
    val_main_cst_24_apply, val_main_v149_apply, h1, val_main_v0_apply, h2, gamma_apply, beta_apply, act_apply, mean_apply,
    var_apply]
  rfl

end Cert.ReferenceIdeal.RLayer2

end
-- ==== Proof.RNet.lean ====
/-
  The reference's three layers in a row: its result at (b, l, e) is the network of Spec.lean over the gathered average,
  on batch b's node states, with the three layers' weights.
-/
import proofs.«400262_j80745385165161_3_alg».proof.Proof.RLayer0
import proofs.«400262_j80745385165161_3_alg».proof.Proof.RLayer1
import proofs.«400262_j80745385165161_3_alg».proof.Proof.RLayer2

noncomputable section

namespace Cert.ReferenceIdeal.RNet

open Idealize.ShloMosaic Idealize.ShloMosaic.ValueIdx Cert.ReferenceIdeal Cert.ReferenceIdeal.Read Cert.ReferenceIdeal.RRd Cert.Gcn

theorem ref_net (x0 : S8x2048x128.Idx → EReal) (x2 : S8x2048x30.Idx → BitVec 32) (x3 : S8x2048.Idx → EReal) (x4 : S3x128x128.Idx → EReal) (x5 x6 x7 : S3x128.Idx → EReal) (b : Fin 8) (l : Fin 2048) (e : Fin 128) :
    val_main_v150 (F := Ideal) x0 x2 x3 x4 x5 x6 x7 (ix3 b l e)
      = net (aggGather (nbR x2 b) c30) (tabR x0 b) (wtsR x4) (rowR x5) (rowR x6) (rowR x7) (mkR x3 b) l e := by
  have h0 : tabR (val_main_v50 (F := Ideal) x0 x2 x3 x4 x5 x6 x7) b
      = layer (aggGather (nbR x2 b) c30) (tabR x0 b) (wtsR x4 0) (rowR x5 0) (rowR x6 0) (rowR x7 0) (mkR x3 b) := by
    funext l d
    exact RLayer0.rlayer0 x0 x2 x3 x4 x5 x6 x7 b l d
  have h1 : tabR (val_main_v100 (F := Ideal) x0 x2 x3 x4 x5 x6 x7) b
      = layer (aggGather (nbR x2 b) c30) (tabR (val_main_v50 (F := Ideal) x0 x2 x3 x4 x5 x6 x7) b) (wtsR x4 1) (rowR x5 1) (rowR x6 1)
          (rowR x7 1) (mkR x3 b) := by
    funext l d
    exact RLayer1.rlayer1 x0 x2 x3 x4 x5 x6 x7 b l d
  rw [RLayer2.rlayer2, h1, h0]
  rfl

end Cert.ReferenceIdeal.RNet

end
-- ==== Proof.PreRange.lean ====
/-
  The added conjuncts of the precondition, decoded: when the precondition's predicate is all ones, every neighbour
  index word is at least 0 and below 2048 as a signed number, hence below 2048 as an unsigned one.
-/
import proofs.«400262_j80745385165161_3_alg».proof.Pre_finite_inputs
import proofs.«400262_j80745385165161_3_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Range

open Idealize.ShloMosaic Cert.Pre_finite_inputs

/-- The scalar shape has one index. -/
instance subsingleton_scalar_idx : Subsingleton S_.Idx := ⟨fun a b => funext fun d => d.elim0⟩

/-- A 32-bit word that is at least 0 and below 2048 as a signed number is below 2048 as an unsigned one: a word whose
    unsigned value is 2³¹ or more reads negative when signed, so the first comparison leaves only words whose signed and
    unsigned values agree. -/
theorem toNat_lt_of_signed (w : BitVec 32) (h0 : IntOp.cmpi .sge w 0#32 = 1#1) (h1 : IntOp.cmpi .slt w 2048#32 = 1#1) :
    w.toNat < 2048 := by
  rw [IntOp.cmpi_sge] at h0
  rw [IntOp.cmpi_slt] at h1
  have z : (0#32 : BitVec 32).toInt = 0 := by decide
  have k : (2048#32 : BitVec 32).toInt = 2048 := by decide
  rw [z] at h0
  rw [k] at h1
  have hw := w.isLt
  rw [BitVec.toInt_eq_toNat_cond] at h0 h1
  split at h0 <;> omega

theorem idx_range {F : FTy → Type} [FloatOps F] (a0 : FVec F S8x2048x128 .f32) (a1 : FVec F S8x2048x30x64 .f32)
    (a2 : IVec S8x2048x30 32) (a3 : FVec F S8x2048 .f32) (a4 : FVec F S3x128x128 .f32) (a5 a6 a7 : FVec F S3x128 .f32)
    (h : fn (F := F) a0 a1 a2 a3 a4 a5 a6 a7 = fun _ => 1#1) (i : S8x2048x30.Idx) : (a2 i).toNat < 2048 := by
  -- the predicate at its one index: the conjunction of the nine conjuncts is 1
  have e := congrFun h ValueIdx.ix0
  unfold fn fn_part1 fn_part2 at e
  dsimp only at e
  -- the last two conjuncts: every word is ≥ 0, every word is < 2048 (signed)
  obtain ⟨e', e40⟩ := IntOp.andi_eq_one.1 e
  obtain ⟨-, e36⟩ := IntOp.andi_eq_one.1 e'
  -- each is a reduction by `and` over the whole array, so it holds at index i; the compared constants are broadcast scalars
  have h36 : IntOp.cmpi .sge (a2 i) 0#32 = 1#1 := Host.reduce_andi_all _ _ _ _ _ e36 i
  have h40 : IntOp.cmpi .slt (a2 i) 2048#32 = 1#1 := Host.reduce_andi_all _ _ _ _ _ e40 i
  exact toNat_lt_of_signed _ h36 h40

end Cert.Pre_finite_inputs.Range

end
-- ==== Proof.Consts.lean ====
/-
  The divisor 30 as the reference writes it: the f32 pattern 0x41F00000 denotes the real number 30.
-/
import Idealize.ShloMosaic.PureOps.Ideal

noncomputable section

namespace Cert.Gcn

open Idealize.ShloMosaic

theorem ofBits_30 : Ideal.ofBits .f32 0x41F00000#32 = ((30 : ℝ) : EReal) := by
  simp [Ideal.ofBits, Ideal.ieee, -EReal.coe_mul]; norm_num

end Cert.Gcn

end
-- ==== Proof.Bridge.lean ====
/-
  The kernel's result function and the reference's last stage are one function of the arguments, where every neighbour
  index lies in [0, 2048).

  There the host's clip leaves the indices as they are, the reference's "make absolute, then clamp" does too, so both
  programs read the same neighbour rows; an index word equals the word of column j exactly when the row it names is j, so
  the kernel's count matrix counts the reference's neighbour rows; and the count average is then the gathered average
  (Spec.lean), 30 being what the reference's divisor pattern denotes and 1/30 what the kernel's named constant does.
-/
import proofs.«400262_j80745385165161_3_alg».proof.Defs
import proofs.«400262_j80745385165161_3_alg».proof.Proof.KRun
import proofs.«400262_j80745385165161_3_alg».proof.Proof.RNet
import proofs.«400262_j80745385165161_3_alg».proof.Proof.PreRange
import proofs.«400262_j80745385165161_3_alg».proof.Proof.Consts

noncomputable section

namespace Cert.Bridge

open Idealize.ShloMosaic Idealize.ShloMosaic.TcCoe Idealize.ShloMosaic.ValueIdx Idealize.SL.Sem
open Cert.Gcn Cert.KernelIdeal.KRun Cert.ReferenceIdeal.RRd

/-- For an index word below 2048: it is the word of column j exactly when the row the reference's gather reads is j. -/
theorem word_eq_iff (w : BitVec 32) (hw : w.toNat < 2048) (j : Fin 2048) :
    w = BitVec.ofNat 32 j.val ↔ (⟨min (wrapW w).toInt.toNat (2048 - 1), by omega⟩ : Fin 2048) = j := by
  have hti : w.toInt = w.toNat := StableHlo.Predicate.toInt_eq_toNat_of_lt (by omega)
  have hwrap : wrapW w = w := by
    unfold wrapW
    exact IndexRange.select_wrap_eq 2048#32 (by rw [hti]; exact Int.natCast_nonneg _)
  have hj := j.isLt
  rw [Fin.ext_iff]
  show _ ↔ min (wrapW w).toInt.toNat (2048 - 1) = j.val
  rw [hwrap, hti, Int.toNat_natCast]
  constructor
  · intro h
    have : w.toNat = j.val := by rw [h, BitVec.toNat_ofNat]; omega
    omega
  · intro h
    apply BitVec.eq_of_toNat_eq
    rw [BitVec.toNat_ofNat]
    omega

variable (m : (ℓ : Loc Cert.KernelIdeal.nD Cert.KernelIdeal.τ Cert.KernelIdeal.sig) → Buf (Elt Ideal) ℓ)

/-- THE TWO RESULTS ARE ONE: under the precondition the kernel's result function is the reference's last stage of the same
    arguments. -/
theorem result_eq (hpre : Cert.Pre_KernelIdeal m) (c : Dev Cert.KernelIdeal.nD) :
    Cert.ReferenceIdeal.Read.val_main_v150 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = G m c := by
  have hrange : ∀ i : Cert.KernelIdeal.S8x2048x30.Idx, ((m ((c.tc : Thread Cert.KernelIdeal.nD Cert.KernelIdeal.τ).loc Cert.KernelIdeal.main_arg2)) i).toNat < 2048 :=
    fun i => Cert.Pre_finite_inputs.Range.idx_range _ _ _ _ _ _ _ _ (hpre c) i
  funext y
  obtain ⟨b, l, e, rfl⟩ : ∃ (b : Fin 8) (l : Fin 2048) (e : Fin 128), y = ix3 b l e := ⟨y 0, y 1, y 2, eq_ix3 y⟩
  rw [Cert.ReferenceIdeal.RNet.ref_net]
  show _ = blockNet (batch (Cert.KernelIdeal.Gen.V m c Cert.KernelIdeal.main_arg0) b) (batch (Cert.KernelIdeal.Gen.V m c Cert.KernelIdeal.main_v0) b)
    (batch (Cert.KernelIdeal.Gen.V m c Cert.KernelIdeal.main_v1) b) (Cert.KernelIdeal.Gen.V m c Cert.KernelIdeal.main_arg4)
    (Cert.KernelIdeal.Gen.V m c Cert.KernelIdeal.main_arg5) (Cert.KernelIdeal.Gen.V m c Cert.KernelIdeal.main_arg6)
    (Cert.KernelIdeal.Gen.V m c Cert.KernelIdeal.main_arg7) l e
  unfold blockNet
  have hagg : aggCount (cntX (batch (Cert.KernelIdeal.Gen.V m c Cert.KernelIdeal.main_v0) b)) ((1 / 30 : ℝ) : EReal)
      = aggGather (nbR (m ((c.tc : Thread Cert.KernelIdeal.nD Cert.KernelIdeal.τ).loc Cert.KernelIdeal.main_arg2)) b) c30 := by
    rw [show (c30 : EReal) = ((30 : ℝ) : EReal) from ofBits_30]
    refine aggCount_eq_aggGather _ _ fun l j => ?_
    unfold cntX
    refine Finset.sum_congr rfl fun k _ => ?_
    have hv : batch (Cert.KernelIdeal.Gen.V m c Cert.KernelIdeal.main_v0) b (ix3 (0 : Fin 1) l k) = (m ((c.tc : Thread Cert.KernelIdeal.nD Cert.KernelIdeal.τ).loc Cert.KernelIdeal.main_arg2)) (ix3 b l k) :=
      Cert.KernelIdeal.KHost.V_idx_apply m c (ix3 b l k) (hrange _)
    rw [hv]
    exact if_congr (word_eq_iff _ (hrange _) j) rfl rfl
  rw [hagg, Cert.KernelIdeal.Gen.V_main_arg0, Cert.KernelIdeal.Gen.V_main_arg4, Cert.KernelIdeal.Gen.V_main_arg5,
    Cert.KernelIdeal.Gen.V_main_arg6, Cert.KernelIdeal.Gen.V_main_arg7]
  have hmask : (fun l => batch (Cert.KernelIdeal.Gen.V m c Cert.KernelIdeal.main_v1) b (ix3 (0 : Fin 1) l (0 : Fin 1))) = mkR (m ((c.tc : Thread Cert.KernelIdeal.nD Cert.KernelIdeal.τ).loc Cert.KernelIdeal.main_arg3)) b :=
    funext fun l => Cert.KernelIdeal.KHost.V_mask_apply m c b l
  rw [hmask]
  rfl

end Cert.Bridge

end
-- ==== Proof.lean ====
/-
  The certificate of a three-layer graph-convolution encoder: a Pallas kernel against its jnp reference, over the extended
  reals, for finite float inputs and neighbour indices in [0, 2048).

  Each layer replaces a node's state h by LN(relu((h + a)·W + b))·γ + β, masked, where a is the average of the states of the
  node's 30 neighbours.  The reference gathers the 30 rows, adds them and divides by 30.  The kernel builds, once per batch,
  the 2048 × 2048 matrix counting how often node j is a neighbour of node l (eight column tiles of 256, each the sum of 30
  indicator tiles), and takes the average as that matrix times the state table, times the constant 1/30.  With indices in
  range the kernel's clip and the reference's wrap-and-clamp both leave them alone, the count matrix counts exactly the
  gathered rows, and — its entries being non-negative — its product with any table of extended reals is the sum of the
  gathered rows; dividing by 30 is multiplying by 1/30 on every extended real.  Everything after the average is the same
  arithmetic in both programs, so the three layers agree entry by entry.

  The kernel's body is run once with the piece it stores written out (KBody / KBBody), the frame certificate and the
  blockwise value leg are taken over that run, the eight blocks tile the result (KRun), the reference's run is stated over
  its stages (RRun), and Bridge joins the two results under the precondition.
-/
import proofs.«400262_j80745385165161_3_alg».proof.Defs
import proofs.«400262_j80745385165161_3_alg».proof.Proof.Gen.Kernel
import proofs.«400262_j80745385165161_3_alg».proof.Proof.Gen.KernelIdeal
import proofs.«400262_j80745385165161_3_alg».proof.Proof.Gen.ReferenceIdeal
import proofs.«400262_j80745385165161_3_alg».proof.Proof.Gen.Pre_finite_inputs
import proofs.«400262_j80745385165161_3_alg».proof.Proof.KBFrame
import proofs.«400262_j80745385165161_3_alg».proof.Proof.Bridge
import proofs.«400262_j80745385165161_3_alg».proof.Proof.RRun
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The three named constants (one per layer) denote 1/30, as the certificate's table says. -/
theorem preserves : Cert.preserves_Kernel_KernelIdeal :=
  ⟨IdealRules.named_const.statement Cert.KernelIdeal.κ "inv_30" .f32 0x3D088889#32 ((1 / 30 : ℝ) : EReal) rfl,
   IdealRules.named_const.statement Cert.KernelIdeal.κ "inv_30" .f32 0x3D088889#32 ((1 / 30 : ℝ) : EReal) rfl,
   IdealRules.named_const.statement Cert.KernelIdeal.κ "inv_30" .f32 0x3D088889#32 ((1 / 30 : ℝ) : EReal) rfl⟩

/-- Both idealized programs end with the same result: the kernel's array is the network over the count average, the
    reference's the network over the gathered average, and under the precondition these are one function. -/
theorem algebraic : Cert.algebraic_KernelIdeal_ReferenceIdeal := by
  intro m ρ m' ρ' hpre hagree
  refine ⟨fun c => Cert.KernelIdeal.KRun.G m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2.1, (hagree c).2.2.2.1, (hagree c).2.2.2.2.1, (hagree c).2.2.2.2.2.1,
    (hagree c).2.2.2.2.2.2.1, (hagree c).2.2.2.2.2.2.2]
  exact Cert.Bridge.result_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
